-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x32x4096 : Shape := ⟨3, ![8, 32, 4096]⟩
abbrev S8x2816x4096 : Shape := ⟨3, ![8, 2816, 4096]⟩
abbrev S8x32x1408 : Shape := ⟨3, ![8, 32, 1408]⟩
abbrev S8x4096x1408 : Shape := ⟨3, ![8, 4096, 1408]⟩
abbrev S8 : Shape := ⟨1, ![8]⟩
abbrev S_ : Shape := ⟨0, ![]⟩

class Facts : Prop where
  bcast_S_S8x32x4096 : S_.BroadcastsInDim S8x32x4096 (![] : Fin 0 → Fin S8x32x4096.rank)
  reducesTo_S8x32x4096_S_d0_1_2 : S8x32x4096.ReducesTo [0, 1, 2] S_
  h_S_ : 0 < S_.numel
  bcast_S_S8x2816x4096 : S_.BroadcastsInDim S8x2816x4096 (![] : Fin 0 → Fin S8x2816x4096.rank)
  reducesTo_S8x2816x4096_S_d0_1_2 : S8x2816x4096.ReducesTo [0, 1, 2] S_
  bcast_S_S8x32x1408 : S_.BroadcastsInDim S8x32x1408 (![] : Fin 0 → Fin S8x32x1408.rank)
  reducesTo_S8x32x1408_S_d0_1_2 : S8x32x1408.ReducesTo [0, 1, 2] S_
  bcast_S_S8x4096x1408 : S_.BroadcastsInDim S8x4096x1408 (![] : Fin 0 → Fin S8x4096x1408.rank)
  reducesTo_S8x4096x1408_S_d0_1_2 : S8x4096x1408.ReducesTo [0, 1, 2] S_

variable [Facts]

def fn_part1 {F : FTy → Type} [FloatOps F] (main_v13 : IVec S_ 1) (main_v16 : IVec S8x4096x1408 1) : IVec S_ 1 :=
  let main_c_5 : IVec S_ 1 := constantI S_ 1 1#1
  let main_v17 : IVec S_ 1 := (fun x v => Host.reduce IntOp.andi x v reducesTo_S8x4096x1408_S_d0_1_2 h_S_) main_v16 main_c_5
  let main_v18 : IVec S_ 1 := andi main_v13 main_v17
  main_v18

def fn {F : FTy → Type} [FloatOps F] (main_arg0 : FVec F S8x32x4096 .f32) (main_arg1 : FVec F S8x2816x4096 .f32) (main_arg2 : FVec F S8x32x1408 .f32) (main_arg3 : FVec F S8x4096x1408 .f32) (main_arg4 : IVec S8 32) : IVec S_ 1 :=
  let main_v0 : FVec F S8x32x4096 .f32 := Host.absf main_arg0
  let main_cst : FVec F S_ .f32 := constant S_ .f32 0x7F800000#32
  let main_v1 : FVec F S8x32x4096 .f32 := broadcastInDim S8x32x4096 ![] bcast_S_S8x32x4096 main_cst
  let main_v2 : IVec S8x32x4096 1 := cmpf .olt main_v0 main_v1
  let main_c : IVec S_ 1 := constantI S_ 1 1#1
  let main_v3 : IVec S_ 1 := (fun x v => Host.reduce IntOp.andi x v reducesTo_S8x32x4096_S_d0_1_2 h_S_) main_v2 main_c
  let main_v4 : FVec F S8x2816x4096 .f32 := Host.absf main_arg1
  let main_cst_0 : FVec F S_ .f32 := constant S_ .f32 0x7F800000#32
  let main_v5 : FVec F S8x2816x4096 .f32 := broadcastInDim S8x2816x4096 ![] bcast_S_S8x2816x4096 main_cst_0
  let main_v6 : IVec S8x2816x4096 1 := cmpf .olt main_v4 main_v5
  let main_c_1 : IVec S_ 1 := constantI S_ 1 1#1
  let main_v7 : IVec S_ 1 := (fun x v => Host.reduce IntOp.andi x v reducesTo_S8x2816x4096_S_d0_1_2 h_S_) main_v6 main_c_1
  let main_v8 : IVec S_ 1 := andi main_v3 main_v7
  let main_v9 : FVec F S8x32x1408 .f32 := Host.absf main_arg2
  let main_cst_2 : FVec F S_ .f32 := constant S_ .f32 0x7F800000#32
  let main_v10 : FVec F S8x32x1408 .f32 := broadcastInDim S8x32x1408 ![] bcast_S_S8x32x1408 main_cst_2
  let main_v11 : IVec S8x32x1408 1 := cmpf .olt main_v9 main_v10
  let main_c_3 : IVec S_ 1 := constantI S_ 1 1#1
  let main_v12 : IVec S_ 1 := (fun x v => Host.reduce IntOp.andi x v reducesTo_S8x32x1408_S_d0_1_2 h_S_) main_v11 main_c_3
  let main_v13 : IVec S_ 1 := andi main_v8 main_v12
  let main_v14 : FVec F S8x4096x1408 .f32 := Host.absf main_arg3
  let main_cst_4 : FVec F S_ .f32 := constant S_ .f32 0x7F800000#32
  let main_v15 : FVec F S8x4096x1408 .f32 := broadcastInDim S8x4096x1408 ![] bcast_S_S8x4096x1408 main_cst_4
  let main_v16 : IVec S8x4096x1408 1 := cmpf .olt main_v14 main_v15
  fn_part1 (F := F) main_v13 main_v16
-- ==== Kernel.lean ====
abbrev S8x32x4096 : Shape := ⟨3, ![8, 32, 4096]⟩
abbrev S8x2816x4096 : Shape := ⟨3, ![8, 2816, 4096]⟩
abbrev S8x32x1408 : Shape := ⟨3, ![8, 32, 1408]⟩
abbrev S8x4096x1408 : Shape := ⟨3, ![8, 4096, 1408]⟩
abbrev S8 : Shape := ⟨1, ![8]⟩
abbrev S8x32x2816 : Shape := ⟨3, ![8, 32, 2816]⟩
abbrev S1x32x1024 : Shape := ⟨3, ![1, 32, 1024]⟩
abbrev S1x2816x1024 : Shape := ⟨3, ![1, 2816, 1024]⟩
abbrev S1x32x2816 : Shape := ⟨3, ![1, 32, 2816]⟩
abbrev S1 : Shape := ⟨1, ![1]⟩
abbrev S32x1024 : Shape := ⟨2, ![32, 1024]⟩
abbrev S2816x1024 : Shape := ⟨2, ![2816, 1024]⟩
abbrev S32x2816 : Shape := ⟨2, ![32, 2816]⟩
abbrev S1x32x1408 : Shape := ⟨3, ![1, 32, 1408]⟩
abbrev S1x2048x1408 : Shape := ⟨3, ![1, 2048, 1408]⟩
abbrev S1x32x2048 : Shape := ⟨3, ![1, 32, 2048]⟩
abbrev S32x1408 : Shape := ⟨2, ![32, 1408]⟩
abbrev S2048x1408 : Shape := ⟨2, ![2048, 1408]⟩
abbrev S32x2048 : Shape := ⟨2, ![32, 2048]⟩
abbrev S8x32x6912 : Shape := ⟨3, ![8, 32, 6912]⟩

abbrev nBuf : Space → Nat
  | .hbm => 7
  | .vmem => 12
  | .smem => 1
  | _ => 0

abbrev bufTy : (tb : Table) → Fin (tcTables nBuf tb) → BufTy
  | .hbm, ⟨0, _⟩ => ⟨S8x32x4096, .f32⟩
  | .hbm, ⟨1, _⟩ => ⟨S8x2816x4096, .f32⟩
  | .hbm, ⟨2, _⟩ => ⟨S8x32x1408, .f32⟩
  | .hbm, ⟨3, _⟩ => ⟨S8x4096x1408, .f32⟩
  | .hbm, ⟨4, _⟩ => ⟨S8x32x2816, .f32⟩
  | .hbm, ⟨5, _⟩ => ⟨S8x32x4096, .f32⟩
  | .hbm, ⟨6, _⟩ => ⟨S8x32x6912, .f32⟩
  | .local _ .vmem, ⟨0, _⟩ => ⟨S1x32x1024, .f32⟩
  | .local _ .vmem, ⟨1, _⟩ => ⟨S1x32x1024, .f32⟩
  | .local _ .vmem, ⟨2, _⟩ => ⟨S1x2816x1024, .f32⟩
  | .local _ .vmem, ⟨3, _⟩ => ⟨S1x2816x1024, .f32⟩
  | .local _ .vmem, ⟨4, _⟩ => ⟨S1x32x2816, .f32⟩
  | .local _ .vmem, ⟨5, _⟩ => ⟨S1x32x2816, .f32⟩
  | .local _ .vmem, ⟨6, _⟩ => ⟨S1x32x1408, .f32⟩
  | .local _ .vmem, ⟨7, _⟩ => ⟨S1x32x1408, .f32⟩
  | .local _ .vmem, ⟨8, _⟩ => ⟨S1x2048x1408, .f32⟩
  | .local _ .vmem, ⟨9, _⟩ => ⟨S1x2048x1408, .f32⟩
  | .local _ .vmem, ⟨10, _⟩ => ⟨S1x32x2048, .f32⟩
  | .local _ .vmem, ⟨11, _⟩ => ⟨S1x32x2048, .f32⟩
  | .local _ .smem, ⟨0, _⟩ => ⟨S8, .i32⟩
  | _, _ => ⟨S8x32x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_arg4 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨2, ![8, 4], ![false, false]⟩

abbrev pre0 : Pipeline.Prefetch sig := ⟨1, ![main_arg4.idx], fun | 0 => main_arg4.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v3 : Index := Scalar.indexCast arg0
  ![v3.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x32x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2816x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x32x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![8, 2], ![false, false]⟩

abbrev pre1 : Pipeline.Prefetch sig := ⟨1, ![main_arg4.idx], fun | 0 => main_arg4.names | ⟨_ + 1, h⟩ => absurd h (Nat.not_lt.2 (Nat.le_add_left _ _)), fun | 0 => rfl | ⟨_ + 1, h⟩ => absurd h (Nat.not_lt.2 (Nat.le_add_left _ _))⟩

def k1_off1 (i : grid1.Coords) : Fin 1 → Nat :=
  let arg0 : BitVec 32 := BitVec.ofNat 32 (i 0).val
  let v0 : Index := Scalar.indexCast arg0
  ![v0.toNat]
def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage1_0 : Fin 2 → Memref sig .tc .vmem S1x32x1408 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x2048x1408 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x32x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  inb_S1x32x2816_S1x32x2816_0_0_0 : ∀ a, (![0, 0, 0] : Fin 3 → Nat) a + S1x32x2816.size a ≤ S1x32x2816.size a
  h_S1x32x2816 : 0 < S1x32x2816.numel
  numel1_S1 : S1.numel = 1
  inb_S1x32x1024_S1x32x1024_0_0_0 : ∀ a, (![0, 0, 0] : Fin 3 → Nat) a + S1x32x1024.size a ≤ S1x32x1024.size a
  h_S1x32x1024 : 0 < S1x32x1024.numel
  shapeCasts_S1x32x1024_S32x1024 : S1x32x1024.ShapeCasts S32x1024
  iota_S32x1024_d0_w32 : S32x1024.Iotas .tc 32 [0]
  bitsLt_bf16_f32 : FTy.bits .bf16 < FTy.bits .f32
  inb_S1x2816x1024_S1x2816x1024_0_0_0 : ∀ a, (![0, 0, 0] : Fin 3 → Nat) a + S1x2816x1024.size a ≤ S1x2816x1024.size a
  h_S1x2816x1024 : 0 < S1x2816x1024.numel
  shapeCasts_S1x2816x1024_S2816x1024 : S1x2816x1024.ShapeCasts S2816x1024
  shapeCasts_S1x32x2816_S32x2816 : S1x32x2816.ShapeCasts S32x2816
  shapeCasts_S32x2816_S1x32x2816 : S32x2816.ShapeCasts S1x32x2816
  inb_S1x32x1408_S1x32x1408_0_0_0 : ∀ a, (![0, 0, 0] : Fin 3 → Nat) a + S1x32x1408.size a ≤ S1x32x1408.size a
  h_S1x32x1408 : 0 < S1x32x1408.numel
  shapeCasts_S1x32x1408_S32x1408 : S1x32x1408.ShapeCasts S32x1408
  iota_S32x1408_d0_w32 : S32x1408.Iotas .tc 32 [0]
  inb_S1x2048x1408_S1x2048x1408_0_0_0 : ∀ a, (![0, 0, 0] : Fin 3 → Nat) a + S1x2048x1408.size a ≤ S1x2048x1408.size a
  h_S1x2048x1408 : 0 < S1x2048x1408.numel
  shapeCasts_S1x2048x1408_S2048x1408 : S1x2048x1408.ShapeCasts S2048x1408
  inb_S1x32x2048_S1x32x2048_0_0_0 : ∀ a, (![0, 0, 0] : Fin 3 → Nat) a + S1x32x2048.size a ≤ S1x32x2048.size a
  h_S1x32x2048 : 0 < S1x32x2048.numel
  shapeCasts_S1x32x2048_S32x2048 : S1x32x2048.ShapeCasts S32x2048
  shapeCasts_S32x2048_S1x32x2048 : S32x2048.ShapeCasts S1x32x2048
  concatenates_S8x32x2816_S8x32x4096_S8x32x6912_d2 : Shape.Concatenates [S8x32x2816, S8x32x4096] S8x32x6912 2
  dot_S32x1024_S2816x1024_S32x2816_1_1_0_0_n_n_wf : DotDims.WF S32x1024 S2816x1024 S32x2816 [1] [1] [0] [0] [] []
  dot_S32x1408_S2048x1408_S32x2048_1_1_0_0_n_n_wf : DotDims.WF S32x1408 S2048x1408 S32x2048 [1] [1] [0] [0] [] []
  hrank0 : 0 < grid0.rank
  k0_off1_inb : ∀ i : grid0.Coords, ∀ a, (k0_off1 i) a + S1.size a ≤ S8.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x32x1024.size a ≤ S8x32x4096.size a
  hwx0_0 : ∀ i : grid0.Coords, EltTy.bits .f32 = 32 ∨ (Rect.block (s := S8x32x4096) S1x32x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2816x1024.size a ≤ S8x2816x4096.size a
  hwx0_1 : ∀ i : grid0.Coords, EltTy.bits .f32 = 32 ∨ (Rect.block (s := S8x2816x4096) S1x2816x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x32x2816.size a ≤ S8x32x2816.size a
  hwx0_2 : ∀ i : grid0.Coords, EltTy.bits .f32 = 32 ∨ (Rect.block (s := S8x32x2816) S1x32x2816.size (cc0_transform_2 i) (hinb0_2 i)).WholeWords (EltTy.packing .f32)
  hrank1 : 0 < grid1.rank
  k1_off1_inb : ∀ i : grid1.Coords, ∀ a, (k1_off1 i) a + S1.size a ≤ S8.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x32x1408.size a ≤ S8x32x1408.size a
  hwx1_0 : ∀ i : grid1.Coords, EltTy.bits .f32 = 32 ∨ (Rect.block (s := S8x32x1408) S1x32x1408.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x1408.size a ≤ S8x4096x1408.size a
  hwx1_1 : ∀ i : grid1.Coords, EltTy.bits .f32 = 32 ∨ (Rect.block (s := S8x4096x1408) S1x2048x1408.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x32x2048.size a ≤ S8x32x4096.size a
  hwx1_2 : ∀ i : grid1.Coords, EltTy.bits .f32 = 32 ∨ (Rect.block (s := S8x32x4096) S1x32x2048.size (cc1_transform_2 i) (hinb1_2 i)).WholeWords (EltTy.packing .f32)

variable [Facts₀]

def dot_S32x1024_S2816x1024_S32x2816_1_1_0_0_n_n : DotDims S32x1024 S2816x1024 S32x2816 where
  lhsContracting := [1]
  rhsContracting := [1]
  lhsNonContracting := [0]
  rhsNonContracting := [0]
  lhsBatch := []
  rhsBatch := []
  wf := dot_S32x1024_S2816x1024_S32x2816_1_1_0_0_n_n_wf
def dot_S32x1408_S2048x1408_S32x2048_1_1_0_0_n_n : DotDims S32x1408 S2048x1408 S32x2048 where
  lhsContracting := [1]
  rhsContracting := [1]
  lhsNonContracting := [0]
  rhsNonContracting := [0]
  lhsBatch := []
  rhsBatch := []
  wf := dot_S32x1408_S2048x1408_S32x2048_1_1_0_0_n_n_wf

abbrev spec0_0 : Pipeline.WinSpec sig grid0.rank :=
  Pipeline.WinSpec.ofSpec (Memref.whole main_arg0) S1x32x1024.size reads0_0 false false 2 stage0_0 sem0_0 nbuf0_0 hstage0_0

abbrev spec0_1 : Pipeline.WinSpec sig grid0.rank :=
  Pipeline.WinSpec.ofSpec (Memref.whole main_arg1) S1x2816x1024.size reads0_1 false false 2 stage0_1 sem0_1 nbuf0_1 hstage0_1

abbrev spec0_2 : Pipeline.WinSpec sig grid0.rank :=
  Pipeline.WinSpec.ofSpec (Memref.whole main_v0) S1x32x2816.size reads0_2 true false 2 stage0_2 sem0_2 nbuf0_2 hstage0_2

abbrev spec0 : Fin 3 → Pipeline.WinSpec sig grid0.rank := fun | 0 => spec0_0 | 1 => spec0_1 | 2 => spec0_2 | ⟨_ + 3, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | ⟨_ + 3, h⟩ => absurd h (Nat.not_lt.2 (Nat.le_add_left _ _))
abbrev ix0 (pf : pre0.Contents (Elt F)) : (w : Fin 3) → grid0.Coords → Fin (spec0 w).shape.rank → Nat := fun | 0 => cc0_transform_0 | 1 => cc0_transform_1 | 2 => cc0_transform_2 | ⟨_ + 3, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | 2 => hreads0_2 | ⟨_ + 3, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | 1 => hinb0_1 | 2 => hinb0_2 | ⟨_ + 3, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | 1 => hwx0_1 | 2 => hwx0_2 | ⟨_ + 3, h⟩ => absurd h (Nat.not_lt.2 (Nat.le_add_left _ _))
abbrev spec1_0 : Pipeline.WinSpec sig grid1.rank :=
  Pipeline.WinSpec.ofSpec (Memref.whole main_arg2) S1x32x1408.size reads1_0 false false 2 stage1_0 sem1_0 nbuf1_0 hstage1_0

abbrev spec1_1 : Pipeline.WinSpec sig grid1.rank :=
  Pipeline.WinSpec.ofSpec (Memref.whole main_arg3) S1x2048x1408.size reads1_1 false false 2 stage1_1 sem1_1 nbuf1_1 hstage1_1

abbrev spec1_2 : Pipeline.WinSpec sig grid1.rank :=
  Pipeline.WinSpec.ofSpec (Memref.whole main_v1) S1x32x2048.size reads1_2 true false 2 stage1_2 sem1_2 nbuf1_2 hstage1_2

abbrev spec1 : Fin 3 → Pipeline.WinSpec sig grid1.rank := fun | 0 => spec1_0 | 1 => spec1_1 | 2 => spec1_2 | ⟨_ + 3, h⟩ => absurd h (Nat.not_lt.2 (Nat.le_add_left _ _))
theorem hcount1 : ∀ w, grid1.bufCount (spec1 w).reads (spec1 w).sync = (spec1 w).nbuf := fun | 0 => nbuf1_0 | 1 => nbuf1_1 | 2 => nbuf1_2 | ⟨_ + 3, h⟩ => absurd h (Nat.not_lt.2 (Nat.le_add_left _ _))
abbrev ix1 (pf : pre1.Contents (Elt F)) : (w : Fin 3) → grid1.Coords → Fin (spec1 w).shape.rank → Nat := fun | 0 => cc1_transform_0 | 1 => cc1_transform_1 | 2 => cc1_transform_2 | ⟨_ + 3, h⟩ => absurd h (Nat.not_lt.2 (Nat.le_add_left _ _))
theorem hreads1 : ∀ (pf : pre1.Contents (Elt F)) w (i i' : grid1.Coords), (∀ a, (spec1 w).reads a = true → i a = i' a) → ix1 pf w i = ix1 pf w i' := fun pf => fun | 0 => hreads1_0 | 1 => hreads1_1 | 2 => hreads1_2 | ⟨_ + 3, h⟩ => absurd h (Nat.not_lt.2 (Nat.le_add_left _ _))
def ok1 (_ : pre1.Contents (Elt F)) : Prop :=
  True
instance (pf : pre1.Contents (Elt F)) : Decidable (ok1 pf) := decidable_of_iff' _ (Iff.of_eq (ok1.eq_1 pf))
theorem hinb1 : ∀ (pf : pre1.Contents (Elt F)), ok1 pf → ∀ w (i : grid1.Coords) a, (ix1 pf w i a + 1) * (spec1 w).size a ≤ (spec1 w).shape.size a :=
  fun _ _ => fun | 0 => hinb1_0 | 1 => hinb1_1 | 2 => hinb1_2 | ⟨_ + 3, h⟩ => absurd h (Nat.not_lt.2 (Nat.le_add_left _ _))
theorem hwx1 : ∀ (pf : pre1.Contents (Elt F)) (hok : ok1 pf) w (i : grid1.Coords), (spec1 w).elt.bits = 32 ∨ (Rect.block (spec1 w).size (ix1 pf w i) (hinb1 pf hok w i)).WholeWords (spec1 w).elt.packing :=
  fun _ _ => fun | 0 => hwx1_0 | 1 => hwx1_1 | 2 => hwx1_2 | ⟨_ + 3, h⟩ => absurd h (Nat.not_lt.2 (Nat.le_add_left _ _))

class Facts : Prop extends Facts₀ where
  harr0 : ∀ w, (spec0 w).arr.IsWhole
  harr1 : ∀ w, (spec1 w).arr.IsWhole

variable [Facts]
-- ==== ReferenceIdeal.lean ====
abbrev S8x32x4096 : Shape := ⟨3, ![8, 32, 4096]⟩
abbrev S8x2816x4096 : Shape := ⟨3, ![8, 2816, 4096]⟩
abbrev S8x32x1408 : Shape := ⟨3, ![8, 32, 1408]⟩
abbrev S8x4096x1408 : Shape := ⟨3, ![8, 4096, 1408]⟩
abbrev S8 : Shape := ⟨1, ![8]⟩
abbrev S32 : Shape := ⟨1, ![32]⟩
abbrev S1x32 : Shape := ⟨2, ![1, 32]⟩
abbrev S8x1 : Shape := ⟨2, ![8, 1]⟩
abbrev S8x32 : Shape := ⟨2, ![8, 32]⟩
abbrev S8x32x1 : Shape := ⟨3, ![8, 32, 1]⟩
abbrev S8x32x2816 : Shape := ⟨3, ![8, 32, 2816]⟩
abbrev S_ : Shape := ⟨0, ![]⟩
abbrev S8x32x6912 : Shape := ⟨3, ![8, 32, 6912]⟩

abbrev nBuf : Space → Nat
  | .hbm => 23
  | .vmem => 0
  | .smem => 0
  | _ => 0

abbrev bufTy : (tb : Table) → Fin (tcTables nBuf tb) → BufTy
  | .hbm, ⟨0, _⟩ => ⟨S8x32x4096, .f32⟩
  | .hbm, ⟨1, _⟩ => ⟨S8x2816x4096, .f32⟩
  | .hbm, ⟨2, _⟩ => ⟨S8x32x1408, .f32⟩
  | .hbm, ⟨3, _⟩ => ⟨S8x4096x1408, .f32⟩
  | .hbm, ⟨4, _⟩ => ⟨S8, .i32⟩
  | .hbm, ⟨5, _⟩ => ⟨S32, .i32⟩
  | .hbm, ⟨6, _⟩ => ⟨S1x32, .i32⟩
  | .hbm, ⟨7, _⟩ => ⟨S8x1, .i32⟩
  | .hbm, ⟨8, _⟩ => ⟨S8x32, .i32⟩
  | .hbm, ⟨9, _⟩ => ⟨S8x32, .i32⟩
  | .hbm, ⟨10, _⟩ => ⟨S8x32, .i1⟩
  | .hbm, ⟨11, _⟩ => ⟨S8x32x1, .i1⟩
  | .hbm, ⟨12, _⟩ => ⟨S8x32x2816, .f32⟩
  | .hbm, ⟨13, _⟩ => ⟨S8x32x4096, .f32⟩
  | .hbm, ⟨14, _⟩ => ⟨S_, .f32⟩
  | .hbm, ⟨15, _⟩ => ⟨S8x32x2816, .i1⟩
  | .hbm, ⟨16, _⟩ => ⟨S8x32x2816, .f32⟩
  | .hbm, ⟨17, _⟩ => ⟨S8x32x2816, .f32⟩
  | .hbm, ⟨18, _⟩ => ⟨S_, .f32⟩
  | .hbm, ⟨19, _⟩ => ⟨S8x32x4096, .i1⟩
  | .hbm, ⟨20, _⟩ => ⟨S8x32x4096, .f32⟩
  | .hbm, ⟨21, _⟩ => ⟨S8x32x4096, .f32⟩
  | .hbm, ⟨22, _⟩ => ⟨S8x32x6912, .f32⟩
  | _, _ => ⟨S8x32x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_call0_v0 : Ref sig .tc := ⟨.hbm, 15, rfl⟩
abbrev main_call0_v1 : Ref sig .tc := ⟨.hbm, 16, rfl⟩
abbrev main_v9 : Ref sig .tc := ⟨.hbm, 17, rfl⟩
abbrev main_cst_0 : Ref sig .tc := ⟨.hbm, 18, rfl⟩
abbrev main_call1_v0 : Ref sig .tc := ⟨.hbm, 19, rfl⟩
abbrev main_call1_v1 : Ref sig .tc := ⟨.hbm, 20, rfl⟩
abbrev main_v10 : Ref sig .tc := ⟨.hbm, 21, rfl⟩
abbrev main_v11 : Ref sig .tc := ⟨.hbm, 22, rfl⟩

abbrev nD : Nat := 1
abbrev τ : Topo := Topo.v7x

variable {F : FTy → Type} [FloatOps F]

class Facts₀ : Prop where
  bcast_S32_S1x32_1 : S32.BroadcastsInDim S1x32 (![1] : Fin 1 → Fin S1x32.rank)
  bcast_S8_S8x1_0 : S8.BroadcastsInDim S8x1 (![0] : Fin 1 → Fin S8x1.rank)
  bcast_S1x32_S8x32_0_1 : S1x32.BroadcastsInDim S8x32 (![0, 1] : Fin 2 → Fin S8x32.rank)
  bcast_S8x1_S8x32_0_1 : S8x1.BroadcastsInDim S8x32 (![0, 1] : Fin 2 → Fin S8x32.rank)
  bcast_S8x32_S8x32x1_0_1 : S8x32.BroadcastsInDim S8x32x1 (![0, 1] : Fin 2 → Fin S8x32x1.rank)
  bcast_S8x32x1_S8x32x2816_0_1_2 : S8x32x1.BroadcastsInDim S8x32x2816 (![0, 1, 2] : Fin 3 → Fin S8x32x2816.rank)
  bcast_S_S8x32x2816 : S_.BroadcastsInDim S8x32x2816 (![] : Fin 0 → Fin S8x32x2816.rank)
  bcast_S8x32x1_S8x32x4096_0_1_2 : S8x32x1.BroadcastsInDim S8x32x4096 (![0, 1, 2] : Fin 3 → Fin S8x32x4096.rank)
  bcast_S_S8x32x4096 : S_.BroadcastsInDim S8x32x4096 (![] : Fin 0 → Fin S8x32x4096.rank)
  concatenates_S8x32x2816_S8x32x4096_S8x32x6912_d2 : Shape.Concatenates [S8x32x2816, S8x32x4096] S8x32x6912 2
  dot_S8x32x4096_S8x2816x4096_S8x32x2816_2_2_1_1_0_0_wf : DotDims.WF S8x32x4096 S8x2816x4096 S8x32x2816 [2] [2] [1] [1] [0] [0]
  dot_S8x32x1408_S8x4096x1408_S8x32x4096_2_2_1_1_0_0_wf : DotDims.WF S8x32x1408 S8x4096x1408 S8x32x4096 [2] [2] [1] [1] [0] [0]

variable [Facts₀]

def dot_S8x32x4096_S8x2816x4096_S8x32x2816_2_2_1_1_0_0 : DotDims S8x32x4096 S8x2816x4096 S8x32x2816 where
  lhsContracting := [2]
  rhsContracting := [2]
  lhsNonContracting := [1]
  rhsNonContracting := [1]
  lhsBatch := [0]
  rhsBatch := [0]
  wf := dot_S8x32x4096_S8x2816x4096_S8x32x2816_2_2_1_1_0_0_wf
def dot_S8x32x1408_S8x4096x1408_S8x32x4096_2_2_1_1_0_0 : DotDims S8x32x1408 S8x4096x1408 S8x32x4096 where
  lhsContracting := [2]
  rhsContracting := [2]
  lhsNonContracting := [1]
  rhsNonContracting := [1]
  lhsBatch := [0]
  rhsBatch := [0]
  wf := dot_S8x32x1408_S8x4096x1408_S8x32x4096_2_2_1_1_0_0_wf

class Facts : Prop extends Facts₀ where

variable [Facts]
-- ==== Proof.BitsRegion0.lean ====
/-
  Region 0 (the K-tiled masked GEMM, grid 8 x 4): the output block (g, :, :) stays in its staging buffer through the
  four K-tiles of a group and is written back after the last; the body at tile k of group g zeroes the block when
  k = 0, then adds to it the product of the row-masked x tile (g, :, k-th tile) with the w tile (g, :, k-th tile).

  So the proof data's `after` of the output window is a recursion on the grid point: the body's payload of the point's
  input blocks, the table's word for the group, and either the zero block (first tile) or what the point before
  left (later tiles). The schedule facts the recursion leans on (the write-back happens exactly after the last tile;
  the minor grid coordinate is the point modulo 4) do not depend on the table, whose contents the index maps never
  read: they are decided once at closed contents and hold at any by unfolding.
-/
import proofs.«402499_j13950053777726_3_alg».proof.Proof.Gen.Kernel.Launch
import proofs.«402499_j13950053777726_3_alg».proof.Proof.Gen.Kernel.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import Idealize.ShloMosaic.PureOps.BitExact

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz3' : (![0, 0, 0] : Fin 3 → Nat) = fun _ => 0 := funext fun a => by fin_cases a <;> rfl

/-! ## The body on whole staging buffers -/

/-- The table's word the body reads at grid point `i`: the entry of the group `i 0`. -/
def word0 (i : grid0.Coords) (x2 : Vec F S8 .i32) : Elt F .i32 :=
  x2 ((Rect.unit (s := S8) (k0_off1 i) S1.size (k0_off1_inb i)).emb (Shape.Idx.first (numel1_S1.symm ▸ Nat.one_pos)))

abbrev rO0 : Rect S1x32x2816 := Rect.unit (s := S1x32x2816) ![0, 0, 0] S1x32x2816.size inb_S1x32x2816_S1x32x2816_0_0_0

/-- The last store is of the whole block, whatever was stored before it. -/
theorem cover0 (p0 : Vec F S1x32x2816 .f32) (L : List (View.Piece (Elt F) S1x32x2816 .f32)) (y : S1x32x2816.Idx) :
    ∃ pc ∈ ((⟨rO0, p0⟩ : View.Piece (Elt F) S1x32x2816 .f32) :: L), y ∈ pc.1.set := by
  obtain ⟨pc, hpc, hy⟩ := View.cover_of_tiled [(⟨rO0, p0⟩ : View.Piece (Elt F) S1x32x2816 .f32)] S1x32x2816.size (by rfl) y
  rw [List.mem_singleton] at hpc; subst hpc
  exact ⟨_, List.mem_cons_self .., hy⟩

/-- The body's branch is taken exactly at the first K-tile. -/
theorem cond_iff : ∀ k : Fin 4, (Scalar.cmpi .ne (Scalar.extui (Scalar.cmpi .eq (BitVec.ofNat 32 k.val) 0#32)) 0#32 = 1#1) ↔ k.val = 0 := by decide

set_option maxHeartbeats 1000000 in
/-- At a first K-tile: the output buffer, at anything, is zeroed, read back and ends at the payload over the zero block. -/
theorem sound_kernel0_first (c : Dev nD) (E : Set ℕ) (i : grid0.Coords) (hk : (i 1).val = 0)
    (arg2 : Memref sig .tc .smem S8 .i32) (harg2 : arg2.IsWhole)
    (arg3 : Memref sig .tc .vmem S1x32x1024 .f32) (harg3 : arg3.IsWhole)
    (arg4 : Memref sig .tc .vmem S1x2816x1024 .f32) (harg4 : arg4.IsWhole)
    (arg5 : Memref sig .tc .vmem S1x32x2816 .f32) (harg5 : arg5.IsWhole)
    (q : PosShare TreeShare) (x2 : Vec F S8 .i32) (x3 : Vec F S1x32x1024 .f32) (x4 : Vec F S1x2816x1024 .f32) (K : PUnit → sProp 𝕄) :
    iprop(owns (c : Thread nD τ) arg2 q x2 ∗ owns (c : Thread nD τ) arg3 fullShare x3 ∗ owns (c : Thread nD τ) arg4 fullShare x4
        ∗ (∃ d, owns (c : Thread nD τ) arg5 fullShare d)
        ∗ (iprop(owns (c : Thread nD τ) arg2 q x2 ∗ owns (c : Thread nD τ) arg3 fullShare x3 ∗ owns (c : Thread nD τ) arg4 fullShare x4
            ∗ owns (c : Thread nD τ) arg5 fullShare (k0_pay2 (word0 i x2) x3 x4 (k0_pay1 (F := F)))) -∗ K ⟨⟩))
      ⊢ wp frame (wpE (defs₀ (F := F)) Variants.none c none) E (cc0__masked_gemm_ktiled_kernel i arg2 harg2 arg3 harg3 arg4 harg4 arg5 harg5) K := by
  have hv : Scalar.cmpi .ne (Scalar.extui (Scalar.cmpi .eq (BitVec.ofNat 32 (i 1).val) 0#32)) 0#32 = 1#1 := (cond_iff (i 1)).mpr hk
  simp only [cc0__masked_gemm_ktiled_kernel_eq_skeleton]; unfold cc0__masked_gemm_ktiled_kernel_skel
  unfold owns
  iintro ⟨⟨%f2, %hf2, H2⟩, ⟨%f3, %hf3, H3⟩, ⟨%f4, %hf4, H4⟩, ⟨%d5, %f5, -, H5⟩, Hk⟩
  subst hf2 hf3 hf4
  sl_exec (disch := exact hv)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  rw [View.read_writes_eq_canon _ _ _ (cover0 _ _)]
  sl_unfold_words
  rw [View.canon_cons_unit_zero hz3']
  simp only [View.readAt_eq_ld, View.ld_unit_zero (S := S1x32x1024) hz3', View.ld_unit_zero (S := S1x2816x1024) hz3', View.readCov_unit_zero (S := S1x32x2816) _ hz3']
  rfl

set_option maxHeartbeats 1000000 in
/-- At a later K-tile: the output buffer, at the running sum `x5`, ends at the payload over `x5`. -/
theorem sound_kernel0_later (c : Dev nD) (E : Set ℕ) (i : grid0.Coords) (hk : (i 1).val ≠ 0)
    (arg2 : Memref sig .tc .smem S8 .i32) (harg2 : arg2.IsWhole)
    (arg3 : Memref sig .tc .vmem S1x32x1024 .f32) (harg3 : arg3.IsWhole)
    (arg4 : Memref sig .tc .vmem S1x2816x1024 .f32) (harg4 : arg4.IsWhole)
    (arg5 : Memref sig .tc .vmem S1x32x2816 .f32) (harg5 : arg5.IsWhole)
    (q : PosShare TreeShare) (x2 : Vec F S8 .i32) (x3 : Vec F S1x32x1024 .f32) (x4 : Vec F S1x2816x1024 .f32) (x5 : Vec F S1x32x2816 .f32) (K : PUnit → sProp 𝕄) :
    iprop(owns (c : Thread nD τ) arg2 q x2 ∗ owns (c : Thread nD τ) arg3 fullShare x3 ∗ owns (c : Thread nD τ) arg4 fullShare x4
        ∗ owns (c : Thread nD τ) arg5 fullShare x5
        ∗ (iprop(owns (c : Thread nD τ) arg2 q x2 ∗ owns (c : Thread nD τ) arg3 fullShare x3 ∗ owns (c : Thread nD τ) arg4 fullShare x4
            ∗ owns (c : Thread nD τ) arg5 fullShare (k0_pay2 (word0 i x2) x3 x4 x5)) -∗ K ⟨⟩))
      ⊢ wp frame (wpE (defs₀ (F := F)) Variants.none c none) E (cc0__masked_gemm_ktiled_kernel i arg2 harg2 arg3 harg3 arg4 harg4 arg5 harg5) K := by
  have hv : ¬ Scalar.cmpi .ne (Scalar.extui (Scalar.cmpi .eq (BitVec.ofNat 32 (i 1).val) 0#32)) 0#32 = 1#1 := fun h => hk ((cond_iff (i 1)).mp h)
  simp only [cc0__masked_gemm_ktiled_kernel_eq_skeleton]; unfold cc0__masked_gemm_ktiled_kernel_skel
  unfold owns
  iintro ⟨⟨%f2, %hf2, H2⟩, ⟨%f3, %hf3, H3⟩, ⟨%f4, %hf4, H4⟩, ⟨%f5, %hf5, H5⟩, Hk⟩
  subst hf2 hf3 hf4 hf5
  sl_exec (disch := exact hv)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  rw [View.read_writes_eq_canon _ _ _ (cover0 _ _)]
  sl_unfold_words
  rw [View.canon_cons_unit_zero hz3']
  simp only [View.readAt_eq_ld, View.ld_unit_zero (S := S1x32x1024) hz3', View.ld_unit_zero (S := S1x2816x1024) hz3', View.ld_unit_zero (S := S1x32x2816) hz3']
  rfl

/-! ## The schedule, which the table does not enter -/

/-- Closed contents of the table to decide the schedule at. -/
def admZ0 : (pcfg0 (F := Bits)).Adm := ⟨fun _ => Classical.arbitrary _, trivial⟩

theorem flushZ0 : ∀ t : Fin (cfg0 (F := Bits) admZ0).N, ((cfg0 (F := Bits) admZ0).win 2).flush t = decide (t.val % 4 = 3) := by
  decide +kernel
theorem coordZ0 : ∀ t : Fin (cfg0 (F := Bits) admZ0).N, ((cfg0 (F := Bits) admZ0).grid.coords t 1).val = t.val % 4 := by
  decide +kernel

variable (a0 : (pcfg0 (F := F)).Adm)

/-- The output block is written back exactly after a group's last K-tile. -/
theorem flush0_2 (t : Fin (cfg0 a0).N) : ((cfg0 a0).win 2).flush t = decide (t.val % 4 = 3) := flushZ0 t
/-- The K-tile of a point is the point modulo 4. -/
theorem coord0_1 (t : Fin (cfg0 a0).N) : ((cfg0 a0).grid.coords t 1).val = t.val % 4 := coordZ0 t
theorem N0_eq : (cfg0 a0).N = 32 := N_0

/-! ## The proof data, at the table's contents `a0` and the entry contents `V` -/

variable (V : (c : Dev nD) → (b : Ref sig .tc) → Buf (Elt F) ((c : Thread nD τ).loc b))

/-- Window `w`'s block at point `t`, read off its array as the region finds it. -/
def iblk0 (c : Dev nD) (w : Fin (cfg0 a0).W) (t : Fin (cfg0 a0).N) :
    (((cfg0 a0).win w).xblock ((cfg0 a0).grid.coords t)).Idx → Elt F ((cfg0 a0).win w).elt :=
  (((cfg0 a0).win w).blk t).view.read (Elt F) (V c (Pipeline.arrRef spec0 w))

/-- The table as the body's word reads it. -/
abbrev tbl0 : Vec F S8 .i32 := a0.1 0

/-- What the body leaves in the output block at point `n`: the running sum over the group's K-tiles so far. -/
def acc0 (c : Dev nD) (n : Nat) (h : n < (cfg0 a0).N) : Vec F S1x32x2816 .f32 :=
  k0_pay2 (word0 (grid0.coords ⟨n, h⟩) (tbl0 a0)) (iblk0 a0 V c 0 ⟨n, h⟩) (iblk0 a0 V c 1 ⟨n, h⟩)
    (if hk : n % 4 = 0 then k0_pay1 (F := F) else acc0 c (n - 1) (by omega))
termination_by n
decreasing_by omega

theorem acc0_eq (c : Dev nD) (n : Nat) (h : n < (cfg0 a0).N) : acc0 a0 V c n h =
    k0_pay2 (word0 (grid0.coords ⟨n, h⟩) (tbl0 a0)) (iblk0 a0 V c 0 ⟨n, h⟩) (iblk0 a0 V c 1 ⟨n, h⟩)
      (if hk : n % 4 = 0 then k0_pay1 (F := F) else acc0 a0 V c (n - 1) (by omega)) := by
  rw [acc0]

/-- The invariant: the scoped buffers the region does not stage and the generator register, beside the table, whole. -/
def Phi0 (c : Dev nD) : sProp 𝕄 :=
  iprop(Pipeline.ΦA spec0 c ∗ owns (c : Thread nD τ) (Memref.whole main_arg4) fullShare (tbl0 a0))

def dat0 (c : Dev nD) : Dat τ (Elt F) Unit ℕ (UR sig nD τ) ℕ (cfg0 a0) c where
  A w := V c (Pipeline.arrRef spec0 w)
  after w t := match w with
    | ⟨0, _⟩ => iblk0 a0 V c 0 t
    | ⟨1, _⟩ => iblk0 a0 V c 1 t
    | ⟨2, _⟩ => acc0 a0 V c t.val t.isLt
  Φ _ := Phi0 a0 c
  q _ := fullShare
  owed _ := 0

theorem A_eq0 (c : Dev nD) (w : Fin 3) : (dat0 a0 V c).A w = V c (Pipeline.arrRef spec0 w) := by
  dsimp only [dat0]
theorem after0_0 (c : Dev nD) (t : Fin (cfg0 a0).N) : (dat0 a0 V c).after (0 : Fin 3) t = iblk0 a0 V c 0 t := rfl
theorem after0_1 (c : Dev nD) (t : Fin (cfg0 a0).N) : (dat0 a0 V c).after (1 : Fin 3) t = iblk0 a0 V c 1 t := rfl
theorem after0_2 (c : Dev nD) (t : Fin (cfg0 a0).N) : (dat0 a0 V c).after (2 : Fin 3) t = acc0 a0 V c t.val t.isLt := rfl

/-- An input's current staging buffer holds its block at every point, fetched there or not. -/
theorem before0_0 (c : Dev nD) (t : Fin (cfg0 a0).N) (d) : (dat0 a0 V c).before (0 : Fin 3) t d = iblk0 a0 V c 0 t :=
  ((dat0 a0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin (cfg0 a0).N) (d) : (dat0 a0 V c).before (1 : Fin 3) t d = iblk0 a0 V c 1 t :=
  ((dat0 a0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

/-- At a first K-tile the output's buffer is fresh: the first point, or the point after a write-back. -/
theorem before0_2_first (c : Dev nD) (t : Fin (cfg0 a0).N) (hk : t.val % 4 = 0) (d) : (dat0 a0 V c).before (2 : Fin 3) t d = d := by
  refine (dat0 a0 V c).before_out_reset 2 rfl t ?_ d
  by_cases h0 : t.val = 0
  · exact .inl h0
  · refine .inr ⟨h0, ?_⟩
    rw [flush0_2]; exact decide_eq_true (by dsimp only; omega)

/-- At a later K-tile it holds the running sum the tile before left. -/
theorem before0_2_later (c : Dev nD) (t : Fin (cfg0 a0).N) (hk : t.val % 4 ≠ 0) (d) :
    (dat0 a0 V c).before (2 : Fin 3) t d = acc0 a0 V c (t.val - 1) (by have := t.isLt; omega) := by
  have h0 : t.val ≠ 0 := fun h => hk (by rw [h])
  rw [(dat0 a0 V c).before_out_kept 2 rfl t h0 (by rw [flush0_2]; exact decide_eq_false (by dsimp only; omega)) (fun _ => rfl) (fun _ _ => rfl) d]
  rfl

/-! ## The body obligation -/

/-- At every point the inputs' buffers hold their blocks and the output's is fresh (first tile) or holds the running
    sum (later tiles), so the matching triple applies; the table goes in and comes back with the invariant. -/
theorem body_obligation0 (c : Dev nD) : BodyObligation (dat0 a0 V c) (defs₀ (F := F)) Variants.none () Set.univ := fun t => by
  rw [bigSep_W0, bigSep_W0]
  simp only [before0_0, before0_1]
  rw [show (dat0 a0 V c).Φ t.succ = Phi0 a0 c from rfl, show (dat0 a0 V c).Φ t.castSucc = Phi0 a0 c from rfl,
    show (dat0 a0 V c).owesAt () t.succ = (dat0 a0 V c).owesAt () t.castSucc from rfl,
    after0_0, after0_1, after0_2, acc0_eq]
  unfold Phi0
  by_cases hk : t.val % 4 = 0
  · rw [dif_pos hk]
    simp only [before0_2_first a0 V c t hk]
    iintro ⟨⟨HA, HT⟩, Ho, ⟨%d0, H0⟩, ⟨%d1, H1⟩, ⟨%d2, H2⟩⟩
    iapply (sound_kernel0_first c Set.univ (grid0.coords t) ((coord0_1 a0 t).trans hk) (Memref.whole main_arg4) (Memref.isWhole_whole _)
      (spec0_0.stage ((cfg0 a0).slots t 0)) (hstage0_0 (((cfg0 a0).slots t 0).cast nbuf0_0))
      (spec0_1.stage ((cfg0 a0).slots t 1)) (hstage0_1 (((cfg0 a0).slots t 1).cast nbuf0_1))
      (spec0_2.stage ((cfg0 a0).slots t 2)) (hstage0_2 (((cfg0 a0).slots t 2).cast nbuf0_2))
      fullShare (tbl0 a0) (iblk0 a0 V c 0 t) (iblk0 a0 V c 1 t) _)
    isplitl [HT]; · iexact HT
    isplitl [H0]; · iexact H0
    isplitl [H1]; · iexact H1
    isplitl [H2]; · iexists _; iexact H2
    iintro ⟨HT, H0, H1, H2⟩
    isplitl [HA HT]
    · isplitl [HA]; · iexact HA
      iexact HT
    isplitl [Ho]; · iexact Ho
    isplitl [H0]; · iexact H0
    isplitl [H1]; · iexact H1
    iexact H2
  · rw [dif_neg hk]
    simp only [before0_2_later a0 V c t hk]
    iintro ⟨⟨HA, HT⟩, Ho, ⟨%d0, H0⟩, ⟨%d1, H1⟩, ⟨%d2, H2⟩⟩
    iapply (sound_kernel0_later c Set.univ (grid0.coords t) (fun h => hk ((coord0_1 a0 t).symm.trans h)) (Memref.whole main_arg4) (Memref.isWhole_whole _)
      (spec0_0.stage ((cfg0 a0).slots t 0)) (hstage0_0 (((cfg0 a0).slots t 0).cast nbuf0_0))
      (spec0_1.stage ((cfg0 a0).slots t 1)) (hstage0_1 (((cfg0 a0).slots t 1).cast nbuf0_1))
      (spec0_2.stage ((cfg0 a0).slots t 2)) (hstage0_2 (((cfg0 a0).slots t 2).cast nbuf0_2))
      fullShare (tbl0 a0) (iblk0 a0 V c 0 t) (iblk0 a0 V c 1 t) _ _)
    isplitl [HT]; · iexact HT
    isplitl [H0]; · iexact H0
    isplitl [H1]; · iexact H1
    isplitl [H2]; · iexact H2
    iintro ⟨HT, H0, H1, H2⟩
    isplitl [HA HT]
    · isplitl [HA]; · iexact HA
      iexact HT
    isplitl [Ho]; · iexact Ho
    isplitl [H0]; · iexact H0
    isplitl [H1]; · iexact H1
    iexact H2

end Cert.Kernel.Hand

end
-- ==== Proof.BitsRegion1.lean ====
/-
  Region 1 (the N-tiled masked GEMM, grid 8 x 2): what the body leaves in its output block, as one payload of the
  blocks it loads and of the row-count table's word for the group, and the pipeline's proof data over it.

  At grid point (g, n) the body reads the table's entry g, the x block (g, :, :) and the w block (g, n-th tile, :),
  masks the rows of x at or past the entry to zero, contracts with w over the last axis and stores the product whole
  into the output block (g, :, n-th tile). Nothing is carried from point to point, so the proof data's `after` of the
  output window is that payload at the point's blocks, the inputs' blocks stay where they were fetched, and the
  invariant is the scratch-free class invariant beside the table, which the body only reads.
-/
import proofs.«402499_j13950053777726_3_alg».proof.Proof.Gen.Kernel.Launch
import proofs.«402499_j13950053777726_3_alg».proof.Proof.Gen.Kernel.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz3 : (![0, 0, 0] : Fin 3 → Nat) = fun _ => 0 := funext fun a => by fin_cases a <;> rfl

/-! ## The body on whole staging buffers -/

/-- The table's word the body reads at grid point `i`: the entry of the group `i 0`. -/
def word1 (i : grid1.Coords) (x2 : Vec F S8 .i32) : Elt F .i32 :=
  x2 ((Rect.unit (s := S8) (k1_off1 i) S1.size (k1_off1_inb i)).emb (Shape.Idx.first (numel1_S1.symm ▸ Nat.one_pos)))

abbrev rO1 : Rect S1x32x2048 := Rect.unit (s := S1x32x2048) ![0, 0, 0] S1x32x2048.size inb_S1x32x2048_S1x32x2048_0_0_0

/-- The one store is of the whole block. -/
theorem cover1_2 (p0 : Vec F S1x32x2048 .f32) (y : S1x32x2048.Idx) :
    ∃ pc ∈ ([⟨rO1, p0⟩] : List (View.Piece (Elt F) S1x32x2048 .f32)), y ∈ pc.1.set :=
  View.cover_of_tiled [⟨rO1, p0⟩] S1x32x2048.size (by rfl) y

set_option maxHeartbeats 1000000 in
/-- The body, on whole memrefs holding the table `x2` (at any share), the x block `x3`, the w block `x4` and an output
    buffer at anything, runs to the continuation with the inputs as they were and the output at the payload of
    `x3`, `x4` and the table's word. -/
theorem sound_kernel1 (c : Dev nD) (E : Set ℕ) (i : grid1.Coords)
    (arg2 : Memref sig .tc .smem S8 .i32) (harg2 : arg2.IsWhole)
    (arg3 : Memref sig .tc .vmem S1x32x1408 .f32) (harg3 : arg3.IsWhole)
    (arg4 : Memref sig .tc .vmem S1x2048x1408 .f32) (harg4 : arg4.IsWhole)
    (arg5 : Memref sig .tc .vmem S1x32x2048 .f32) (harg5 : arg5.IsWhole)
    (q : PosShare TreeShare) (x2 : Vec F S8 .i32) (x3 : Vec F S1x32x1408 .f32) (x4 : Vec F S1x2048x1408 .f32) (K : PUnit → sProp 𝕄) :
    iprop(owns (c : Thread nD τ) arg2 q x2 ∗ owns (c : Thread nD τ) arg3 fullShare x3 ∗ owns (c : Thread nD τ) arg4 fullShare x4
        ∗ (∃ d, owns (c : Thread nD τ) arg5 fullShare d)
        ∗ (iprop(owns (c : Thread nD τ) arg2 q x2 ∗ owns (c : Thread nD τ) arg3 fullShare x3 ∗ owns (c : Thread nD τ) arg4 fullShare x4
            ∗ owns (c : Thread nD τ) arg5 fullShare (k1_pay1 (word1 i x2) x3 x4)) -∗ K ⟨⟩))
      ⊢ wp frame (wpE (defs₀ (F := F)) Variants.none c none) E (cc1__masked_gemm_ntiled_kernel i arg2 harg2 arg3 harg3 arg4 harg4 arg5 harg5) K := by
  simp only [cc1__masked_gemm_ntiled_kernel_eq_skeleton]; unfold cc1__masked_gemm_ntiled_kernel_skel
  unfold owns
  iintro ⟨⟨%f2, %hf2, H2⟩, ⟨%f3, %hf3, H3⟩, ⟨%f4, %hf4, H4⟩, ⟨%d5, %f5, -, H5⟩, Hk⟩
  subst hf2 hf3 hf4
  sl_exec
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  rw [View.read_writes_eq_canon _ _ _ (cover1_2 _)]
  sl_unfold_words
  rw [View.canon_unit_zero hz3]
  simp only [View.readAt_eq_ld, View.ld_unit_zero (S := S1x32x1408) hz3, View.ld_unit_zero (S := S1x2048x1408) hz3]
  rfl

/-! ## The proof data, at the table's contents `a1` and the entry contents `V` -/

variable (a1 : (pcfg1 (F := F)).Adm)
variable (V : (c : Dev nD) → (b : Ref sig .tc) → Buf (Elt F) ((c : Thread nD τ).loc b))

/-- Window `w`'s block at point `t`, read off its array as the region finds it. -/
def iblk1 (c : Dev nD) (w : Fin (cfg1 a1).W) (t : Fin (cfg1 a1).N) :
    (((cfg1 a1).win w).xblock ((cfg1 a1).grid.coords t)).Idx → Elt F ((cfg1 a1).win w).elt :=
  (((cfg1 a1).win w).blk t).view.read (Elt F) (V c (Pipeline.arrRef spec1 w))

/-- The table as the body's word reads it. -/
abbrev tbl1 : Vec F S8 .i32 := a1.1 0

/-- What the body leaves in the output block at point `t`. -/
def out1 (c : Dev nD) (t : Fin (cfg1 a1).N) : Vec F S1x32x2048 .f32 :=
  k1_pay1 (word1 (grid1.coords t) (tbl1 a1)) (iblk1 a1 V c 0 t) (iblk1 a1 V c 1 t)

/-- The invariant: the scoped buffers the region does not stage and the generator register, beside the table, whole. -/
def Phi1 (c : Dev nD) : sProp 𝕄 :=
  iprop(Pipeline.ΦA spec1 c ∗ owns (c : Thread nD τ) (Memref.whole main_arg4) fullShare (tbl1 a1))

def dat1 (c : Dev nD) : Dat τ (Elt F) Unit ℕ (UR sig nD τ) ℕ (cfg1 a1) c where
  A w := V c (Pipeline.arrRef spec1 w)
  after w t := match w with
    | ⟨0, _⟩ => iblk1 a1 V c 0 t
    | ⟨1, _⟩ => iblk1 a1 V c 1 t
    | ⟨2, _⟩ => out1 a1 V c t
  Φ _ := Phi1 a1 c
  q _ := fullShare
  owed _ := 0

theorem A_eq1 (c : Dev nD) (w : Fin 3) : (dat1 a1 V c).A w = V c (Pipeline.arrRef spec1 w) := by
  dsimp only [dat1]
theorem after1_0 (c : Dev nD) (t : Fin (cfg1 a1).N) : (dat1 a1 V c).after (0 : Fin 3) t = iblk1 a1 V c 0 t := rfl
theorem after1_1 (c : Dev nD) (t : Fin (cfg1 a1).N) : (dat1 a1 V c).after (1 : Fin 3) t = iblk1 a1 V c 1 t := rfl
theorem after1_2 (c : Dev nD) (t : Fin (cfg1 a1).N) : (dat1 a1 V c).after (2 : Fin 3) t = out1 a1 V c t := rfl

/-- An input's current staging buffer holds its block at every point, fetched there or not. -/
theorem before1_0 (c : Dev nD) (t : Fin (cfg1 a1).N) (d) : (dat1 a1 V c).before (0 : Fin 3) t d = iblk1 a1 V c 0 t :=
  ((dat1 a1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin (cfg1 a1).N) (d) : (dat1 a1 V c).before (1 : Fin 3) t d = iblk1 a1 V c 1 t :=
  ((dat1 a1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)

/-! ## The body obligation -/

/-- At every point the inputs' buffers hold their blocks, so the body's triple applies; the table goes in and comes
    back with the invariant, and nothing is owed. -/
theorem body_obligation1 (c : Dev nD) : BodyObligation (dat1 a1 V c) (defs₀ (F := F)) Variants.none () Set.univ := fun t => by
  rw [bigSep_W1, bigSep_W1]
  simp only [before1_0, before1_1]
  rw [show (dat1 a1 V c).Φ t.succ = Phi1 a1 c from rfl, show (dat1 a1 V c).Φ t.castSucc = Phi1 a1 c from rfl,
    show (dat1 a1 V c).owesAt () t.succ = (dat1 a1 V c).owesAt () t.castSucc from rfl,
    after1_0, after1_1, after1_2]
  unfold Phi1 out1
  iintro ⟨⟨HA, HT⟩, Ho, ⟨%d0, H0⟩, ⟨%d1, H1⟩, ⟨%d2, H2⟩⟩
  iapply (sound_kernel1 c Set.univ (grid1.coords t) (Memref.whole main_arg4) (Memref.isWhole_whole _)
    (spec1_0.stage ((cfg1 a1).slots t 0)) (hstage1_0 (((cfg1 a1).slots t 0).cast nbuf1_0))
    (spec1_1.stage ((cfg1 a1).slots t 1)) (hstage1_1 (((cfg1 a1).slots t 1).cast nbuf1_1))
    (spec1_2.stage ((cfg1 a1).slots t 2)) (hstage1_2 (((cfg1 a1).slots t 2).cast nbuf1_2))
    fullShare (tbl1 a1) (iblk1 a1 V c 0 t) (iblk1 a1 V c 1 t) _)
  isplitl [HT]; · iexact HT
  isplitl [H0]; · iexact H0
  isplitl [H1]; · iexact H1
  isplitl [H2]; · iexists _; iexact H2
  iintro ⟨HT, H0, H1, H2⟩
  isplitl [HA HT]
  · isplitl [HA]; · iexact HA
    iexact HT
  isplitl [Ho]; · iexact Ho
  isplitl [H0]; · iexact H0
  isplitl [H1]; · iexact H1
  iexact H2

end Cert.Kernel.Hand

end
-- ==== Proof.BitsRun.lean ====
/-
  The run of @main: region 0, region 1, then the host's concatenation of their two result arrays.

  The row-count table is read by both regions' bodies and by no index map, so the pipelines are taken at the table's
  launch contents, and each region's proof data at the contents it is entered from: region 0 from the launch memory,
  region 1 from the launch memory with region 0's result array in place. Between two items every unscoped buffer is
  held whole at a named valuation, beside the generator register and an empty debt; a region takes its arrays and the
  table out of that state, hands the table to its body's invariant, and puts everything back with its result array at
  what the write-backs leave. The frame follows from the conditional frame of the generated host side.
-/
import proofs.«402499_j13950053777726_3_alg».proof.Proof.BitsRegion0
import proofs.«402499_j13950053777726_3_alg».proof.Proof.BitsRegion1
import proofs.«402499_j13950053777726_3_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The table's contents, the entry contents of each region, and what each region leaves -/

/-- The row-count table as launched (the mesh has one core): what both regions' bodies read. -/
def admA : (pcfg0 (F := F)).Adm := ⟨fun k => m (((0 : Dev nD) : Thread nD τ).loc (pre0.ref k)), trivial⟩
def admB : (pcfg1 (F := F)).Adm := ⟨fun k => m (((0 : Dev nD) : Thread nD τ).loc (pre1.ref k)), trivial⟩
def adm : (p : Fin 2) → (pcfgs (F := F) p).Adm
  | ⟨0, _⟩ => admA m
  | ⟨1, _⟩ => admB m

/-- Region 0 is entered from the launch contents. -/
abbrev VA : (c : Dev nD) → (b : Ref sig .tc) → Buf (Elt F) ((c : Thread nD τ).loc b) := fun c b => Gen.V0 m c b
/-- What region 0 leaves in its result array: the write-backs of the running sums, folded. -/
def datA (c : Dev nD) : Dat τ (Elt F) Unit ℕ (UR sig nD τ) ℕ (cfg0 (admA m)) c := dat0 (admA m) (VA m) c
def outA (c : Dev nD) : Buf (Elt F) ((c : Thread nD τ).loc main_v0) := (datA m c).arrAt (2 : Fin 3) (cfg0 (admA m)).N
/-- Region 1 is entered from the launch contents with region 0's result in place. -/
abbrev Vmid (c : Dev nD) : Valuation τ sig (Elt F) := Function.update (Gen.V0 m c) main_v0 (outA m c)
abbrev VB : (c : Dev nD) → (b : Ref sig .tc) → Buf (Elt F) ((c : Thread nD τ).loc b) := fun c b => Vmid m c b
/-- What region 1 leaves in its result array. -/
def datB (c : Dev nD) : Dat τ (Elt F) Unit ℕ (UR sig nD τ) ℕ (cfg1 (admB m)) c := dat1 (admB m) (VB m) c
def outB (c : Dev nD) : Buf (Elt F) ((c : Thread nD τ).loc main_v1) := (datB m c).arrAt (2 : Fin 3) (cfg1 (admB m)).N

/-- The regions' results, as the conditional frame's unknowns. -/
def outs : Gen.Outs (F := F) := fun j r c =>
  if j = 1 then Function.update (fun r => m ((c : Thread nD τ).loc r)) main_v0 (outA m c) r
  else Function.update (fun r => m ((c : Thread nD τ).loc r)) main_v1 (outB m c) r
theorem outs_1 (c : Dev nD) : outs m 1 main_v0 c = outA m c := by unfold outs; rw [if_pos rfl, Function.update_self]
theorem outs_2 (c : Dev nD) : outs m 2 main_v1 c = outB m c := by unfold outs; rw [if_neg (by decide), Function.update_self]
theorem V1_eq (c : Dev nD) : Gen.V1 m (outs m) c = Vmid m c := by
  show Function.update (Gen.V0 m c) main_v0 (outs m 1 main_v0 c) = _; rw [outs_1]

/-- Every pipeline's proof data, each at its region's entry contents. -/
def pdats : (p : Fin 2) → (c : Dev nD) → Dat τ (Elt F) Unit ℕ (UR sig nD τ) ℕ (Pipeline.pin (pcfgs (F := F)) (adm m) p) c
  | ⟨0, _⟩ => datA m
  | ⟨1, _⟩ => datB m

/-! ## The thread state between items, and the regions as segments -/

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
def E : Fin 3 → Dev nD → sProp 𝕄 := fun _ c => R c

/-- The table, whole, is the one summand of the prefetched tables' conjunction. -/
theorem prefHeld0_eq (c : Dev nD) (v : pre0.Contents (Elt F)) :
    (Pipeline.prefHeld (Ix := Unit) (Name := ℕ) (U := UR sig nD τ) (Lvl := ℕ) pre0 c (fun _ => fullShare) v : sProp 𝕄)
      = owns (c : Thread nD τ) (Memref.whole main_arg4) fullShare (v 0) := by
  unfold Pipeline.prefHeld
  rw [show (Finset.univ : Finset (Fin 1)) = {(0 : Fin 1)} from by decide, bigSep_singleton]
  exact (owns_whole (c : Thread nD τ) main_arg4 fullShare (v 0)).symm
theorem prefHeld1_eq (c : Dev nD) (v : pre1.Contents (Elt F)) :
    (Pipeline.prefHeld (Ix := Unit) (Name := ℕ) (U := UR sig nD τ) (Lvl := ℕ) pre1 c (fun _ => fullShare) v : sProp 𝕄)
      = owns (c : Thread nD τ) (Memref.whole main_arg4) fullShare (v 0) := by
  unfold Pipeline.prefHeld
  rw [show (Finset.univ : Finset (Fin 1)) = {(0 : Fin 1)} from by decide, bigSep_singleton]
  exact (owns_whole (c : Thread nD τ) main_arg4 fullShare (v 0)).symm

/-- At region 0's exit each of its arrays holds what the pipeline leaves, and every other buffer what it held. -/
theorem V1_main_v0 (c : Dev nD) : Gen.V1 m (outs m) c main_v0 = outA m c := by
  show Function.update (Gen.V0 m c) main_v0 (outs m 1 main_v0 c) main_v0 = _
  rw [Function.update_self, outs_1]
theorem hF0_0 (c : Dev nD) : (datA m c).arrAt (0 : Fin 3) (cfg0 (admA m)).N = Gen.V1 m (outs m) c main_arg0 :=
  ((datA m c).arrAt_in 0 rfl _).trans ((A_eq0 (admA m) (VA m) c 0).trans (Gen.V1_of m (outs m) c main_arg0 (by decide)).symm)
theorem hF0_1 (c : Dev nD) : (datA m c).arrAt (1 : Fin 3) (cfg0 (admA m)).N = Gen.V1 m (outs m) c main_arg1 :=
  ((datA m c).arrAt_in 1 rfl _).trans ((A_eq0 (admA m) (VA m) c 1).trans (Gen.V1_of m (outs m) c main_arg1 (by decide)).symm)
theorem hF0_2 (c : Dev nD) : (datA m c).arrAt (2 : Fin 3) (cfg0 (admA m)).N = Gen.V1 m (outs m) c main_v0 :=
  (V1_main_v0 m c).symm
theorem hF0 (c : Dev nD) : ∀ w : Fin 3, (pdats m 0 c).arrAt w (cfg0 (admA m)).N = Gen.V1 m (outs m) c (Pipeline.arrRef spec0 w)
  | ⟨0, _⟩ => hF0_0 m c
  | ⟨1, _⟩ => hF0_1 m c
  | ⟨2, _⟩ => hF0_2 m c
theorem hrest0 (c : Dev nD) : ∀ b, b ∉ Finset.univ.image (Pipeline.arrRef spec0) → Gen.V1 m (outs m) c b = VA m c b :=
  fun b hb => Gen.V1_of m (outs m) c b (by
    rw [List.mem_singleton]; intro e; exact hb (Finset.mem_image.mpr ⟨2, Finset.mem_univ _, e.symm⟩))

theorem share0 (c : Dev nD) (w) : (pdats m 0 c).share w = fullShare := (pdats m 0 c).share_full (fun _ => rfl) w
theorem share1 (c : Dev nD) (w) : (pdats m 1 c).share w = fullShare := (pdats m 1 c).share_full (fun _ => rfl) w

set_option backward.isDefEq.respectTransparency.types false in
/-- REGION 0 as a segment: entered from every unscoped buffer at the launch contents, left with its result array at
    what its write-backs leave. The table goes into the body's invariant whole and comes back whole. -/
def reg0 : Pipeline.RegionSeg (pcfgs (F := F)) (adm m) (pdats m) () defs₀ 𝒱₀ L lv 0 where
  win := (launch0 (F := F)).win.to₀
  block_pos := (launch0 (F := F)).block_pos
  stage_whole := (launch0 (F := F)).stage_whole
  K := PEmpty
  osem k := k.elim
  ho := Pipeline.OwnSemFacts.none _
  hbody c := (body_obligation0 (admA m) (VA m) c).loose
  hwaits := Pipeline.hwaits_of_owed_zero (pcfgs (F := F)) (adm m) (pdats m) () L lv 0 fun _ _ => rfl
  pre c := iprop(StableHlo.held (c : Thread nD τ) (Pipeline.ucRefs τ sig) (Gen.V0 m c) ∗ R c)
  post c := iprop(StableHlo.held (c : Thread nD τ) (Pipeline.ucRefs τ sig) (Gen.V1 m (outs m) c) ∗ R c)
  X c := iprop(∃ r, prngReg c r)
  Y c := iprop((∃ r, prngReg c r) ∗ Pipeline.prefHeld pre0 c (fun _ => fullShare) (admA m).1)
  Z c := Pipeline.unscopedRestP (Ix := Unit) (Name := ℕ) (U := UR sig nD τ) (Lvl := ℕ) pre0 spec0 c (VA m c)
  hentry c := by
    obtain rfl : c = 0 := Subsingleton.elim _ _
    rw [Pipeline.ownSems0_none]
    have hsplit := Pipeline.arrays_of_unscopedBufs (p := 0) (pcfgs (F := F)) (adm m) (pdats m) (launch0 (F := F)).win (launch0 (F := F)).arr_whole 0
      (share0 m 0) (VA m 0) fun _ => rfl
    rw [Pipeline.unscopedBufs_held, Pipeline.unscopedRest_split (launch0 (F := F)).pre] at hsplit
    iintro ⟨⟨Hub, Hp, HO⟩, -, -⟩
    ihave H := hsplit $$ Hub
    icases H with ⟨Ha, Ht, Hrest⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    show iprop((∃ r, prngReg c r) ∗ Pipeline.prefHeld pre0 c (fun _ => fullShare) (admA m).1 ∗ Pipeline.scopedRest spec0 c) ⊢ Phi0 (admA m) c
    rw [prefHeld0_eq]; unfold Phi0 Pipeline.ΦA
    iintro ⟨Hp, Ht, Hr⟩
    isplitl [Hr Hp]
    · isplitl [Hr]; · iexact Hr
      iexact Hp
    iexact Ht
  hout c := by
    rw [Pipeline.ownSems0_none]
    show Phi0 (admA m) c ⊢ iprop(((∃ r, prngReg c r) ∗ Pipeline.prefHeld pre0 c (fun _ => fullShare) (admA m).1) ∗ BI.emp ∗ Pipeline.scopedRest spec0 c)
    rw [prefHeld0_eq]; unfold Phi0 Pipeline.ΦA
    iintro ⟨⟨Hr, Hp⟩, Ht⟩
    isplitl [Hp Ht]
    · isplitl [Hp]; · iexact Hp
      iexact Ht
    isplitr; · iempintro
    iexact Hr
  hexit c := by
    obtain rfl : c = 0 := Subsingleton.elim _ _
    have hjoin := Pipeline.unscopedBufs_of_arrays (p := 0) (pcfgs (F := F)) (adm m) (Ix := Unit) (Name := ℕ) (U := UR sig nD τ) (Lvl := ℕ)
      (launch0 (F := F)).win (launch0 (F := F)).arr_whole 0 (pdats m) (share0 m 0)
      (VA m 0) (fun b => Gen.V1 m (outs m) 0 b) ((pdats m 0 0).arrAt · (cfg0 (admA m)).N) (hF0 m 0) (hrest0 m 0)
    rw [Pipeline.unscopedBufs_held, Pipeline.unscopedRest_split (launch0 (F := F)).pre] at hjoin
    iintro ⟨Ha, HO, ⟨HY, Ht⟩, Hrest⟩
    imodintro
    isplitl [Ha Hrest Ht]
    · iapply hjoin; isplitl [Ha]; · iexact Ha
      isplitl [Ht]; · iexact Ht
      iexact Hrest
    isplitl [HY]; · iexact HY
    unfold Pipeline.Dat.owesAt Pipeline.owesWithin
    icases HO with ⟨%W, -, HO⟩; iexists W; iexact HO

/-- At region 1's exit each of its arrays holds what the pipeline leaves, and every other buffer what it held. -/
theorem V2_main_v1 (c : Dev nD) : Gen.V2 m (outs m) c main_v1 = outB m c := by
  show Function.update (Gen.V1 m (outs m) c) main_v1 (outs m 2 main_v1 c) main_v1 = _
  rw [Function.update_self, outs_2]
theorem hF1_0 (c : Dev nD) : (datB m c).arrAt (0 : Fin 3) (cfg1 (admB m)).N = Gen.V2 m (outs m) c main_arg2 :=
  ((datB m c).arrAt_in 0 rfl _).trans ((A_eq1 (admB m) (VB m) c 0).trans
    ((Gen.V2_of m (outs m) c main_arg2 (by decide)).trans (congrFun (V1_eq m c) _)).symm)
theorem hF1_1 (c : Dev nD) : (datB m c).arrAt (1 : Fin 3) (cfg1 (admB m)).N = Gen.V2 m (outs m) c main_arg3 :=
  ((datB m c).arrAt_in 1 rfl _).trans ((A_eq1 (admB m) (VB m) c 1).trans
    ((Gen.V2_of m (outs m) c main_arg3 (by decide)).trans (congrFun (V1_eq m c) _)).symm)
theorem hF1_2 (c : Dev nD) : (datB m c).arrAt (2 : Fin 3) (cfg1 (admB m)).N = Gen.V2 m (outs m) c main_v1 :=
  (V2_main_v1 m c).symm
theorem hF1 (c : Dev nD) : ∀ w : Fin 3, (pdats m 1 c).arrAt w (cfg1 (admB m)).N = Gen.V2 m (outs m) c (Pipeline.arrRef spec1 w)
  | ⟨0, _⟩ => hF1_0 m c
  | ⟨1, _⟩ => hF1_1 m c
  | ⟨2, _⟩ => hF1_2 m c
theorem hrest1 (c : Dev nD) : ∀ b, b ∉ Finset.univ.image (Pipeline.arrRef spec1) → Gen.V2 m (outs m) c b = VB m c b :=
  fun b hb => (Gen.V2_of m (outs m) c b (by
    rw [List.mem_singleton]; intro e; exact hb (Finset.mem_image.mpr ⟨2, Finset.mem_univ _, e.symm⟩))).trans (congrFun (V1_eq m c) _)

set_option backward.isDefEq.respectTransparency.types false in
/-- REGION 1 as a segment: entered from the launch contents with region 0's result in place, left with its own result
    array at what its write-backs leave. The table goes into the body's invariant whole and comes back whole. -/
def reg1 : Pipeline.RegionSeg (pcfgs (F := F)) (adm m) (pdats m) () defs₀ 𝒱₀ L lv 1 where
  win := (launch1 (F := F)).win.to₀
  block_pos := (launch1 (F := F)).block_pos
  stage_whole := (launch1 (F := F)).stage_whole
  K := PEmpty
  osem k := k.elim
  ho := Pipeline.OwnSemFacts.none _
  hbody c := (body_obligation1 (admB m) (VB m) c).loose
  hwaits := Pipeline.hwaits_of_owed_zero (pcfgs (F := F)) (adm m) (pdats m) () L lv 1 fun _ _ => rfl
  pre c := iprop(StableHlo.held (c : Thread nD τ) (Pipeline.ucRefs τ sig) (Vmid m c) ∗ R c)
  post c := iprop(StableHlo.held (c : Thread nD τ) (Pipeline.ucRefs τ sig) (Gen.V2 m (outs m) c) ∗ R c)
  X c := iprop(∃ r, prngReg c r)
  Y c := iprop((∃ r, prngReg c r) ∗ Pipeline.prefHeld pre1 c (fun _ => fullShare) (admB m).1)
  Z c := Pipeline.unscopedRestP (Ix := Unit) (Name := ℕ) (U := UR sig nD τ) (Lvl := ℕ) pre1 spec1 c (VB m c)
  hentry c := by
    obtain rfl : c = 0 := Subsingleton.elim _ _
    rw [Pipeline.ownSems0_none]
    have hsplit := Pipeline.arrays_of_unscopedBufs (p := 1) (pcfgs (F := F)) (adm m) (pdats m) (launch1 (F := F)).win (launch1 (F := F)).arr_whole 0
      (share1 m 0) (VB m 0) fun _ => rfl
    rw [Pipeline.unscopedBufs_held, Pipeline.unscopedRest_split (launch1 (F := F)).pre] at hsplit
    iintro ⟨⟨Hub, Hp, HO⟩, -, -⟩
    ihave H := hsplit $$ Hub
    icases H with ⟨Ha, Ht, Hrest⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    show iprop((∃ r, prngReg c r) ∗ Pipeline.prefHeld pre1 c (fun _ => fullShare) (admB m).1 ∗ Pipeline.scopedRest spec1 c) ⊢ Phi1 (admB m) c
    rw [prefHeld1_eq]; unfold Phi1 Pipeline.ΦA
    iintro ⟨Hp, Ht, Hr⟩
    isplitl [Hr Hp]
    · isplitl [Hr]; · iexact Hr
      iexact Hp
    iexact Ht
  hout c := by
    rw [Pipeline.ownSems0_none]
    show Phi1 (admB m) c ⊢ iprop(((∃ r, prngReg c r) ∗ Pipeline.prefHeld pre1 c (fun _ => fullShare) (admB m).1) ∗ BI.emp ∗ Pipeline.scopedRest spec1 c)
    rw [prefHeld1_eq]; unfold Phi1 Pipeline.ΦA
    iintro ⟨⟨Hr, Hp⟩, Ht⟩
    isplitl [Hp Ht]
    · isplitl [Hp]; · iexact Hp
      iexact Ht
    isplitr; · iempintro
    iexact Hr
  hexit c := by
    obtain rfl : c = 0 := Subsingleton.elim _ _
    have hjoin := Pipeline.unscopedBufs_of_arrays (p := 1) (pcfgs (F := F)) (adm m) (Ix := Unit) (Name := ℕ) (U := UR sig nD τ) (Lvl := ℕ)
      (launch1 (F := F)).win (launch1 (F := F)).arr_whole 0 (pdats m) (share1 m 0)
      (VB m 0) (fun b => Gen.V2 m (outs m) 0 b) ((pdats m 1 0).arrAt · (cfg1 (admB m)).N) (hF1 m 0) (hrest1 m 0)
    rw [Pipeline.unscopedBufs_held, Pipeline.unscopedRest_split (launch1 (F := F)).pre] at hjoin
    iintro ⟨Ha, HO, ⟨HY, Ht⟩, Hrest⟩
    imodintro
    isplitl [Ha Hrest Ht]
    · iapply hjoin; isplitl [Ha]; · iexact Ha
      isplitl [Ht]; · iexact Ht
      iexact Hrest
    isplitl [HY]; · iexact HY
    unfold Pipeline.Dat.owesAt Pipeline.owesWithin
    icases HO with ⟨%W, -, HO⟩; iexists W; iexact HO

/-! ## The launch -/

/-- The pipeline library's launch element at every pipeline's staging cells. -/
abbrev u₀ : UR sig nD τ :=
  initOf (Pipeline.cells (Pipeline.pin (pcfgs (F := F)) (adm m)) (cellOf_inj (adm m))) (Pipeline.launchToks (Pipeline.pin (pcfgs (F := F)) (adm m)) (cellOf_inj (adm m)))

theorem hu₀ : (ownU (u₀ m) : sProp 𝕄) ⊢ |={Set.univ}=> iprop(BI.own (emb₁ (initOf (Pipeline.cells (Pipeline.pin (pcfgs (F := F)) (adm m)) (cellOf_inj (adm m))) (Pipeline.launchToks (Pipeline.pin (pcfgs (F := F)) (adm m)) (cellOf_inj (adm m)))))
      ∗ bigSep Finset.univ fun _ : Dev nD => (BI.emp : sProp 𝕄)) := by
  iintro Hu; imodintro
  isplitl [Hu]
  · iapply (show (ownU (u₀ m) : sProp 𝕄) ⊢ BI.own (emb₁ (u₀ m)) from .rfl)
    iexact Hu
  iapply (show (BI.emp : sProp 𝕄) ⊢ bigSep Finset.univ (fun _ : Dev nD => (BI.emp : sProp 𝕄)) from by rw [BI.bigSep_emp_const])
  iempintro

/-- The launch deals every core its generator register and an empty debt: the rest of the first thread state. -/
theorem hE0 : iprop((bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄))) ∗ levAts L lv)
      ⊢ (|={Set.univ}=> bigSep Finset.univ (E (F := F) 0) : sProp 𝕄) := by
  refine Pipeline.initEach L lv fun c => ?_
  show _ ⊢ (|={Set.univ}=> R c : sProp 𝕄)
  iintro ⟨⟨-, HO, -, Hp, -⟩, -⟩
  imodintro
  isplitl [Hp]; · iexists _; iexact Hp
  iexists ∅; iexact HO

theorem hE2 (c : Dev nD) : E (F := F) 2 c ⊢ (iprop(∃ W, owes (c : Thread nD τ) (0 : CellTallies nD τ sig Unit) W) : sProp 𝕄) := by
  show (R c : sProp 𝕄) ⊢ _
  iintro ⟨-, H⟩; iexact H

theorem hpre1 (c : Dev nD) : iprop(StableHlo.held (c : Thread nD τ) (Pipeline.ucRefs τ sig) (Gen.V1 m (outs m) c) ∗ E 1 c) ⊢ (reg1 m).pre c := by
  rw [V1_eq]; exact .rfl

/-- THE FRAME, at any instance: every weakly fair execution of @main ends, nothing faulting, the arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Gen.frame_cond m emb₁ () 𝒱₀ L lv (fun _ _ => rfl) ρ (outs m) (adm m) (pdats m) 0 (fun _ => BI.emp) (u₀ m) (hu₀ m) E (hE0 ρ) hE2
    (reg0 m) (fun _ => .rfl) (fun _ => .rfl) (reg1 m) (hpre1 m) (fun _ => .rfl)

end Cert.Kernel.Hand

end
-- ==== Proof.IdealRegion0.lean ====
/-
  Region 0 (the K-tiled masked GEMM, grid 8 x 4): the output block (g, :, :) stays in its staging buffer through the
  four K-tiles of a group and is written back after the last; the body at tile k of group g zeroes the block when
  k = 0, then adds to it the product of the row-masked x tile (g, :, k-th tile) with the w tile (g, :, k-th tile).

  So the proof data's `after` of the output window is a recursion on the grid point: the body's payload of the point's
  input blocks, the table's word for the group, and either the zero block (first tile) or what the point before
  left (later tiles). The schedule facts the recursion leans on (the write-back happens exactly after the last tile;
  the minor grid coordinate is the point modulo 4) do not depend on the table, whose contents the index maps never
  read: they are decided once at closed contents and hold at any by unfolding.
-/
import proofs.«402499_j13950053777726_3_alg».proof.Proof.Gen.KernelIdeal.Launch
import proofs.«402499_j13950053777726_3_alg».proof.Proof.Gen.KernelIdeal.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import Idealize.ShloMosaic.PureOps.BitExact

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz3' : (![0, 0, 0] : Fin 3 → Nat) = fun _ => 0 := funext fun a => by fin_cases a <;> rfl

/-! ## The body on whole staging buffers -/

/-- The table's word the body reads at grid point `i`: the entry of the group `i 0`. -/
def word0 (i : grid0.Coords) (x2 : Vec F S8 .i32) : Elt F .i32 :=
  x2 ((Rect.unit (s := S8) (k0_off1 i) S1.size (k0_off1_inb i)).emb (Shape.Idx.first (numel1_S1.symm ▸ Nat.one_pos)))

abbrev rO0 : Rect S1x32x2816 := Rect.unit (s := S1x32x2816) ![0, 0, 0] S1x32x2816.size inb_S1x32x2816_S1x32x2816_0_0_0

/-- The last store is of the whole block, whatever was stored before it. -/
theorem cover0 (p0 : Vec F S1x32x2816 .f32) (L : List (View.Piece (Elt F) S1x32x2816 .f32)) (y : S1x32x2816.Idx) :
    ∃ pc ∈ ((⟨rO0, p0⟩ : View.Piece (Elt F) S1x32x2816 .f32) :: L), y ∈ pc.1.set := by
  obtain ⟨pc, hpc, hy⟩ := View.cover_of_tiled [(⟨rO0, p0⟩ : View.Piece (Elt F) S1x32x2816 .f32)] S1x32x2816.size (by rfl) y
  rw [List.mem_singleton] at hpc; subst hpc
  exact ⟨_, List.mem_cons_self .., hy⟩

/-- The body's branch is taken exactly at the first K-tile. -/
theorem cond_iff : ∀ k : Fin 4, (Scalar.cmpi .ne (Scalar.extui (Scalar.cmpi .eq (BitVec.ofNat 32 k.val) 0#32)) 0#32 = 1#1) ↔ k.val = 0 := by decide

set_option maxHeartbeats 1000000 in
/-- At a first K-tile: the output buffer, at anything, is zeroed, read back and ends at the payload over the zero block. -/
theorem sound_kernel0_first (c : Dev nD) (E : Set ℕ) (i : grid0.Coords) (hk : (i 1).val = 0)
    (arg2 : Memref sig .tc .smem S8 .i32) (harg2 : arg2.IsWhole)
    (arg3 : Memref sig .tc .vmem S1x32x1024 .f32) (harg3 : arg3.IsWhole)
    (arg4 : Memref sig .tc .vmem S1x2816x1024 .f32) (harg4 : arg4.IsWhole)
    (arg5 : Memref sig .tc .vmem S1x32x2816 .f32) (harg5 : arg5.IsWhole)
    (q : PosShare TreeShare) (x2 : Vec F S8 .i32) (x3 : Vec F S1x32x1024 .f32) (x4 : Vec F S1x2816x1024 .f32) (K : PUnit → sProp 𝕄) :
    iprop(owns (c : Thread nD τ) arg2 q x2 ∗ owns (c : Thread nD τ) arg3 fullShare x3 ∗ owns (c : Thread nD τ) arg4 fullShare x4
        ∗ (∃ d, owns (c : Thread nD τ) arg5 fullShare d)
        ∗ (iprop(owns (c : Thread nD τ) arg2 q x2 ∗ owns (c : Thread nD τ) arg3 fullShare x3 ∗ owns (c : Thread nD τ) arg4 fullShare x4
            ∗ owns (c : Thread nD τ) arg5 fullShare (k0_pay2 (word0 i x2) x3 x4 (k0_pay1 (F := F)))) -∗ K ⟨⟩))
      ⊢ wp frame (wpE (defs₀ (F := F)) Variants.none c none) E (cc0__masked_gemm_ktiled_kernel i arg2 harg2 arg3 harg3 arg4 harg4 arg5 harg5) K := by
  have hv : Scalar.cmpi .ne (Scalar.extui (Scalar.cmpi .eq (BitVec.ofNat 32 (i 1).val) 0#32)) 0#32 = 1#1 := (cond_iff (i 1)).mpr hk
  simp only [cc0__masked_gemm_ktiled_kernel_eq_skeleton]; unfold cc0__masked_gemm_ktiled_kernel_skel
  unfold owns
  iintro ⟨⟨%f2, %hf2, H2⟩, ⟨%f3, %hf3, H3⟩, ⟨%f4, %hf4, H4⟩, ⟨%d5, %f5, -, H5⟩, Hk⟩
  subst hf2 hf3 hf4
  sl_exec (disch := exact hv)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  rw [View.read_writes_eq_canon _ _ _ (cover0 _ _)]
  sl_unfold_words
  rw [View.canon_cons_unit_zero hz3']
  simp only [View.readAt_eq_ld, View.ld_unit_zero (S := S1x32x1024) hz3', View.ld_unit_zero (S := S1x2816x1024) hz3', View.readCov_unit_zero (S := S1x32x2816) _ hz3']
  rfl

set_option maxHeartbeats 1000000 in
/-- At a later K-tile: the output buffer, at the running sum `x5`, ends at the payload over `x5`. -/
theorem sound_kernel0_later (c : Dev nD) (E : Set ℕ) (i : grid0.Coords) (hk : (i 1).val ≠ 0)
    (arg2 : Memref sig .tc .smem S8 .i32) (harg2 : arg2.IsWhole)
    (arg3 : Memref sig .tc .vmem S1x32x1024 .f32) (harg3 : arg3.IsWhole)
    (arg4 : Memref sig .tc .vmem S1x2816x1024 .f32) (harg4 : arg4.IsWhole)
    (arg5 : Memref sig .tc .vmem S1x32x2816 .f32) (harg5 : arg5.IsWhole)
    (q : PosShare TreeShare) (x2 : Vec F S8 .i32) (x3 : Vec F S1x32x1024 .f32) (x4 : Vec F S1x2816x1024 .f32) (x5 : Vec F S1x32x2816 .f32) (K : PUnit → sProp 𝕄) :
    iprop(owns (c : Thread nD τ) arg2 q x2 ∗ owns (c : Thread nD τ) arg3 fullShare x3 ∗ owns (c : Thread nD τ) arg4 fullShare x4
        ∗ owns (c : Thread nD τ) arg5 fullShare x5
        ∗ (iprop(owns (c : Thread nD τ) arg2 q x2 ∗ owns (c : Thread nD τ) arg3 fullShare x3 ∗ owns (c : Thread nD τ) arg4 fullShare x4
            ∗ owns (c : Thread nD τ) arg5 fullShare (k0_pay2 (word0 i x2) x3 x4 x5)) -∗ K ⟨⟩))
      ⊢ wp frame (wpE (defs₀ (F := F)) Variants.none c none) E (cc0__masked_gemm_ktiled_kernel i arg2 harg2 arg3 harg3 arg4 harg4 arg5 harg5) K := by
  have hv : ¬ Scalar.cmpi .ne (Scalar.extui (Scalar.cmpi .eq (BitVec.ofNat 32 (i 1).val) 0#32)) 0#32 = 1#1 := fun h => hk ((cond_iff (i 1)).mp h)
  simp only [cc0__masked_gemm_ktiled_kernel_eq_skeleton]; unfold cc0__masked_gemm_ktiled_kernel_skel
  unfold owns
  iintro ⟨⟨%f2, %hf2, H2⟩, ⟨%f3, %hf3, H3⟩, ⟨%f4, %hf4, H4⟩, ⟨%f5, %hf5, H5⟩, Hk⟩
  subst hf2 hf3 hf4 hf5
  sl_exec (disch := exact hv)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  rw [View.read_writes_eq_canon _ _ _ (cover0 _ _)]
  sl_unfold_words
  rw [View.canon_cons_unit_zero hz3']
  simp only [View.readAt_eq_ld, View.ld_unit_zero (S := S1x32x1024) hz3', View.ld_unit_zero (S := S1x2816x1024) hz3', View.ld_unit_zero (S := S1x32x2816) hz3']
  rfl

/-! ## The schedule, which the table does not enter -/

/-- Closed contents of the table to decide the schedule at. -/
def admZ0 : (pcfg0 (F := Bits)).Adm := ⟨fun _ => Classical.arbitrary _, trivial⟩

theorem flushZ0 : ∀ t : Fin (cfg0 (F := Bits) admZ0).N, ((cfg0 (F := Bits) admZ0).win 2).flush t = decide (t.val % 4 = 3) := by
  decide +kernel
theorem coordZ0 : ∀ t : Fin (cfg0 (F := Bits) admZ0).N, ((cfg0 (F := Bits) admZ0).grid.coords t 1).val = t.val % 4 := by
  decide +kernel

variable (a0 : (pcfg0 (F := F)).Adm)

/-- The output block is written back exactly after a group's last K-tile. -/
theorem flush0_2 (t : Fin (cfg0 a0).N) : ((cfg0 a0).win 2).flush t = decide (t.val % 4 = 3) := flushZ0 t
/-- The K-tile of a point is the point modulo 4. -/
theorem coord0_1 (t : Fin (cfg0 a0).N) : ((cfg0 a0).grid.coords t 1).val = t.val % 4 := coordZ0 t
theorem N0_eq : (cfg0 a0).N = 32 := N_0

/-! ## The proof data, at the table's contents `a0` and the entry contents `V` -/

variable (V : (c : Dev nD) → (b : Ref sig .tc) → Buf (Elt F) ((c : Thread nD τ).loc b))

/-- Window `w`'s block at point `t`, read off its array as the region finds it. -/
def iblk0 (c : Dev nD) (w : Fin (cfg0 a0).W) (t : Fin (cfg0 a0).N) :
    (((cfg0 a0).win w).xblock ((cfg0 a0).grid.coords t)).Idx → Elt F ((cfg0 a0).win w).elt :=
  (((cfg0 a0).win w).blk t).view.read (Elt F) (V c (Pipeline.arrRef spec0 w))

/-- The table as the body's word reads it. -/
abbrev tbl0 : Vec F S8 .i32 := a0.1 0

/-- What the body leaves in the output block at point `n`: the running sum over the group's K-tiles so far. -/
def acc0 (c : Dev nD) (n : Nat) (h : n < (cfg0 a0).N) : Vec F S1x32x2816 .f32 :=
  k0_pay2 (word0 (grid0.coords ⟨n, h⟩) (tbl0 a0)) (iblk0 a0 V c 0 ⟨n, h⟩) (iblk0 a0 V c 1 ⟨n, h⟩)
    (if hk : n % 4 = 0 then k0_pay1 (F := F) else acc0 c (n - 1) (by omega))
termination_by n
decreasing_by omega

theorem acc0_eq (c : Dev nD) (n : Nat) (h : n < (cfg0 a0).N) : acc0 a0 V c n h =
    k0_pay2 (word0 (grid0.coords ⟨n, h⟩) (tbl0 a0)) (iblk0 a0 V c 0 ⟨n, h⟩) (iblk0 a0 V c 1 ⟨n, h⟩)
      (if hk : n % 4 = 0 then k0_pay1 (F := F) else acc0 a0 V c (n - 1) (by omega)) := by
  rw [acc0]

/-- The invariant: the scoped buffers the region does not stage and the generator register, beside the table, whole. -/
def Phi0 (c : Dev nD) : sProp 𝕄 :=
  iprop(Pipeline.ΦA spec0 c ∗ owns (c : Thread nD τ) (Memref.whole main_arg4) fullShare (tbl0 a0))

def dat0 (c : Dev nD) : Dat τ (Elt F) Unit ℕ (UR sig nD τ) ℕ (cfg0 a0) c where
  A w := V c (Pipeline.arrRef spec0 w)
  after w t := match w with
    | ⟨0, _⟩ => iblk0 a0 V c 0 t
    | ⟨1, _⟩ => iblk0 a0 V c 1 t
    | ⟨2, _⟩ => acc0 a0 V c t.val t.isLt
  Φ _ := Phi0 a0 c
  q _ := fullShare
  owed _ := 0

theorem A_eq0 (c : Dev nD) (w : Fin 3) : (dat0 a0 V c).A w = V c (Pipeline.arrRef spec0 w) := by
  dsimp only [dat0]
theorem after0_0 (c : Dev nD) (t : Fin (cfg0 a0).N) : (dat0 a0 V c).after (0 : Fin 3) t = iblk0 a0 V c 0 t := rfl
theorem after0_1 (c : Dev nD) (t : Fin (cfg0 a0).N) : (dat0 a0 V c).after (1 : Fin 3) t = iblk0 a0 V c 1 t := rfl
theorem after0_2 (c : Dev nD) (t : Fin (cfg0 a0).N) : (dat0 a0 V c).after (2 : Fin 3) t = acc0 a0 V c t.val t.isLt := rfl

/-- An input's current staging buffer holds its block at every point, fetched there or not. -/
theorem before0_0 (c : Dev nD) (t : Fin (cfg0 a0).N) (d) : (dat0 a0 V c).before (0 : Fin 3) t d = iblk0 a0 V c 0 t :=
  ((dat0 a0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin (cfg0 a0).N) (d) : (dat0 a0 V c).before (1 : Fin 3) t d = iblk0 a0 V c 1 t :=
  ((dat0 a0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

/-- At a first K-tile the output's buffer is fresh: the first point, or the point after a write-back. -/
theorem before0_2_first (c : Dev nD) (t : Fin (cfg0 a0).N) (hk : t.val % 4 = 0) (d) : (dat0 a0 V c).before (2 : Fin 3) t d = d := by
  refine (dat0 a0 V c).before_out_reset 2 rfl t ?_ d
  by_cases h0 : t.val = 0
  · exact .inl h0
  · refine .inr ⟨h0, ?_⟩
    rw [flush0_2]; exact decide_eq_true (by dsimp only; omega)

/-- At a later K-tile it holds the running sum the tile before left. -/
theorem before0_2_later (c : Dev nD) (t : Fin (cfg0 a0).N) (hk : t.val % 4 ≠ 0) (d) :
    (dat0 a0 V c).before (2 : Fin 3) t d = acc0 a0 V c (t.val - 1) (by have := t.isLt; omega) := by
  have h0 : t.val ≠ 0 := fun h => hk (by rw [h])
  rw [(dat0 a0 V c).before_out_kept 2 rfl t h0 (by rw [flush0_2]; exact decide_eq_false (by dsimp only; omega)) (fun _ => rfl) (fun _ _ => rfl) d]
  rfl

/-! ## The body obligation -/

/-- At every point the inputs' buffers hold their blocks and the output's is fresh (first tile) or holds the running
    sum (later tiles), so the matching triple applies; the table goes in and comes back with the invariant. -/
theorem body_obligation0 (c : Dev nD) : BodyObligation (dat0 a0 V c) (defs₀ (F := F)) Variants.none () Set.univ := fun t => by
  rw [bigSep_W0, bigSep_W0]
  simp only [before0_0, before0_1]
  rw [show (dat0 a0 V c).Φ t.succ = Phi0 a0 c from rfl, show (dat0 a0 V c).Φ t.castSucc = Phi0 a0 c from rfl,
    show (dat0 a0 V c).owesAt () t.succ = (dat0 a0 V c).owesAt () t.castSucc from rfl,
    after0_0, after0_1, after0_2, acc0_eq]
  unfold Phi0
  by_cases hk : t.val % 4 = 0
  · rw [dif_pos hk]
    simp only [before0_2_first a0 V c t hk]
    iintro ⟨⟨HA, HT⟩, Ho, ⟨%d0, H0⟩, ⟨%d1, H1⟩, ⟨%d2, H2⟩⟩
    iapply (sound_kernel0_first c Set.univ (grid0.coords t) ((coord0_1 a0 t).trans hk) (Memref.whole main_arg4) (Memref.isWhole_whole _)
      (spec0_0.stage ((cfg0 a0).slots t 0)) (hstage0_0 (((cfg0 a0).slots t 0).cast nbuf0_0))
      (spec0_1.stage ((cfg0 a0).slots t 1)) (hstage0_1 (((cfg0 a0).slots t 1).cast nbuf0_1))
      (spec0_2.stage ((cfg0 a0).slots t 2)) (hstage0_2 (((cfg0 a0).slots t 2).cast nbuf0_2))
      fullShare (tbl0 a0) (iblk0 a0 V c 0 t) (iblk0 a0 V c 1 t) _)
    isplitl [HT]; · iexact HT
    isplitl [H0]; · iexact H0
    isplitl [H1]; · iexact H1
    isplitl [H2]; · iexists _; iexact H2
    iintro ⟨HT, H0, H1, H2⟩
    isplitl [HA HT]
    · isplitl [HA]; · iexact HA
      iexact HT
    isplitl [Ho]; · iexact Ho
    isplitl [H0]; · iexact H0
    isplitl [H1]; · iexact H1
    iexact H2
  · rw [dif_neg hk]
    simp only [before0_2_later a0 V c t hk]
    iintro ⟨⟨HA, HT⟩, Ho, ⟨%d0, H0⟩, ⟨%d1, H1⟩, ⟨%d2, H2⟩⟩
    iapply (sound_kernel0_later c Set.univ (grid0.coords t) (fun h => hk ((coord0_1 a0 t).symm.trans h)) (Memref.whole main_arg4) (Memref.isWhole_whole _)
      (spec0_0.stage ((cfg0 a0).slots t 0)) (hstage0_0 (((cfg0 a0).slots t 0).cast nbuf0_0))
      (spec0_1.stage ((cfg0 a0).slots t 1)) (hstage0_1 (((cfg0 a0).slots t 1).cast nbuf0_1))
      (spec0_2.stage ((cfg0 a0).slots t 2)) (hstage0_2 (((cfg0 a0).slots t 2).cast nbuf0_2))
      fullShare (tbl0 a0) (iblk0 a0 V c 0 t) (iblk0 a0 V c 1 t) _ _)
    isplitl [HT]; · iexact HT
    isplitl [H0]; · iexact H0
    isplitl [H1]; · iexact H1
    isplitl [H2]; · iexact H2
    iintro ⟨HT, H0, H1, H2⟩
    isplitl [HA HT]
    · isplitl [HA]; · iexact HA
      iexact HT
    isplitl [Ho]; · iexact Ho
    isplitl [H0]; · iexact H0
    isplitl [H1]; · iexact H1
    iexact H2

end Cert.KernelIdeal.Hand

end
-- ==== Proof.IdealRegion1.lean ====
/-
  Region 1 (the N-tiled masked GEMM, grid 8 x 2): what the body leaves in its output block, as one payload of the
  blocks it loads and of the row-count table's word for the group, and the pipeline's proof data over it.

  At grid point (g, n) the body reads the table's entry g, the x block (g, :, :) and the w block (g, n-th tile, :),
  masks the rows of x at or past the entry to zero, contracts with w over the last axis and stores the product whole
  into the output block (g, :, n-th tile). Nothing is carried from point to point, so the proof data's `after` of the
  output window is that payload at the point's blocks, the inputs' blocks stay where they were fetched, and the
  invariant is the scratch-free class invariant beside the table, which the body only reads.
-/
import proofs.«402499_j13950053777726_3_alg».proof.Proof.Gen.KernelIdeal.Launch
import proofs.«402499_j13950053777726_3_alg».proof.Proof.Gen.KernelIdeal.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz3 : (![0, 0, 0] : Fin 3 → Nat) = fun _ => 0 := funext fun a => by fin_cases a <;> rfl

/-! ## The body on whole staging buffers -/

/-- The table's word the body reads at grid point `i`: the entry of the group `i 0`. -/
def word1 (i : grid1.Coords) (x2 : Vec F S8 .i32) : Elt F .i32 :=
  x2 ((Rect.unit (s := S8) (k1_off1 i) S1.size (k1_off1_inb i)).emb (Shape.Idx.first (numel1_S1.symm ▸ Nat.one_pos)))

abbrev rO1 : Rect S1x32x2048 := Rect.unit (s := S1x32x2048) ![0, 0, 0] S1x32x2048.size inb_S1x32x2048_S1x32x2048_0_0_0

/-- The one store is of the whole block. -/
theorem cover1_2 (p0 : Vec F S1x32x2048 .f32) (y : S1x32x2048.Idx) :
    ∃ pc ∈ ([⟨rO1, p0⟩] : List (View.Piece (Elt F) S1x32x2048 .f32)), y ∈ pc.1.set :=
  View.cover_of_tiled [⟨rO1, p0⟩] S1x32x2048.size (by rfl) y

set_option maxHeartbeats 1000000 in
/-- The body, on whole memrefs holding the table `x2` (at any share), the x block `x3`, the w block `x4` and an output
    buffer at anything, runs to the continuation with the inputs as they were and the output at the payload of
    `x3`, `x4` and the table's word. -/
theorem sound_kernel1 (c : Dev nD) (E : Set ℕ) (i : grid1.Coords)
    (arg2 : Memref sig .tc .smem S8 .i32) (harg2 : arg2.IsWhole)
    (arg3 : Memref sig .tc .vmem S1x32x1408 .f32) (harg3 : arg3.IsWhole)
    (arg4 : Memref sig .tc .vmem S1x2048x1408 .f32) (harg4 : arg4.IsWhole)
    (arg5 : Memref sig .tc .vmem S1x32x2048 .f32) (harg5 : arg5.IsWhole)
    (q : PosShare TreeShare) (x2 : Vec F S8 .i32) (x3 : Vec F S1x32x1408 .f32) (x4 : Vec F S1x2048x1408 .f32) (K : PUnit → sProp 𝕄) :
    iprop(owns (c : Thread nD τ) arg2 q x2 ∗ owns (c : Thread nD τ) arg3 fullShare x3 ∗ owns (c : Thread nD τ) arg4 fullShare x4
        ∗ (∃ d, owns (c : Thread nD τ) arg5 fullShare d)
        ∗ (iprop(owns (c : Thread nD τ) arg2 q x2 ∗ owns (c : Thread nD τ) arg3 fullShare x3 ∗ owns (c : Thread nD τ) arg4 fullShare x4
            ∗ owns (c : Thread nD τ) arg5 fullShare (k1_pay1 (word1 i x2) x3 x4)) -∗ K ⟨⟩))
      ⊢ wp frame (wpE (defs₀ (F := F)) Variants.none c none) E (cc1__masked_gemm_ntiled_kernel i arg2 harg2 arg3 harg3 arg4 harg4 arg5 harg5) K := by
  simp only [cc1__masked_gemm_ntiled_kernel_eq_skeleton]; unfold cc1__masked_gemm_ntiled_kernel_skel
  unfold owns
  iintro ⟨⟨%f2, %hf2, H2⟩, ⟨%f3, %hf3, H3⟩, ⟨%f4, %hf4, H4⟩, ⟨%d5, %f5, -, H5⟩, Hk⟩
  subst hf2 hf3 hf4
  sl_exec
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  rw [View.read_writes_eq_canon _ _ _ (cover1_2 _)]
  sl_unfold_words
  rw [View.canon_unit_zero hz3]
  simp only [View.readAt_eq_ld, View.ld_unit_zero (S := S1x32x1408) hz3, View.ld_unit_zero (S := S1x2048x1408) hz3]
  rfl

/-! ## The proof data, at the table's contents `a1` and the entry contents `V` -/

variable (a1 : (pcfg1 (F := F)).Adm)
variable (V : (c : Dev nD) → (b : Ref sig .tc) → Buf (Elt F) ((c : Thread nD τ).loc b))

/-- Window `w`'s block at point `t`, read off its array as the region finds it. -/
def iblk1 (c : Dev nD) (w : Fin (cfg1 a1).W) (t : Fin (cfg1 a1).N) :
    (((cfg1 a1).win w).xblock ((cfg1 a1).grid.coords t)).Idx → Elt F ((cfg1 a1).win w).elt :=
  (((cfg1 a1).win w).blk t).view.read (Elt F) (V c (Pipeline.arrRef spec1 w))

/-- The table as the body's word reads it. -/
abbrev tbl1 : Vec F S8 .i32 := a1.1 0

/-- What the body leaves in the output block at point `t`. -/
def out1 (c : Dev nD) (t : Fin (cfg1 a1).N) : Vec F S1x32x2048 .f32 :=
  k1_pay1 (word1 (grid1.coords t) (tbl1 a1)) (iblk1 a1 V c 0 t) (iblk1 a1 V c 1 t)

/-- The invariant: the scoped buffers the region does not stage and the generator register, beside the table, whole. -/
def Phi1 (c : Dev nD) : sProp 𝕄 :=
  iprop(Pipeline.ΦA spec1 c ∗ owns (c : Thread nD τ) (Memref.whole main_arg4) fullShare (tbl1 a1))

def dat1 (c : Dev nD) : Dat τ (Elt F) Unit ℕ (UR sig nD τ) ℕ (cfg1 a1) c where
  A w := V c (Pipeline.arrRef spec1 w)
  after w t := match w with
    | ⟨0, _⟩ => iblk1 a1 V c 0 t
    | ⟨1, _⟩ => iblk1 a1 V c 1 t
    | ⟨2, _⟩ => out1 a1 V c t
  Φ _ := Phi1 a1 c
  q _ := fullShare
  owed _ := 0

theorem A_eq1 (c : Dev nD) (w : Fin 3) : (dat1 a1 V c).A w = V c (Pipeline.arrRef spec1 w) := by
  dsimp only [dat1]
theorem after1_0 (c : Dev nD) (t : Fin (cfg1 a1).N) : (dat1 a1 V c).after (0 : Fin 3) t = iblk1 a1 V c 0 t := rfl
theorem after1_1 (c : Dev nD) (t : Fin (cfg1 a1).N) : (dat1 a1 V c).after (1 : Fin 3) t = iblk1 a1 V c 1 t := rfl
theorem after1_2 (c : Dev nD) (t : Fin (cfg1 a1).N) : (dat1 a1 V c).after (2 : Fin 3) t = out1 a1 V c t := rfl

/-- An input's current staging buffer holds its block at every point, fetched there or not. -/
theorem before1_0 (c : Dev nD) (t : Fin (cfg1 a1).N) (d) : (dat1 a1 V c).before (0 : Fin 3) t d = iblk1 a1 V c 0 t :=
  ((dat1 a1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin (cfg1 a1).N) (d) : (dat1 a1 V c).before (1 : Fin 3) t d = iblk1 a1 V c 1 t :=
  ((dat1 a1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)

/-! ## The body obligation -/

/-- At every point the inputs' buffers hold their blocks, so the body's triple applies; the table goes in and comes
    back with the invariant, and nothing is owed. -/
theorem body_obligation1 (c : Dev nD) : BodyObligation (dat1 a1 V c) (defs₀ (F := F)) Variants.none () Set.univ := fun t => by
  rw [bigSep_W1, bigSep_W1]
  simp only [before1_0, before1_1]
  rw [show (dat1 a1 V c).Φ t.succ = Phi1 a1 c from rfl, show (dat1 a1 V c).Φ t.castSucc = Phi1 a1 c from rfl,
    show (dat1 a1 V c).owesAt () t.succ = (dat1 a1 V c).owesAt () t.castSucc from rfl,
    after1_0, after1_1, after1_2]
  unfold Phi1 out1
  iintro ⟨⟨HA, HT⟩, Ho, ⟨%d0, H0⟩, ⟨%d1, H1⟩, ⟨%d2, H2⟩⟩
  iapply (sound_kernel1 c Set.univ (grid1.coords t) (Memref.whole main_arg4) (Memref.isWhole_whole _)
    (spec1_0.stage ((cfg1 a1).slots t 0)) (hstage1_0 (((cfg1 a1).slots t 0).cast nbuf1_0))
    (spec1_1.stage ((cfg1 a1).slots t 1)) (hstage1_1 (((cfg1 a1).slots t 1).cast nbuf1_1))
    (spec1_2.stage ((cfg1 a1).slots t 2)) (hstage1_2 (((cfg1 a1).slots t 2).cast nbuf1_2))
    fullShare (tbl1 a1) (iblk1 a1 V c 0 t) (iblk1 a1 V c 1 t) _)
  isplitl [HT]; · iexact HT
  isplitl [H0]; · iexact H0
  isplitl [H1]; · iexact H1
  isplitl [H2]; · iexists _; iexact H2
  iintro ⟨HT, H0, H1, H2⟩
  isplitl [HA HT]
  · isplitl [HA]; · iexact HA
    iexact HT
  isplitl [Ho]; · iexact Ho
  isplitl [H0]; · iexact H0
  isplitl [H1]; · iexact H1
  iexact H2

end Cert.KernelIdeal.Hand

end
-- ==== Proof.IdealRun.lean ====
/-
  The run of @main: region 0, region 1, then the host's concatenation of their two result arrays.

  The row-count table is read by both regions' bodies and by no index map, so the pipelines are taken at the table's
  launch contents, and each region's proof data at the contents it is entered from: region 0 from the launch memory,
  region 1 from the launch memory with region 0's result array in place. Between two items every unscoped buffer is
  held whole at a named valuation, beside the generator register and an empty debt; a region takes its arrays and the
  table out of that state, hands the table to its body's invariant, and puts everything back with its result array at
  what the write-backs leave. The frame follows from the conditional frame of the generated host side.
-/
import proofs.«402499_j13950053777726_3_alg».proof.Proof.IdealRegion0
import proofs.«402499_j13950053777726_3_alg».proof.Proof.IdealRegion1
import proofs.«402499_j13950053777726_3_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The table's contents, the entry contents of each region, and what each region leaves -/

/-- The row-count table as launched (the mesh has one core): what both regions' bodies read. -/
def admA : (pcfg0 (F := F)).Adm := ⟨fun k => m (((0 : Dev nD) : Thread nD τ).loc (pre0.ref k)), trivial⟩
def admB : (pcfg1 (F := F)).Adm := ⟨fun k => m (((0 : Dev nD) : Thread nD τ).loc (pre1.ref k)), trivial⟩
def adm : (p : Fin 2) → (pcfgs (F := F) p).Adm
  | ⟨0, _⟩ => admA m
  | ⟨1, _⟩ => admB m

/-- Region 0 is entered from the launch contents. -/
abbrev VA : (c : Dev nD) → (b : Ref sig .tc) → Buf (Elt F) ((c : Thread nD τ).loc b) := fun c b => Gen.V0 m c b
/-- What region 0 leaves in its result array: the write-backs of the running sums, folded. -/
def datA (c : Dev nD) : Dat τ (Elt F) Unit ℕ (UR sig nD τ) ℕ (cfg0 (admA m)) c := dat0 (admA m) (VA m) c
def outA (c : Dev nD) : Buf (Elt F) ((c : Thread nD τ).loc main_v0) := (datA m c).arrAt (2 : Fin 3) (cfg0 (admA m)).N
/-- Region 1 is entered from the launch contents with region 0's result in place. -/
abbrev Vmid (c : Dev nD) : Valuation τ sig (Elt F) := Function.update (Gen.V0 m c) main_v0 (outA m c)
abbrev VB : (c : Dev nD) → (b : Ref sig .tc) → Buf (Elt F) ((c : Thread nD τ).loc b) := fun c b => Vmid m c b
/-- What region 1 leaves in its result array. -/
def datB (c : Dev nD) : Dat τ (Elt F) Unit ℕ (UR sig nD τ) ℕ (cfg1 (admB m)) c := dat1 (admB m) (VB m) c
def outB (c : Dev nD) : Buf (Elt F) ((c : Thread nD τ).loc main_v1) := (datB m c).arrAt (2 : Fin 3) (cfg1 (admB m)).N

/-- The regions' results, as the conditional frame's unknowns. -/
def outs : Gen.Outs (F := F) := fun j r c =>
  if j = 1 then Function.update (fun r => m ((c : Thread nD τ).loc r)) main_v0 (outA m c) r
  else Function.update (fun r => m ((c : Thread nD τ).loc r)) main_v1 (outB m c) r
theorem outs_1 (c : Dev nD) : outs m 1 main_v0 c = outA m c := by unfold outs; rw [if_pos rfl, Function.update_self]
theorem outs_2 (c : Dev nD) : outs m 2 main_v1 c = outB m c := by unfold outs; rw [if_neg (by decide), Function.update_self]
theorem V1_eq (c : Dev nD) : Gen.V1 m (outs m) c = Vmid m c := by
  show Function.update (Gen.V0 m c) main_v0 (outs m 1 main_v0 c) = _; rw [outs_1]

/-- Every pipeline's proof data, each at its region's entry contents. -/
def pdats : (p : Fin 2) → (c : Dev nD) → Dat τ (Elt F) Unit ℕ (UR sig nD τ) ℕ (Pipeline.pin (pcfgs (F := F)) (adm m) p) c
  | ⟨0, _⟩ => datA m
  | ⟨1, _⟩ => datB m

/-! ## The thread state between items, and the regions as segments -/

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
def E : Fin 3 → Dev nD → sProp 𝕄 := fun _ c => R c

/-- The table, whole, is the one summand of the prefetched tables' conjunction. -/
theorem prefHeld0_eq (c : Dev nD) (v : pre0.Contents (Elt F)) :
    (Pipeline.prefHeld (Ix := Unit) (Name := ℕ) (U := UR sig nD τ) (Lvl := ℕ) pre0 c (fun _ => fullShare) v : sProp 𝕄)
      = owns (c : Thread nD τ) (Memref.whole main_arg4) fullShare (v 0) := by
  unfold Pipeline.prefHeld
  rw [show (Finset.univ : Finset (Fin 1)) = {(0 : Fin 1)} from by decide, bigSep_singleton]
  exact (owns_whole (c : Thread nD τ) main_arg4 fullShare (v 0)).symm
theorem prefHeld1_eq (c : Dev nD) (v : pre1.Contents (Elt F)) :
    (Pipeline.prefHeld (Ix := Unit) (Name := ℕ) (U := UR sig nD τ) (Lvl := ℕ) pre1 c (fun _ => fullShare) v : sProp 𝕄)
      = owns (c : Thread nD τ) (Memref.whole main_arg4) fullShare (v 0) := by
  unfold Pipeline.prefHeld
  rw [show (Finset.univ : Finset (Fin 1)) = {(0 : Fin 1)} from by decide, bigSep_singleton]
  exact (owns_whole (c : Thread nD τ) main_arg4 fullShare (v 0)).symm

/-- At region 0's exit each of its arrays holds what the pipeline leaves, and every other buffer what it held. -/
theorem V1_main_v0 (c : Dev nD) : Gen.V1 m (outs m) c main_v0 = outA m c := by
  show Function.update (Gen.V0 m c) main_v0 (outs m 1 main_v0 c) main_v0 = _
  rw [Function.update_self, outs_1]
theorem hF0_0 (c : Dev nD) : (datA m c).arrAt (0 : Fin 3) (cfg0 (admA m)).N = Gen.V1 m (outs m) c main_arg0 :=
  ((datA m c).arrAt_in 0 rfl _).trans ((A_eq0 (admA m) (VA m) c 0).trans (Gen.V1_of m (outs m) c main_arg0 (by decide)).symm)
theorem hF0_1 (c : Dev nD) : (datA m c).arrAt (1 : Fin 3) (cfg0 (admA m)).N = Gen.V1 m (outs m) c main_arg1 :=
  ((datA m c).arrAt_in 1 rfl _).trans ((A_eq0 (admA m) (VA m) c 1).trans (Gen.V1_of m (outs m) c main_arg1 (by decide)).symm)
theorem hF0_2 (c : Dev nD) : (datA m c).arrAt (2 : Fin 3) (cfg0 (admA m)).N = Gen.V1 m (outs m) c main_v0 :=
  (V1_main_v0 m c).symm
theorem hF0 (c : Dev nD) : ∀ w : Fin 3, (pdats m 0 c).arrAt w (cfg0 (admA m)).N = Gen.V1 m (outs m) c (Pipeline.arrRef spec0 w)
  | ⟨0, _⟩ => hF0_0 m c
  | ⟨1, _⟩ => hF0_1 m c
  | ⟨2, _⟩ => hF0_2 m c
theorem hrest0 (c : Dev nD) : ∀ b, b ∉ Finset.univ.image (Pipeline.arrRef spec0) → Gen.V1 m (outs m) c b = VA m c b :=
  fun b hb => Gen.V1_of m (outs m) c b (by
    rw [List.mem_singleton]; intro e; exact hb (Finset.mem_image.mpr ⟨2, Finset.mem_univ _, e.symm⟩))

theorem share0 (c : Dev nD) (w) : (pdats m 0 c).share w = fullShare := (pdats m 0 c).share_full (fun _ => rfl) w
theorem share1 (c : Dev nD) (w) : (pdats m 1 c).share w = fullShare := (pdats m 1 c).share_full (fun _ => rfl) w

set_option backward.isDefEq.respectTransparency.types false in
/-- REGION 0 as a segment: entered from every unscoped buffer at the launch contents, left with its result array at
    what its write-backs leave. The table goes into the body's invariant whole and comes back whole. -/
def reg0 : Pipeline.RegionSeg (pcfgs (F := F)) (adm m) (pdats m) () defs₀ 𝒱₀ L lv 0 where
  win := (launch0 (F := F)).win.to₀
  block_pos := (launch0 (F := F)).block_pos
  stage_whole := (launch0 (F := F)).stage_whole
  K := PEmpty
  osem k := k.elim
  ho := Pipeline.OwnSemFacts.none _
  hbody c := (body_obligation0 (admA m) (VA m) c).loose
  hwaits := Pipeline.hwaits_of_owed_zero (pcfgs (F := F)) (adm m) (pdats m) () L lv 0 fun _ _ => rfl
  pre c := iprop(StableHlo.held (c : Thread nD τ) (Pipeline.ucRefs τ sig) (Gen.V0 m c) ∗ R c)
  post c := iprop(StableHlo.held (c : Thread nD τ) (Pipeline.ucRefs τ sig) (Gen.V1 m (outs m) c) ∗ R c)
  X c := iprop(∃ r, prngReg c r)
  Y c := iprop((∃ r, prngReg c r) ∗ Pipeline.prefHeld pre0 c (fun _ => fullShare) (admA m).1)
  Z c := Pipeline.unscopedRestP (Ix := Unit) (Name := ℕ) (U := UR sig nD τ) (Lvl := ℕ) pre0 spec0 c (VA m c)
  hentry c := by
    obtain rfl : c = 0 := Subsingleton.elim _ _
    rw [Pipeline.ownSems0_none]
    have hsplit := Pipeline.arrays_of_unscopedBufs (p := 0) (pcfgs (F := F)) (adm m) (pdats m) (launch0 (F := F)).win (launch0 (F := F)).arr_whole 0
      (share0 m 0) (VA m 0) fun _ => rfl
    rw [Pipeline.unscopedBufs_held, Pipeline.unscopedRest_split (launch0 (F := F)).pre] at hsplit
    iintro ⟨⟨Hub, Hp, HO⟩, -, -⟩
    ihave H := hsplit $$ Hub
    icases H with ⟨Ha, Ht, Hrest⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    show iprop((∃ r, prngReg c r) ∗ Pipeline.prefHeld pre0 c (fun _ => fullShare) (admA m).1 ∗ Pipeline.scopedRest spec0 c) ⊢ Phi0 (admA m) c
    rw [prefHeld0_eq]; unfold Phi0 Pipeline.ΦA
    iintro ⟨Hp, Ht, Hr⟩
    isplitl [Hr Hp]
    · isplitl [Hr]; · iexact Hr
      iexact Hp
    iexact Ht
  hout c := by
    rw [Pipeline.ownSems0_none]
    show Phi0 (admA m) c ⊢ iprop(((∃ r, prngReg c r) ∗ Pipeline.prefHeld pre0 c (fun _ => fullShare) (admA m).1) ∗ BI.emp ∗ Pipeline.scopedRest spec0 c)
    rw [prefHeld0_eq]; unfold Phi0 Pipeline.ΦA
    iintro ⟨⟨Hr, Hp⟩, Ht⟩
    isplitl [Hp Ht]
    · isplitl [Hp]; · iexact Hp
      iexact Ht
    isplitr; · iempintro
    iexact Hr
  hexit c := by
    obtain rfl : c = 0 := Subsingleton.elim _ _
    have hjoin := Pipeline.unscopedBufs_of_arrays (p := 0) (pcfgs (F := F)) (adm m) (Ix := Unit) (Name := ℕ) (U := UR sig nD τ) (Lvl := ℕ)
      (launch0 (F := F)).win (launch0 (F := F)).arr_whole 0 (pdats m) (share0 m 0)
      (VA m 0) (fun b => Gen.V1 m (outs m) 0 b) ((pdats m 0 0).arrAt · (cfg0 (admA m)).N) (hF0 m 0) (hrest0 m 0)
    rw [Pipeline.unscopedBufs_held, Pipeline.unscopedRest_split (launch0 (F := F)).pre] at hjoin
    iintro ⟨Ha, HO, ⟨HY, Ht⟩, Hrest⟩
    imodintro
    isplitl [Ha Hrest Ht]
    · iapply hjoin; isplitl [Ha]; · iexact Ha
      isplitl [Ht]; · iexact Ht
      iexact Hrest
    isplitl [HY]; · iexact HY
    unfold Pipeline.Dat.owesAt Pipeline.owesWithin
    icases HO with ⟨%W, -, HO⟩; iexists W; iexact HO

/-- At region 1's exit each of its arrays holds what the pipeline leaves, and every other buffer what it held. -/
theorem V2_main_v1 (c : Dev nD) : Gen.V2 m (outs m) c main_v1 = outB m c := by
  show Function.update (Gen.V1 m (outs m) c) main_v1 (outs m 2 main_v1 c) main_v1 = _
  rw [Function.update_self, outs_2]
theorem hF1_0 (c : Dev nD) : (datB m c).arrAt (0 : Fin 3) (cfg1 (admB m)).N = Gen.V2 m (outs m) c main_arg2 :=
  ((datB m c).arrAt_in 0 rfl _).trans ((A_eq1 (admB m) (VB m) c 0).trans
    ((Gen.V2_of m (outs m) c main_arg2 (by decide)).trans (congrFun (V1_eq m c) _)).symm)
theorem hF1_1 (c : Dev nD) : (datB m c).arrAt (1 : Fin 3) (cfg1 (admB m)).N = Gen.V2 m (outs m) c main_arg3 :=
  ((datB m c).arrAt_in 1 rfl _).trans ((A_eq1 (admB m) (VB m) c 1).trans
    ((Gen.V2_of m (outs m) c main_arg3 (by decide)).trans (congrFun (V1_eq m c) _)).symm)
theorem hF1_2 (c : Dev nD) : (datB m c).arrAt (2 : Fin 3) (cfg1 (admB m)).N = Gen.V2 m (outs m) c main_v1 :=
  (V2_main_v1 m c).symm
theorem hF1 (c : Dev nD) : ∀ w : Fin 3, (pdats m 1 c).arrAt w (cfg1 (admB m)).N = Gen.V2 m (outs m) c (Pipeline.arrRef spec1 w)
  | ⟨0, _⟩ => hF1_0 m c
  | ⟨1, _⟩ => hF1_1 m c
  | ⟨2, _⟩ => hF1_2 m c
theorem hrest1 (c : Dev nD) : ∀ b, b ∉ Finset.univ.image (Pipeline.arrRef spec1) → Gen.V2 m (outs m) c b = VB m c b :=
  fun b hb => (Gen.V2_of m (outs m) c b (by
    rw [List.mem_singleton]; intro e; exact hb (Finset.mem_image.mpr ⟨2, Finset.mem_univ _, e.symm⟩))).trans (congrFun (V1_eq m c) _)

set_option backward.isDefEq.respectTransparency.types false in
/-- REGION 1 as a segment: entered from the launch contents with region 0's result in place, left with its own result
    array at what its write-backs leave. The table goes into the body's invariant whole and comes back whole. -/
def reg1 : Pipeline.RegionSeg (pcfgs (F := F)) (adm m) (pdats m) () defs₀ 𝒱₀ L lv 1 where
  win := (launch1 (F := F)).win.to₀
  block_pos := (launch1 (F := F)).block_pos
  stage_whole := (launch1 (F := F)).stage_whole
  K := PEmpty
  osem k := k.elim
  ho := Pipeline.OwnSemFacts.none _
  hbody c := (body_obligation1 (admB m) (VB m) c).loose
  hwaits := Pipeline.hwaits_of_owed_zero (pcfgs (F := F)) (adm m) (pdats m) () L lv 1 fun _ _ => rfl
  pre c := iprop(StableHlo.held (c : Thread nD τ) (Pipeline.ucRefs τ sig) (Vmid m c) ∗ R c)
  post c := iprop(StableHlo.held (c : Thread nD τ) (Pipeline.ucRefs τ sig) (Gen.V2 m (outs m) c) ∗ R c)
  X c := iprop(∃ r, prngReg c r)
  Y c := iprop((∃ r, prngReg c r) ∗ Pipeline.prefHeld pre1 c (fun _ => fullShare) (admB m).1)
  Z c := Pipeline.unscopedRestP (Ix := Unit) (Name := ℕ) (U := UR sig nD τ) (Lvl := ℕ) pre1 spec1 c (VB m c)
  hentry c := by
    obtain rfl : c = 0 := Subsingleton.elim _ _
    rw [Pipeline.ownSems0_none]
    have hsplit := Pipeline.arrays_of_unscopedBufs (p := 1) (pcfgs (F := F)) (adm m) (pdats m) (launch1 (F := F)).win (launch1 (F := F)).arr_whole 0
      (share1 m 0) (VB m 0) fun _ => rfl
    rw [Pipeline.unscopedBufs_held, Pipeline.unscopedRest_split (launch1 (F := F)).pre] at hsplit
    iintro ⟨⟨Hub, Hp, HO⟩, -, -⟩
    ihave H := hsplit $$ Hub
    icases H with ⟨Ha, Ht, Hrest⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    show iprop((∃ r, prngReg c r) ∗ Pipeline.prefHeld pre1 c (fun _ => fullShare) (admB m).1 ∗ Pipeline.scopedRest spec1 c) ⊢ Phi1 (admB m) c
    rw [prefHeld1_eq]; unfold Phi1 Pipeline.ΦA
    iintro ⟨Hp, Ht, Hr⟩
    isplitl [Hr Hp]
    · isplitl [Hr]; · iexact Hr
      iexact Hp
    iexact Ht
  hout c := by
    rw [Pipeline.ownSems0_none]
    show Phi1 (admB m) c ⊢ iprop(((∃ r, prngReg c r) ∗ Pipeline.prefHeld pre1 c (fun _ => fullShare) (admB m).1) ∗ BI.emp ∗ Pipeline.scopedRest spec1 c)
    rw [prefHeld1_eq]; unfold Phi1 Pipeline.ΦA
    iintro ⟨⟨Hr, Hp⟩, Ht⟩
    isplitl [Hp Ht]
    · isplitl [Hp]; · iexact Hp
      iexact Ht
    isplitr; · iempintro
    iexact Hr
  hexit c := by
    obtain rfl : c = 0 := Subsingleton.elim _ _
    have hjoin := Pipeline.unscopedBufs_of_arrays (p := 1) (pcfgs (F := F)) (adm m) (Ix := Unit) (Name := ℕ) (U := UR sig nD τ) (Lvl := ℕ)
      (launch1 (F := F)).win (launch1 (F := F)).arr_whole 0 (pdats m) (share1 m 0)
      (VB m 0) (fun b => Gen.V2 m (outs m) 0 b) ((pdats m 1 0).arrAt · (cfg1 (admB m)).N) (hF1 m 0) (hrest1 m 0)
    rw [Pipeline.unscopedBufs_held, Pipeline.unscopedRest_split (launch1 (F := F)).pre] at hjoin
    iintro ⟨Ha, HO, ⟨HY, Ht⟩, Hrest⟩
    imodintro
    isplitl [Ha Hrest Ht]
    · iapply hjoin; isplitl [Ha]; · iexact Ha
      isplitl [Ht]; · iexact Ht
      iexact Hrest
    isplitl [HY]; · iexact HY
    unfold Pipeline.Dat.owesAt Pipeline.owesWithin
    icases HO with ⟨%W, -, HO⟩; iexists W; iexact HO

/-! ## The launch -/

/-- The pipeline library's launch element at every pipeline's staging cells. -/
abbrev u₀ : UR sig nD τ :=
  initOf (Pipeline.cells (Pipeline.pin (pcfgs (F := F)) (adm m)) (cellOf_inj (adm m))) (Pipeline.launchToks (Pipeline.pin (pcfgs (F := F)) (adm m)) (cellOf_inj (adm m)))

theorem hu₀ : (ownU (u₀ m) : sProp 𝕄) ⊢ |={Set.univ}=> iprop(BI.own (emb₁ (initOf (Pipeline.cells (Pipeline.pin (pcfgs (F := F)) (adm m)) (cellOf_inj (adm m))) (Pipeline.launchToks (Pipeline.pin (pcfgs (F := F)) (adm m)) (cellOf_inj (adm m)))))
      ∗ bigSep Finset.univ fun _ : Dev nD => (BI.emp : sProp 𝕄)) := by
  iintro Hu; imodintro
  isplitl [Hu]
  · iapply (show (ownU (u₀ m) : sProp 𝕄) ⊢ BI.own (emb₁ (u₀ m)) from .rfl)
    iexact Hu
  iapply (show (BI.emp : sProp 𝕄) ⊢ bigSep Finset.univ (fun _ : Dev nD => (BI.emp : sProp 𝕄)) from by rw [BI.bigSep_emp_const])
  iempintro

/-- The launch deals every core its generator register and an empty debt: the rest of the first thread state. -/
theorem hE0 : iprop((bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄))) ∗ levAts L lv)
      ⊢ (|={Set.univ}=> bigSep Finset.univ (E (F := F) 0) : sProp 𝕄) := by
  refine Pipeline.initEach L lv fun c => ?_
  show _ ⊢ (|={Set.univ}=> R c : sProp 𝕄)
  iintro ⟨⟨-, HO, -, Hp, -⟩, -⟩
  imodintro
  isplitl [Hp]; · iexists _; iexact Hp
  iexists ∅; iexact HO

theorem hE2 (c : Dev nD) : E (F := F) 2 c ⊢ (iprop(∃ W, owes (c : Thread nD τ) (0 : CellTallies nD τ sig Unit) W) : sProp 𝕄) := by
  show (R c : sProp 𝕄) ⊢ _
  iintro ⟨-, H⟩; iexact H

theorem hpre1 (c : Dev nD) : iprop(StableHlo.held (c : Thread nD τ) (Pipeline.ucRefs τ sig) (Gen.V1 m (outs m) c) ∗ E 1 c) ⊢ (reg1 m).pre c := by
  rw [V1_eq]; exact .rfl

/-- THE FRAME, at any instance: every weakly fair execution of @main ends, nothing faulting, the arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Gen.frame_cond m emb₁ () 𝒱₀ L lv (fun _ _ => rfl) ρ (outs m) (adm m) (pdats m) 0 (fun _ => BI.emp) (u₀ m) (hu₀ m) E (hE0 ρ) hE2
    (reg0 m) (fun _ => .rfl) (fun _ => .rfl) (reg1 m) (hpre1 m) (fun _ => .rfl)

end Cert.KernelIdeal.Hand

end
-- ==== Proof.IdealValueRun.lean ====
/-
  The value run of the idealized kernel: the same launch as the frame, read at the end also at the result buffer,
  which holds the host's concatenation of what region 0 and region 1 leave in their result arrays.
-/
import proofs.«402499_j13950053777726_3_alg».proof.Proof.IdealRun
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main ends with the result buffer at the last valuation's contents and the
    arguments as launched. -/
theorem run_value : θ_run defs (onTc (τ := τ) (main (F := F))) ⟨m, fun _ => 0, ρ⟩ (fun r => ∀ c : Dev nD,
      r.2.mem ((c.tc : Thread nD τ).loc main_v2) = Gen.V3 m (outs m) c main_v2
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine Pipeline.θ_run_regions_kit_dev (pcfgs (F := F)) (adm m) (pdats m) () (cellOf_inj (adm m)) emb₁ defs₀ 𝒱₀ L lv m ρ main
    (Gen.segs m (outs m) 𝒱₀ L lv E () (adm m) (pdats m) (reg0 m) (reg1 m))
    (fun c Q => by
      rewrite [main_chain c, Seg.run_eq_chain,
        show (Gen.segs m (outs m) 𝒱₀ L lv E () (adm m) (pdats m) (reg0 m) (reg1 m) c).map Seg.prog = [
          Prog.lift (.customCall (Pipeline.entry 0) ()),
          Prog.lift (.customCall (Pipeline.entry 1) ()),
          StableHlo.seq hostOps2 ] from rfl]
      exact .rfl)
    (fun c => by simp only [Gen.segs, Seg.pipes_host, Seg.pipes_region, Seg.pipes_nil]; decide) 0 (fun _ _ => rfl) (fun _ => BI.emp) (u₀ m) (hu₀ m)
    (T₀ := fun c => iprop(StableHlo.held (c : Thread nD τ) (Pipeline.ucRefs τ sig) (Gen.V0 m c) ∗ E 0 c))
    (Tₙ := fun c => StableHlo.held (c : Thread nD τ) (Pipeline.ucRefs τ sig) (Gen.V3 m (outs m) c))
    (hch := fun c => ⟨.rfl, hpre1 m c, .rfl, sep_mono .rfl (hE2 c)⟩)
    (hinit := ?_) (QY := fun c s => s.mem ((c.tc : Thread nD τ).loc main_v2) = Gen.V3 m (outs m) c main_v2 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4))
    (hfin := fun c s' => ?_) (hQ := fun _ h => h)
  · have hsplit : (bigSep Finset.univ fun c : Dev nD => iprop(unscopedBufs c (fun b => m ((c.tc : Thread nD τ).loc b)) ∗ unscopedSems0 c
          ∗ owes (c.tc : Thread nD τ) ((0 : Dev nD → CellTallies nD τ sig Unit) c) ∅ ∗ Pipeline.launchCred (0 : Dev nD → CellTallies nD τ sig Unit) c ∗ prngReg c (ρ c) ∗ (BI.emp : sProp 𝕄)))
        ⊢ (iprop((bigSep Finset.univ fun c : Dev nD => StableHlo.held (c : Thread nD τ) (Pipeline.ucRefs τ sig) (Gen.V0 m c))
            ∗ bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄)))
            : sProp 𝕄) := by
      rw [← bigSep_sep']
      exact bigSep_mono fun c _ => by rw [← Pipeline.unscopedBufs_held (Ix := Unit) (Name := ℕ) (U := UR sig nD τ) (Lvl := ℕ) c (Gen.V0 m c)]; exact BI.Entails.refl _
    iintro ⟨H, Hla⟩
    ihave H' := hsplit $$ H
    icases H' with ⟨Hh, Hr⟩
    imod (hE0 (F := F) ρ) $$ [Hr Hla] with HE
    · isplitl [Hr]; · iexact Hr
      iexact Hla
    imodintro
    rw [bigSep_sep']
    isplitl [Hh]; · iexact Hh
    iexact HE
  · unfold StableHlo.held
    iintro ⟨Hh, HSI⟩
    ihave Hr := (pointsTo_read_all (Pipeline.ucRefs τ sig) (fun b => ((c : Thread nD τ).1, b)) (Gen.V3 m (outs m) c) s') $$ [Hh HSI]
    · isplitl [Hh] <;> iassumption
    icases Hr with ⟨%h, HSI⟩
    imodintro
    isplitr
    · ipureintro
      exact ⟨h (Proc.devRef .tc main_v2) (Finset.mem_filter.mpr ⟨StableHlo.devRef_mem_tcRefs main_v2, by decide⟩),
        (h (Proc.devRef .tc main_arg0) (Finset.mem_filter.mpr ⟨StableHlo.devRef_mem_tcRefs main_arg0, by decide⟩)).trans (Gen.V3_main_arg0 m (outs m) c),
        (h (Proc.devRef .tc main_arg1) (Finset.mem_filter.mpr ⟨StableHlo.devRef_mem_tcRefs main_arg1, by decide⟩)).trans (Gen.V3_main_arg1 m (outs m) c),
        (h (Proc.devRef .tc main_arg2) (Finset.mem_filter.mpr ⟨StableHlo.devRef_mem_tcRefs main_arg2, by decide⟩)).trans (Gen.V3_main_arg2 m (outs m) c),
        (h (Proc.devRef .tc main_arg3) (Finset.mem_filter.mpr ⟨StableHlo.devRef_mem_tcRefs main_arg3, by decide⟩)).trans (Gen.V3_main_arg3 m (outs m) c),
        (h (Proc.devRef .tc main_arg4) (Finset.mem_filter.mpr ⟨StableHlo.devRef_mem_tcRefs main_arg4, by decide⟩)).trans (Gen.V3_main_arg4 m (outs m) c)⟩
    · iexact HSI

end Cert.KernelIdeal.Hand

end
-- ==== Proof.IdealPayload0.lean ====
/-
  Region 0's payloads at an index, over the extended reals: the reset payload is the zero block; entry (0, r, n) of the
  accumulating payload is the running sum's entry plus the K-tile's partial product,
      acc(0, r, n) + Σ_k (if r < count then x(0, r, k) else 0) · w(0, n, k),
  the format changes being the identity and the product into a zero accumulator the plain sum.
-/
import proofs.«402499_j13950053777726_3_alg».proof.Proof.Gen.KernelIdeal.Skeleton
import Idealize.ShloMosaic.Lib.Pipeline.Value
import Idealize.ShloMosaic.Lib.ValueIdx
import Idealize.ShloMosaic.PureOps.Ideal.Laws
import Idealize.ShloMosaic.PureOps.BitExact

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat Cfg Window)
open Idealize.ShloMosaic.ValueIdx

/-! ## The matrix product into a zero accumulator, at an index -/

theorem lhsA_0 (i : S32x2816.Idx) (q : dot_S32x1024_S2816x1024_S32x2816_1_1_0_0_n_n.contr.Idx) :
    (dot_S32x1024_S2816x1024_S32x2816_1_1_0_0_n_n.lhsIdx i q 0).val = (i 0).val := by
  unfold DotDims.lhsIdx
  rw [dif_neg (show ¬(0 : Fin S32x1024.rank) ∈ dot_S32x1024_S2816x1024_S32x2816_1_1_0_0_n_n.lhsBatch by decide), dif_pos (show (0 : Fin S32x1024.rank) ∈ dot_S32x1024_S2816x1024_S32x2816_1_1_0_0_n_n.lhsNonContracting by decide)]
  rfl
theorem lhsA_1 (i : S32x2816.Idx) (q : dot_S32x1024_S2816x1024_S32x2816_1_1_0_0_n_n.contr.Idx) :
    (dot_S32x1024_S2816x1024_S32x2816_1_1_0_0_n_n.lhsIdx i q 1).val = (q ⟨0, by decide⟩).val :=
  dot_S32x1024_S2816x1024_S32x2816_1_1_0_0_n_n.lhsIdx_val_of_single rfl i q
theorem rhsA_0 (i : S32x2816.Idx) (q : dot_S32x1024_S2816x1024_S32x2816_1_1_0_0_n_n.contr.Idx) :
    (dot_S32x1024_S2816x1024_S32x2816_1_1_0_0_n_n.rhsIdx i q 0).val = (i 1).val := by
  unfold DotDims.rhsIdx
  rw [dif_neg (show ¬(0 : Fin S2816x1024.rank) ∈ dot_S32x1024_S2816x1024_S32x2816_1_1_0_0_n_n.rhsBatch by decide), dif_pos (show (0 : Fin S2816x1024.rank) ∈ dot_S32x1024_S2816x1024_S32x2816_1_1_0_0_n_n.rhsNonContracting by decide)]
  rfl
theorem rhsA_1 (i : S32x2816.Idx) (q : dot_S32x1024_S2816x1024_S32x2816_1_1_0_0_n_n.contr.Idx) :
    (dot_S32x1024_S2816x1024_S32x2816_1_1_0_0_n_n.rhsIdx i q 1).val = (q ⟨0, by decide⟩).val :=
  dot_S32x1024_S2816x1024_S32x2816_1_1_0_0_n_n.rhsIdx_val_of_single rfl i q

/-- Entry (r, n) of the product of a [32, 1024] with the transpose of a [2816, 1024] is Σ_k A(r, k) · B(n, k). -/
theorem matmulA_apply (A : FVec Ideal S32x1024 .bf16) (B : FVec Ideal S2816x1024 .bf16) (i : S32x2816.Idx) :
    matmul dot_S32x1024_S2816x1024_S32x2816_1_1_0_0_n_n none A B (constant (F := Ideal) S32x2816 .f32 0x00000000#32) i
      = ∑ k : Fin 1024, A (ix2 (i 0) k) * B (ix2 (i 1) k) := by
  simp only [matmul]
  rw [Ideal.matmul_constant_zero_apply, ← Equiv.sum_comp (ValueIdx.contrEquiv1 dot_S32x1024_S2816x1024_S32x2816_1_1_0_0_n_n 1024 rfl rfl).symm]
  refine Finset.sum_congr rfl fun k _ => ?_
  have hk := ValueIdx.contrEquiv1_symm_val dot_S32x1024_S2816x1024_S32x2816_1_1_0_0_n_n 1024 rfl rfl k
  have el : dot_S32x1024_S2816x1024_S32x2816_1_1_0_0_n_n.lhsIdx i ((ValueIdx.contrEquiv1 dot_S32x1024_S2816x1024_S32x2816_1_1_0_0_n_n 1024 rfl rfl).symm k) = ix2 (i 0) k := funext fun a => Fin.ext (by
    match a with
    | ⟨0, _⟩ => exact lhsA_0 _ _
    | ⟨1, _⟩ => exact (lhsA_1 _ _).trans hk)
  have er : dot_S32x1024_S2816x1024_S32x2816_1_1_0_0_n_n.rhsIdx i ((ValueIdx.contrEquiv1 dot_S32x1024_S2816x1024_S32x2816_1_1_0_0_n_n 1024 rfl rfl).symm k) = ix2 (i 1) k := funext fun a => Fin.ext (by
    match a with
    | ⟨0, _⟩ => exact rhsA_0 _ _
    | ⟨1, _⟩ => exact (rhsA_1 _ _).trans hk)
  exact congrArg₂ (· * ·) (congrArg A el) (congrArg B er)

/-! ## The payload at an index -/

/-- The reset payload is the zero block. -/
theorem pay0z_apply (j : S1x32x2816.Idx) : k0_pay1 (F := Ideal) j = 0 := by
  show Ideal.ofBits .f32 0x00000000#32 = 0
  exact Ideal.ofBits_zero_f32

/-- Entry (0, r, n) of region 0's accumulating payload. -/
theorem pay0_apply (wd : Elt Ideal .i32) (x3 : Vec Ideal S1x32x1024 .f32) (x4 : Vec Ideal S1x2816x1024 .f32) (x5 : Vec Ideal S1x32x2816 .f32) (r : Fin 32) (n : Fin 2816) :
    k0_pay2 (F := Ideal) wd x3 x4 x5 (ix3 (0 : Fin 1) r n)
      = x5 (ix3 (0 : Fin 1) r n) + ∑ k : Fin 1024, Scalar.select (IntOp.cmpi .slt (BitVec.ofNat 32 r.val) wd) (x3 (ix3 (0 : Fin 1) r k)) (0 : EReal) * x4 (ix3 (0 : Fin 1) n k) := by
  unfold k0_pay2
  rw [shapeCast_addUnit_apply]
  have hi : (fun a : Fin 2 => ix3 (0 : Fin 1) r n a.succ) = ix2 r n := funext fun a => by
    match a with
    | ⟨0, _⟩ => rfl
    | ⟨1, _⟩ => rfl
  rw [hi, addf_apply, matmulA_apply, shapeCast_dropUnit_apply]
  have e5 : (Fin.cons ⟨0, Nat.one_pos⟩ (ix2 r n) : S1x32x2816.Idx) = ix3 (0 : Fin 1) r n := funext fun a => by
    match a with
    | ⟨0, _⟩ => rfl
    | ⟨1, _⟩ => rfl
    | ⟨2, _⟩ => rfl
  rw [e5]
  refine congrArg (x5 (ix3 (0 : Fin 1) r n) + ·) (Finset.sum_congr rfl fun k _ => ?_)
  have e3 : (Fin.cons ⟨0, Nat.one_pos⟩ (ix2 r k) : S1x32x1024.Idx) = ix3 (0 : Fin 1) r k := funext fun a => by
    match a with
    | ⟨0, _⟩ => rfl
    | ⟨1, _⟩ => rfl
    | ⟨2, _⟩ => rfl
  have e4 : (Fin.cons ⟨0, Nat.one_pos⟩ (ix2 n k) : S1x2816x1024.Idx) = ix3 (0 : Fin 1) n k := funext fun a => by
    match a with
    | ⟨0, _⟩ => rfl
    | ⟨1, _⟩ => rfl
    | ⟨2, _⟩ => rfl
  show Scalar.select (IntOp.cmpi .slt (iota .tc S32x1024 32 [0] iota_S32x1024_d0_w32 (ix2 r k)) wd)
      (shapeCast S32x1024 x3 shapeCasts_S1x32x1024_S32x1024 (ix2 r k)) (Ideal.ofBits .f32 0x00000000#32)
      * shapeCast S2816x1024 x4 shapeCasts_S1x2816x1024_S2816x1024 (ix2 n k) = _
  rw [iota_single_apply, shapeCast_dropUnit_apply, shapeCast_dropUnit_apply, e3, e4, Ideal.ofBits_zero_f32]

end Cert.KernelIdeal.Hand

end
-- ==== Proof.MaskAlgebra.lean ====
/-
  The two algebraic facts that join the kernel's arrangement to the reference's, over the extended reals.

  Masking a row of x to zero before the contraction is masking the contracted value: a zero factor annihilates every
  product, whatever the other factor (0 · w = 0 also at the infinities), and a sum of zeros is zero. And a sum over
  4096 is the sum of its four consecutive 1024-tiles, added onto zero in order: addition on the extended reals is
  commutative and associative, so no finiteness is needed.
-/
import Idealize.ShloMosaic.PureOps.Ideal
import Idealize.ShloMosaic.Lib.ValueIdx
import Mathlib.Algebra.BigOperators.Fin
import Mathlib.Algebra.BigOperators.Intervals

noncomputable section

namespace Cert.MaskedGemm

open Idealize.ShloMosaic

/-- Masking the left factor of every product of a sum is masking the sum. -/
theorem sum_select_mul {K : Nat} (cnd : BitVec 1) (xs ws : Fin K → EReal) :
    ∑ k : Fin K, Scalar.select cnd (xs k) (0 : EReal) * ws k = Scalar.select cnd (∑ k : Fin K, xs k * ws k) (0 : EReal) := by
  unfold Scalar.select
  split
  · rfl
  · simp only [zero_mul, Finset.sum_const_zero]

/-- A sum over 4096 from its four 1024-tiles, accumulated onto zero in order. -/
theorem sum_tiles4 (f : Fin 4096 → EReal) :
    ((((0 : EReal) + ∑ j : Fin 1024, f ⟨0 * 1024 + j.val, by omega⟩) + ∑ j : Fin 1024, f ⟨1 * 1024 + j.val, by omega⟩)
        + ∑ j : Fin 1024, f ⟨2 * 1024 + j.val, by omega⟩) + ∑ j : Fin 1024, f ⟨3 * 1024 + j.val, by omega⟩
      = ∑ k : Fin 4096, f k := by
  let g : ℕ → EReal := fun k => if h : k < 4096 then f ⟨k, h⟩ else 0
  have hg : ∀ (s : ℕ) (hs : s < 4), ∑ j : Fin 1024, f ⟨s * 1024 + j.val, by omega⟩ = ∑ j ∈ Finset.range 1024, g (s * 1024 + j) := fun s hs => by
    rw [← Fin.sum_univ_eq_sum_range (fun j => g (s * 1024 + j)) 1024]
    refine Finset.sum_congr rfl fun j _ => ?_
    show f _ = if h : s * 1024 + j.val < 4096 then f ⟨s * 1024 + j.val, h⟩ else 0
    rw [dif_pos (by omega)]
  have hf : ∑ k : Fin 4096, f k = ∑ k ∈ Finset.range 4096, g k := by
    rw [← Fin.sum_univ_eq_sum_range g 4096]
    refine Finset.sum_congr rfl fun k _ => ?_
    show f k = if h : k.val < 4096 then f ⟨k.val, h⟩ else 0
    rw [dif_pos k.isLt]
  rw [hg 0 (by omega), hg 1 (by omega), hg 2 (by omega), hg 3 (by omega), hf, zero_add,
    show (4096 : ℕ) = 1024 + 1024 + 1024 + 1024 from rfl, Finset.sum_range_add, Finset.sum_range_add, Finset.sum_range_add]
  simp only [Nat.zero_mul, Nat.zero_add, Nat.one_mul]

end Cert.MaskedGemm

end
-- ==== Proof.IdealArray0.lean ====
/-
  Region 0's result array after the run, as one function of the argument arrays: entry (g, r, n) is
      if r < count(g) then Σ_k x(g, r, k) · w(g, n, k) else 0   (k over all 4096).
  Point t = 4 g + s of the grid holds the s-th K-tile of x (g, :, 1024 s ..) and of w (g, :, 1024 s ..); the output
  block (g, :, :) is zeroed at s = 0, gains the tile's masked partial product at every s, and is written back after
  s = 3. So what the write-back writes is 0 + P_0 + P_1 + P_2 + P_3, the four consecutive tiles of the masked sum over
  4096, which is the masked full contraction.
-/
import proofs.«402499_j13950053777726_3_alg».proof.Proof.IdealRun
import proofs.«402499_j13950053777726_3_alg».proof.Proof.IdealPayload0
import proofs.«402499_j13950053777726_3_alg».proof.Proof.MaskAlgebra
import Idealize.ShloMosaic.Lib.Pipeline.Value
import Idealize.ShloMosaic.Lib.ValueIdx
import Idealize.ShloMosaic.PureOps.Ideal.Laws
import Idealize.ShloMosaic.PureOps.BitExact

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat Cfg Window)
open Idealize.ShloMosaic.ValueIdx

variable {F : FTy → Type} [FloatOps F]

/-! ## The schedule, which the table does not enter: decided at closed contents -/

theorem idxZ0 : ∀ t : Fin (cfg0 (F := Bits) admZ0).N,
    ((cfg0 (F := Bits) admZ0).win 0).index t = ![t.val / 4, 0, t.val % 4]
    ∧ ((cfg0 (F := Bits) admZ0).win 1).index t = ![t.val / 4, 0, t.val % 4]
    ∧ ((cfg0 (F := Bits) admZ0).win 2).index t = ![t.val / 4, 0, 0]
    ∧ ((Rect.unit (s := S8) (k0_off1 ((cfg0 (F := Bits) admZ0).grid.coords t)) S1.size (k0_off1_inb _)).emb (Shape.Idx.first (numel1_S1.symm ▸ Nat.one_pos)) 0).val = t.val / 4 := by
  decide +kernel

variable (a0 : (pcfg0 (F := F)).Adm)

theorem idx0 (t : Fin (cfg0 a0).N) :
    ((cfg0 a0).win 0).index t = ![t.val / 4, 0, t.val % 4]
    ∧ ((cfg0 a0).win 1).index t = ![t.val / 4, 0, t.val % 4]
    ∧ ((cfg0 a0).win 2).index t = ![t.val / 4, 0, 0]
    ∧ ((Rect.unit (s := S8) (k0_off1 ((cfg0 a0).grid.coords t)) S1.size (k0_off1_inb _)).emb (Shape.Idx.first (numel1_S1.symm ▸ Nat.one_pos)) 0).val = t.val / 4 := idxZ0 t

/-- Column `k` of the s-th K-tile. -/
abbrev kcol (s : ℕ) (hs : s < 4) (k : Fin 1024) : Fin 4096 := ⟨s * 1024 + k.val, by have := k.isLt; omega⟩

variable (V : (c : Dev nD) → (b : Ref sig .tc) → Buf (Elt F) ((c : Thread nD τ).loc b))

/-- The table's word at the point of group `g` is the group's entry. -/
theorem word0_eq (t : Fin (cfg0 a0).N) (g : Fin 8) (s : ℕ) (hs : s < 4) (ht : t.val = 4 * g.val + s) (x : Vec F S8 .i32) :
    word0 (grid0.coords t) x = x (ValueIdx.ix1 g) := by
  unfold word0
  refine congrArg x (funext fun a => Fin.ext ?_)
  match a with
  | ⟨0, _⟩ => exact (idx0 a0 t).2.2.2.trans (show t.val / 4 = g.val by omega)

/-- The x block of the point of group `g`, tile `s`, is (g, :, 1024 s ..) of the array. -/
theorem iblk0_0_apply (c : Dev nD) (t : Fin (cfg0 a0).N) (g : Fin 8) (s : ℕ) (hs : s < 4) (ht : t.val = 4 * g.val + s) (r : Fin 32) (k : Fin 1024) :
    iblk0 a0 V c 0 t (ix3 (0 : Fin 1) r k) = V c main_arg0 (ix3 g r (kcol s hs k)) := by
  show V c main_arg0 ((((cfg0 a0).win 0).blk t).view.emb (ix3 (0 : Fin 1) r k)) = _
  refine congrArg _ (funext fun a => Fin.ext ?_)
  have e := (idx0 a0 t).1
  match a with
  | ⟨0, _⟩ => show ((cfg0 a0).win 0).index t (0 : Fin 3) * 1 + 1 * 0 = g.val; rw [e]; simp; omega
  | ⟨1, _⟩ => show ((cfg0 a0).win 0).index t (1 : Fin 3) * 32 + 1 * r.val = r.val; rw [e]; simp
  | ⟨2, _⟩ => show ((cfg0 a0).win 0).index t (2 : Fin 3) * 1024 + 1 * k.val = s * 1024 + k.val; rw [e]; simp; omega

/-- The w block of the point of group `g`, tile `s`, is (g, :, 1024 s ..) of the array. -/
theorem iblk0_1_apply (c : Dev nD) (t : Fin (cfg0 a0).N) (g : Fin 8) (s : ℕ) (hs : s < 4) (ht : t.val = 4 * g.val + s) (n : Fin 2816) (k : Fin 1024) :
    iblk0 a0 V c 1 t (ix3 (0 : Fin 1) n k) = V c main_arg1 (ix3 g n (kcol s hs k)) := by
  show V c main_arg1 ((((cfg0 a0).win 1).blk t).view.emb (ix3 (0 : Fin 1) n k)) = _
  refine congrArg _ (funext fun a => Fin.ext ?_)
  have e := (idx0 a0 t).2.1
  match a with
  | ⟨0, _⟩ => show ((cfg0 a0).win 1).index t (0 : Fin 3) * 1 + 1 * 0 = g.val; rw [e]; simp; omega
  | ⟨1, _⟩ => show ((cfg0 a0).win 1).index t (1 : Fin 3) * 2816 + 1 * n.val = n.val; rw [e]; simp
  | ⟨2, _⟩ => show ((cfg0 a0).win 1).index t (2 : Fin 3) * 1024 + 1 * k.val = s * 1024 + k.val; rw [e]; simp; omega

/-- An element of the output block of a point of group `g` sits at (g, r, n) of the array. -/
theorem emb0_2 (t : Fin (cfg0 a0).N) (g : Fin 8) (s : ℕ) (hs : s < 4) (ht : t.val = 4 * g.val + s) (r : Fin 32) (n : Fin 2816) :
    (((cfg0 a0).win 2).blk t).view.emb (ix3 (0 : Fin 1) r n) = (ix3 g r n : S8x32x2816.Idx) := by
  refine funext fun a => Fin.ext ?_
  have e := (idx0 a0 t).2.2.1
  match a with
  | ⟨0, _⟩ => show ((cfg0 a0).win 2).index t (0 : Fin 3) * 1 + 1 * 0 = g.val; rw [e]; simp; omega
  | ⟨1, _⟩ => show ((cfg0 a0).win 2).index t (1 : Fin 3) * 32 + 1 * r.val = r.val; rw [e]; simp
  | ⟨2, _⟩ => show ((cfg0 a0).win 2).index t (2 : Fin 3) * 2816 + 1 * n.val = n.val; rw [e]; simp

/-- The point's input blocks and its output block's rectangle, at their literal types. -/
def xblkA (c : Dev nD) (t : Fin (cfg0 a0).N) : Vec F S1x32x1024 .f32 := iblk0 a0 V c 0 t
def wblkA (c : Dev nD) (t : Fin (cfg0 a0).N) : Vec F S1x2816x1024 .f32 := iblk0 a0 V c 1 t
abbrev rectA (t : Fin (cfg0 a0).N) : Rect S8x32x2816 := ((cfg0 a0).win 2).rect t
theorem xblkA_apply (c : Dev nD) (t : Fin (cfg0 a0).N) (g : Fin 8) (s : ℕ) (hs : s < 4) (ht : t.val = 4 * g.val + s) (r : Fin 32) (k : Fin 1024) :
    xblkA a0 V c t (ix3 (0 : Fin 1) r k) = V c main_arg0 (ix3 g r (kcol s hs k)) := iblk0_0_apply a0 V c t g s hs ht r k
theorem wblkA_apply (c : Dev nD) (t : Fin (cfg0 a0).N) (g : Fin 8) (s : ℕ) (hs : s < 4) (ht : t.val = 4 * g.val + s) (n : Fin 2816) (k : Fin 1024) :
    wblkA a0 V c t (ix3 (0 : Fin 1) n k) = V c main_arg1 (ix3 g n (kcol s hs k)) := iblk0_1_apply a0 V c t g s hs ht n k

/-- The running sum, over the literal-typed blocks. -/
theorem acc0_eq' (c : Dev nD) (n : Nat) (h : n < (cfg0 a0).N) : acc0 a0 V c n h =
    k0_pay2 (word0 (grid0.coords ⟨n, h⟩) (tbl0 a0)) (xblkA a0 V c ⟨n, h⟩) (wblkA a0 V c ⟨n, h⟩)
      (if hk : n % 4 = 0 then k0_pay1 (F := F) else acc0 a0 V c (n - 1) (by omega)) := acc0_eq a0 V c n h
theorem acc0_congr (c : Dev nD) (n n' : Nat) (h : n < (cfg0 a0).N) (h' : n' < (cfg0 a0).N) (e : n = n') :
    acc0 a0 V c n h = acc0 a0 V c n' h' := by subst e; rfl

/-! ## The result array -/

/-- Region 0's result as one function of the argument arrays. -/
def GA (x0 : Vec Ideal S8x32x4096 .f32) (x1 : Vec Ideal S8x2816x4096 .f32) (x4 : Vec Ideal S8 .i32) : Vec Ideal S8x32x2816 .f32 :=
  fun i => Scalar.select (IntOp.cmpi .slt (BitVec.ofNat 32 (i 1).val) (x4 (ValueIdx.ix1 (i 0))))
    (∑ k : Fin 4096, x0 (ix3 (i 0) (i 1) k) * x1 (ix3 (i 0) (i 2) k)) (0 : EReal)

variable (m : (ℓ : Loc nD τ sig) → Buf (Elt Ideal) ℓ)

theorem VA_arg0 (c : Dev nD) : VA m c main_arg0 = m ((c : Thread nD τ).loc main_arg0) := rfl
theorem VA_arg1 (c : Dev nD) : VA m c main_arg1 = m ((c : Thread nD τ).loc main_arg1) := rfl
theorem tblA_eq (c : Dev nD) : tbl0 (admA m) = m ((c : Thread nD τ).loc main_arg4) := by
  obtain rfl : c = 0 := Subsingleton.elim _ _
  rfl

/-- One masked product term of row `r`, column `n`, group `g`, at contracted index `k`. -/
def term (x0 : Vec Ideal S8x32x4096 .f32) (x1 : Vec Ideal S8x2816x4096 .f32) (x4 : Vec Ideal S8 .i32) (g : Fin 8) (r : Fin 32) (n : Fin 2816) (k : Fin 4096) : EReal :=
  Scalar.select (IntOp.cmpi .slt (BitVec.ofNat 32 r.val) (x4 (ValueIdx.ix1 g))) (x0 (ix3 g r k)) (0 : EReal) * x1 (ix3 g n k)
/-- The argument arrays as launched, at their literal types. -/
abbrev ax0 (c : Dev nD) : Vec Ideal S8x32x4096 .f32 := m ((c : Thread nD τ).loc main_arg0)
abbrev ax1 (c : Dev nD) : Vec Ideal S8x2816x4096 .f32 := m ((c : Thread nD τ).loc main_arg1)
abbrev ax4 (c : Dev nD) : Vec Ideal S8 .i32 := m ((c : Thread nD τ).loc main_arg4)

/-- At the first K-tile the running sum is zero plus the tile's partial product. -/
theorem acc_first (c : Dev nD) (g : Fin 8) (h : 4 * g.val + 0 < (cfg0 (admA m)).N) (r : Fin 32) (n : Fin 2816) :
    acc0 (admA m) (VA m) c (4 * g.val + 0) h (ix3 (0 : Fin 1) r n)
      = (0 : EReal) + ∑ k : Fin 1024, term (ax0 m c) (ax1 m c) (ax4 m c) g r n (kcol 0 (by omega) k) := by
  rw [acc0_eq', dif_pos (by omega)]
  refine (pay0_apply _ _ _ _ r n).trans ?_
  rw [pay0z_apply, word0_eq (admA m) ⟨4 * g.val + 0, h⟩ g 0 (by omega) rfl, tblA_eq m c]
  refine congrArg ((0 : EReal) + ·) (Finset.sum_congr rfl fun k _ => ?_)
  rw [xblkA_apply (admA m) (VA m) c ⟨4 * g.val + 0, h⟩ g 0 (by omega) rfl, wblkA_apply (admA m) (VA m) c ⟨4 * g.val + 0, h⟩ g 0 (by omega) rfl]
  rfl

/-- At a later K-tile it is what the tile before left plus the tile's partial product. -/
theorem acc_next (c : Dev nD) (g : Fin 8) (s : ℕ) (hs : s + 1 < 4) (h : 4 * g.val + (s + 1) < (cfg0 (admA m)).N) (r : Fin 32) (n : Fin 2816) :
    acc0 (admA m) (VA m) c (4 * g.val + (s + 1)) h (ix3 (0 : Fin 1) r n)
      = acc0 (admA m) (VA m) c (4 * g.val + s) (by omega) (ix3 (0 : Fin 1) r n) + ∑ k : Fin 1024, term (ax0 m c) (ax1 m c) (ax4 m c) g r n (kcol (s + 1) hs k) := by
  rw [acc0_eq', dif_neg (by omega)]
  refine (pay0_apply _ _ _ _ r n).trans ?_
  rw [word0_eq (admA m) ⟨4 * g.val + (s + 1), h⟩ g (s + 1) hs rfl, tblA_eq m c,
    acc0_congr (admA m) (VA m) c (4 * g.val + (s + 1) - 1) (4 * g.val + s) _ (by omega) (by omega)]
  refine congrArg (acc0 (admA m) (VA m) c (4 * g.val + s) _ (ix3 (0 : Fin 1) r n) + ·) (Finset.sum_congr rfl fun k _ => ?_)
  rw [xblkA_apply (admA m) (VA m) c ⟨4 * g.val + (s + 1), h⟩ g (s + 1) hs rfl, wblkA_apply (admA m) (VA m) c ⟨4 * g.val + (s + 1), h⟩ g (s + 1) hs rfl]
  rfl

/-- WHAT A WRITING POINT WRITES BACK (the last K-tile of a group) is its block of the function. -/
theorem flushedA_eq (c : Dev nD) (t : Fin (cfg0 (admA m)).N) (hf : ((cfg0 (admA m)).win 2).flush t = true) :
    (datA m c).flushed (2 : Fin 3) t = (((cfg0 (admA m)).win 2).blk t).view.read (Elt Ideal) (GA (ax0 m c) (ax1 m c) (ax4 m c)) := by
  have h3 : t.val % 4 = 3 := by rw [flush0_2] at hf; exact of_decide_eq_true hf
  have hN : (cfg0 (admA m)).N = 32 := N0_eq (admA m)
  have hlt := t.isLt
  let g : Fin 8 := ⟨t.val / 4, by omega⟩
  have ht : t.val = 4 * g.val + 3 := by show t.val = 4 * (t.val / 4) + 3; omega
  show ((cfg0 (admA m)).win 2).cut (grid0.coords t) ((datA m c).after (2 : Fin 3) t) = _
  refine funext fun (j : S1x32x2816.Idx) => ?_
  obtain ⟨r, n, rfl⟩ : ∃ (r : Fin 32) (n : Fin 2816), j = ix3 (0 : Fin 1) r n :=
    ⟨j 1, j 2, (eq_ix3 j).trans (by congr 1; exact Fin.ext (Nat.lt_one_iff.mp (j 0).isLt))⟩
  show acc0 (admA m) (VA m) c t.val t.isLt (ix3 (0 : Fin 1) r n)
    = GA _ _ _ ((((cfg0 (admA m)).win 2).blk t).view.emb (ix3 (0 : Fin 1) r n))
  have e3 : acc0 (admA m) (VA m) c (4 * g.val + 3) (by omega) (ix3 (0 : Fin 1) r n)
      = acc0 (admA m) (VA m) c (4 * g.val + 2) (by omega) (ix3 (0 : Fin 1) r n) + ∑ k : Fin 1024, term (ax0 m c) (ax1 m c) (ax4 m c) g r n (kcol 3 (by omega) k) :=
    acc_next m c g 2 (by omega) (by omega) r n
  have e2 : acc0 (admA m) (VA m) c (4 * g.val + 2) (by omega) (ix3 (0 : Fin 1) r n)
      = acc0 (admA m) (VA m) c (4 * g.val + 1) (by omega) (ix3 (0 : Fin 1) r n) + ∑ k : Fin 1024, term (ax0 m c) (ax1 m c) (ax4 m c) g r n (kcol 2 (by omega) k) :=
    acc_next m c g 1 (by omega) (by omega) r n
  have e1 : acc0 (admA m) (VA m) c (4 * g.val + 1) (by omega) (ix3 (0 : Fin 1) r n)
      = acc0 (admA m) (VA m) c (4 * g.val + 0) (by omega) (ix3 (0 : Fin 1) r n) + ∑ k : Fin 1024, term (ax0 m c) (ax1 m c) (ax4 m c) g r n (kcol 1 (by omega) k) :=
    acc_next m c g 0 (by omega) (by omega) r n
  have e0 := acc_first m c g (by omega) r n
  refine (congrFun (acc0_congr (admA m) (VA m) c t.val (4 * g.val + 3) t.isLt (by omega) ht) _).trans ?_
  rw [e3, e2, e1, e0]
  refine (Cert.MaskedGemm.sum_tiles4 (term (ax0 m c) (ax1 m c) (ax4 m c) g r n)).trans
    (Eq.trans ?_ (congrArg (GA _ _ _) (emb0_2 (admA m) t g 3 (by omega) ht r n).symm))
  exact Cert.MaskedGemm.sum_select_mul _ (fun k => ax0 m c (ix3 g r k)) (fun k => ax1 m c (ix3 g n k))

/-- An index of the array is in point `t`'s block iff each coordinate is in the block's range on its axis. -/
theorem mem_blkA (t : Fin (cfg0 a0).N) (i : S8x32x2816.Idx) :
    i ∈ (((cfg0 a0).win 2).blk t).view.set ↔ ∀ a : Fin 3, ((cfg0 a0).win 2).index t a * S1x32x2816.size a ≤ (i a).val
      ∧ (i a).val < ((cfg0 a0).win 2).index t a * S1x32x2816.size a + S1x32x2816.size a := by
  show i ∈ ((View.whole main_v0).slice (rectA a0 t)).set ↔ _
  rw [View.set_slice_whole]
  exact Rect.mem_set_unit

/-- The eight output blocks tile the array: (g, r, n) is in the block the point 4 g + 3 writes back. -/
theorem coverA (i : S8x32x2816.Idx) : ∃ t : Fin (cfg0 a0).N, ((cfg0 a0).win 2).flush t = true ∧ i ∈ (((cfg0 a0).win 2).blk t).view.set := by
  have h0 : (i 0).val < 8 := (i 0).isLt
  have h1 : (i 1).val < 32 := (i 1).isLt
  have h2 : (i 2).val < 2816 := (i 2).isLt
  have hN := N0_eq a0
  refine ⟨⟨4 * (i 0).val + 3, by omega⟩, by rw [flush0_2]; exact decide_eq_true (by show (4 * (i 0).val + 3) % 4 = 3; omega), ?_⟩
  rw [mem_blkA]
  have e := (idx0 a0 ⟨4 * (i 0).val + 3, by omega⟩).2.2.1
  intro a
  match a with
  | ⟨0, _⟩ =>
    show ((cfg0 a0).win 2).index _ (0 : Fin 3) * 1 ≤ (i 0).val ∧ (i 0).val < ((cfg0 a0).win 2).index _ (0 : Fin 3) * 1 + 1
    rw [e]; simp only [Matrix.cons_val_zero]; omega
  | ⟨1, _⟩ =>
    show ((cfg0 a0).win 2).index _ (1 : Fin 3) * 32 ≤ (i 1).val ∧ (i 1).val < ((cfg0 a0).win 2).index _ (1 : Fin 3) * 32 + 32
    rw [e]; simp only [Matrix.cons_val_one, Matrix.cons_val_zero]; omega
  | ⟨2, _⟩ =>
    show ((cfg0 a0).win 2).index _ (2 : Fin 3) * 2816 ≤ (i 2).val ∧ (i 2).val < ((cfg0 a0).win 2).index _ (2 : Fin 3) * 2816 + 2816
    rw [e]; simp only [Matrix.cons_val_two, Matrix.cons_val_one, Matrix.cons_val_zero, Matrix.tail_cons, Matrix.head_cons]; omega

/-- THE ARRAY after the run. -/
theorem outA_eq (c : Dev nD) : outA m c = GA (ax0 m c) (ax1 m c) (ax4 m c) :=
  (datA m c).arrAt_eq_of_cover (2 : Fin 3) _ (fun t hf => flushedA_eq m c t hf) (coverA (admA m))

end Cert.KernelIdeal.Hand

end
-- ==== Proof.IdealPayload1.lean ====
/-
  Region 1's payload at an index, over the extended reals: entry (0, r, n) of what the body stores is the sum over the
  contracted axis of the row-masked x entry times the w entry,
      Σ_k (if r < count then x(0, r, k) else 0) · w(0, n, k),
  the format changes being the identity and the product into a zero accumulator the plain sum.
-/
import proofs.«402499_j13950053777726_3_alg».proof.Proof.Gen.KernelIdeal.Skeleton
import Idealize.ShloMosaic.Lib.Pipeline.Value
import Idealize.ShloMosaic.Lib.ValueIdx
import Idealize.ShloMosaic.PureOps.Ideal.Laws
import Idealize.ShloMosaic.PureOps.BitExact

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat Cfg Window)
open Idealize.ShloMosaic.ValueIdx

/-! ## The matrix product into a zero accumulator, at an index -/

theorem lhsB_0 (i : S32x2048.Idx) (q : dot_S32x1408_S2048x1408_S32x2048_1_1_0_0_n_n.contr.Idx) :
    (dot_S32x1408_S2048x1408_S32x2048_1_1_0_0_n_n.lhsIdx i q 0).val = (i 0).val := by
  unfold DotDims.lhsIdx
  rw [dif_neg (show ¬(0 : Fin S32x1408.rank) ∈ dot_S32x1408_S2048x1408_S32x2048_1_1_0_0_n_n.lhsBatch by decide), dif_pos (show (0 : Fin S32x1408.rank) ∈ dot_S32x1408_S2048x1408_S32x2048_1_1_0_0_n_n.lhsNonContracting by decide)]
  rfl
theorem lhsB_1 (i : S32x2048.Idx) (q : dot_S32x1408_S2048x1408_S32x2048_1_1_0_0_n_n.contr.Idx) :
    (dot_S32x1408_S2048x1408_S32x2048_1_1_0_0_n_n.lhsIdx i q 1).val = (q ⟨0, by decide⟩).val :=
  dot_S32x1408_S2048x1408_S32x2048_1_1_0_0_n_n.lhsIdx_val_of_single rfl i q
theorem rhsB_0 (i : S32x2048.Idx) (q : dot_S32x1408_S2048x1408_S32x2048_1_1_0_0_n_n.contr.Idx) :
    (dot_S32x1408_S2048x1408_S32x2048_1_1_0_0_n_n.rhsIdx i q 0).val = (i 1).val := by
  unfold DotDims.rhsIdx
  rw [dif_neg (show ¬(0 : Fin S2048x1408.rank) ∈ dot_S32x1408_S2048x1408_S32x2048_1_1_0_0_n_n.rhsBatch by decide), dif_pos (show (0 : Fin S2048x1408.rank) ∈ dot_S32x1408_S2048x1408_S32x2048_1_1_0_0_n_n.rhsNonContracting by decide)]
  rfl
theorem rhsB_1 (i : S32x2048.Idx) (q : dot_S32x1408_S2048x1408_S32x2048_1_1_0_0_n_n.contr.Idx) :
    (dot_S32x1408_S2048x1408_S32x2048_1_1_0_0_n_n.rhsIdx i q 1).val = (q ⟨0, by decide⟩).val :=
  dot_S32x1408_S2048x1408_S32x2048_1_1_0_0_n_n.rhsIdx_val_of_single rfl i q

/-- Entry (r, n) of the product of a [32, 1408] with the transpose of a [2048, 1408] is Σ_k A(r, k) · B(n, k). -/
theorem matmulB_apply (A : FVec Ideal S32x1408 .bf16) (B : FVec Ideal S2048x1408 .bf16) (i : S32x2048.Idx) :
    matmul dot_S32x1408_S2048x1408_S32x2048_1_1_0_0_n_n none A B (constant (F := Ideal) S32x2048 .f32 0x00000000#32) i
      = ∑ k : Fin 1408, A (ix2 (i 0) k) * B (ix2 (i 1) k) := by
  simp only [matmul]
  rw [Ideal.matmul_constant_zero_apply, ← Equiv.sum_comp (ValueIdx.contrEquiv1 dot_S32x1408_S2048x1408_S32x2048_1_1_0_0_n_n 1408 rfl rfl).symm]
  refine Finset.sum_congr rfl fun k _ => ?_
  have hk := ValueIdx.contrEquiv1_symm_val dot_S32x1408_S2048x1408_S32x2048_1_1_0_0_n_n 1408 rfl rfl k
  have el : dot_S32x1408_S2048x1408_S32x2048_1_1_0_0_n_n.lhsIdx i ((ValueIdx.contrEquiv1 dot_S32x1408_S2048x1408_S32x2048_1_1_0_0_n_n 1408 rfl rfl).symm k) = ix2 (i 0) k := funext fun a => Fin.ext (by
    match a with
    | ⟨0, _⟩ => exact lhsB_0 _ _
    | ⟨1, _⟩ => exact (lhsB_1 _ _).trans hk)
  have er : dot_S32x1408_S2048x1408_S32x2048_1_1_0_0_n_n.rhsIdx i ((ValueIdx.contrEquiv1 dot_S32x1408_S2048x1408_S32x2048_1_1_0_0_n_n 1408 rfl rfl).symm k) = ix2 (i 1) k := funext fun a => Fin.ext (by
    match a with
    | ⟨0, _⟩ => exact rhsB_0 _ _
    | ⟨1, _⟩ => exact (rhsB_1 _ _).trans hk)
  exact congrArg₂ (· * ·) (congrArg A el) (congrArg B er)

/-! ## The payload at an index -/

/-- Entry (0, r, n) of region 1's payload. -/
theorem pay1_apply (wd : Elt Ideal .i32) (x3 : Vec Ideal S1x32x1408 .f32) (x4 : Vec Ideal S1x2048x1408 .f32) (r : Fin 32) (n : Fin 2048) :
    k1_pay1 (F := Ideal) wd x3 x4 (ix3 (0 : Fin 1) r n)
      = ∑ k : Fin 1408, Scalar.select (IntOp.cmpi .slt (BitVec.ofNat 32 r.val) wd) (x3 (ix3 (0 : Fin 1) r k)) (0 : EReal) * x4 (ix3 (0 : Fin 1) n k) := by
  unfold k1_pay1
  rw [shapeCast_addUnit_apply]
  have hi : (fun a : Fin 2 => ix3 (0 : Fin 1) r n a.succ) = ix2 r n := funext fun a => by
    match a with
    | ⟨0, _⟩ => rfl
    | ⟨1, _⟩ => rfl
  rw [hi, matmulB_apply]
  refine Finset.sum_congr rfl fun k _ => ?_
  have e3 : (Fin.cons ⟨0, Nat.one_pos⟩ (ix2 r k) : S1x32x1408.Idx) = ix3 (0 : Fin 1) r k := funext fun a => by
    match a with
    | ⟨0, _⟩ => rfl
    | ⟨1, _⟩ => rfl
    | ⟨2, _⟩ => rfl
  have e4 : (Fin.cons ⟨0, Nat.one_pos⟩ (ix2 n k) : S1x2048x1408.Idx) = ix3 (0 : Fin 1) n k := funext fun a => by
    match a with
    | ⟨0, _⟩ => rfl
    | ⟨1, _⟩ => rfl
    | ⟨2, _⟩ => rfl
  show Scalar.select (IntOp.cmpi .slt (iota .tc S32x1408 32 [0] iota_S32x1408_d0_w32 (ix2 r k)) wd)
      (shapeCast S32x1408 x3 shapeCasts_S1x32x1408_S32x1408 (ix2 r k)) (Ideal.ofBits .f32 0x00000000#32)
      * shapeCast S2048x1408 x4 shapeCasts_S1x2048x1408_S2048x1408 (ix2 n k) = _
  rw [iota_single_apply, shapeCast_dropUnit_apply, shapeCast_dropUnit_apply, e3, e4, Ideal.ofBits_zero_f32]

end Cert.KernelIdeal.Hand

end
-- ==== Proof.IdealArray1.lean ====
/-
  Region 1's result array after the run, as one function of the argument arrays: entry (g, r, n) is
      if r < count(g) then Σ_k x(g, r, k) · w(g, n, k) else 0.
  Point t = 2 g + j of the grid holds the x block (g, :, :), the w block (g, j-th half, :) and writes the output block
  (g, :, j-th half) back at once; the sixteen output blocks tile the array. What a point writes is its block of that
  function: the payload's masked sum is the masked full contraction, a zero factor annihilating each product.
-/
import proofs.«402499_j13950053777726_3_alg».proof.Proof.IdealRun
import proofs.«402499_j13950053777726_3_alg».proof.Proof.IdealPayload1
import proofs.«402499_j13950053777726_3_alg».proof.Proof.MaskAlgebra
import Idealize.ShloMosaic.Lib.Pipeline.Value
import Idealize.ShloMosaic.Lib.ValueIdx
import Idealize.ShloMosaic.PureOps.Ideal.Laws
import Idealize.ShloMosaic.PureOps.BitExact

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat Cfg Window)
open Idealize.ShloMosaic.ValueIdx

variable {F : FTy → Type} [FloatOps F]

/-! ## The schedule, which the table does not enter: decided at closed contents -/

def admZ1 : (pcfg1 (F := Bits)).Adm := ⟨fun _ => Classical.arbitrary _, trivial⟩

theorem idxZ1 : ∀ t : Fin (cfg1 (F := Bits) admZ1).N,
    ((cfg1 (F := Bits) admZ1).win 0).index t = ![t.val / 2, 0, 0]
    ∧ ((cfg1 (F := Bits) admZ1).win 1).index t = ![t.val / 2, t.val % 2, 0]
    ∧ ((cfg1 (F := Bits) admZ1).win 2).index t = ![t.val / 2, 0, t.val % 2]
    ∧ ((cfg1 (F := Bits) admZ1).win 2).flush t = true
    ∧ ((Rect.unit (s := S8) (k1_off1 ((cfg1 (F := Bits) admZ1).grid.coords t)) S1.size (k1_off1_inb _)).emb (Shape.Idx.first (numel1_S1.symm ▸ Nat.one_pos)) 0).val = t.val / 2 := by
  decide +kernel

variable (a1 : (pcfg1 (F := F)).Adm)

theorem idx1 (t : Fin (cfg1 a1).N) :
    ((cfg1 a1).win 0).index t = ![t.val / 2, 0, 0]
    ∧ ((cfg1 a1).win 1).index t = ![t.val / 2, t.val % 2, 0]
    ∧ ((cfg1 a1).win 2).index t = ![t.val / 2, 0, t.val % 2]
    ∧ ((cfg1 a1).win 2).flush t = true
    ∧ ((Rect.unit (s := S8) (k1_off1 ((cfg1 a1).grid.coords t)) S1.size (k1_off1_inb _)).emb (Shape.Idx.first (numel1_S1.symm ▸ Nat.one_pos)) 0).val = t.val / 2 := idxZ1 t
theorem N1_eq : (cfg1 a1).N = 16 := N_1

/-- The group of point `t`. -/
abbrev grp1 (t : Fin (cfg1 a1).N) : Fin 8 := ⟨t.val / 2, by have := t.isLt; have := N1_eq a1; omega⟩
/-- The row of w the point's w block starts at, plus an offset inside the block. -/
abbrev col1 (t : Fin (cfg1 a1).N) (n : Fin 2048) : Fin 4096 := ⟨t.val % 2 * 2048 + n.val, by have := n.isLt; omega⟩

variable (V : (c : Dev nD) → (b : Ref sig .tc) → Buf (Elt F) ((c : Thread nD τ).loc b))

/-- The table's word at point `t` is its group's entry. -/
theorem word1_eq (t : Fin (cfg1 a1).N) (x : Vec F S8 .i32) : word1 (grid1.coords t) x = x (ValueIdx.ix1 (grp1 a1 t)) := by
  unfold word1
  refine congrArg x (funext fun a => Fin.ext ?_)
  match a with
  | ⟨0, _⟩ => exact (idx1 a1 t).2.2.2.2

/-- The x block of point `t` is rows (g, :, :) of the array. -/
theorem iblk1_0_apply (c : Dev nD) (t : Fin (cfg1 a1).N) (r : Fin 32) (k : Fin 1408) :
    iblk1 a1 V c 0 t (ix3 (0 : Fin 1) r k) = V c main_arg2 (ix3 (grp1 a1 t) r k) := by
  show V c main_arg2 ((((cfg1 a1).win 0).blk t).view.emb (ix3 (0 : Fin 1) r k)) = _
  refine congrArg _ (funext fun a => Fin.ext ?_)
  have e := (idx1 a1 t).1
  match a with
  | ⟨0, _⟩ => show ((cfg1 a1).win 0).index t (0 : Fin 3) * 1 + 1 * 0 = t.val / 2; rw [e]; simp
  | ⟨1, _⟩ => show ((cfg1 a1).win 0).index t (1 : Fin 3) * 32 + 1 * r.val = r.val; rw [e]; simp
  | ⟨2, _⟩ => show ((cfg1 a1).win 0).index t (2 : Fin 3) * 1408 + 1 * k.val = k.val; rw [e]; simp

/-- The w block of point `t` is rows (g, j-th half, :) of the array. -/
theorem iblk1_1_apply (c : Dev nD) (t : Fin (cfg1 a1).N) (n : Fin 2048) (k : Fin 1408) :
    iblk1 a1 V c 1 t (ix3 (0 : Fin 1) n k) = V c main_arg3 (ix3 (grp1 a1 t) (col1 a1 t n) k) := by
  show V c main_arg3 ((((cfg1 a1).win 1).blk t).view.emb (ix3 (0 : Fin 1) n k)) = _
  refine congrArg _ (funext fun a => Fin.ext ?_)
  have e := (idx1 a1 t).2.1
  match a with
  | ⟨0, _⟩ => show ((cfg1 a1).win 1).index t (0 : Fin 3) * 1 + 1 * 0 = t.val / 2; rw [e]; simp
  | ⟨1, _⟩ => show ((cfg1 a1).win 1).index t (1 : Fin 3) * 2048 + 1 * n.val = t.val % 2 * 2048 + n.val; rw [e]; simp
  | ⟨2, _⟩ => show ((cfg1 a1).win 1).index t (2 : Fin 3) * 1408 + 1 * k.val = k.val; rw [e]; simp

/-- An element of the output block of point `t` sits at (g, r, j-th half + n) of the array. -/
theorem emb1_2 (t : Fin (cfg1 a1).N) (r : Fin 32) (n : Fin 2048) :
    (((cfg1 a1).win 2).blk t).view.emb (ix3 (0 : Fin 1) r n) = (ix3 (grp1 a1 t) r (col1 a1 t n) : S8x32x4096.Idx) := by
  refine funext fun a => Fin.ext ?_
  have e := (idx1 a1 t).2.2.1
  match a with
  | ⟨0, _⟩ => show ((cfg1 a1).win 2).index t (0 : Fin 3) * 1 + 1 * 0 = t.val / 2; rw [e]; simp
  | ⟨1, _⟩ => show ((cfg1 a1).win 2).index t (1 : Fin 3) * 32 + 1 * r.val = r.val; rw [e]; simp
  | ⟨2, _⟩ => show ((cfg1 a1).win 2).index t (2 : Fin 3) * 2048 + 1 * n.val = t.val % 2 * 2048 + n.val; rw [e]; simp

/-- The point's input blocks and its output block's rectangle, at their literal types. -/
def xblkB (c : Dev nD) (t : Fin (cfg1 a1).N) : Vec F S1x32x1408 .f32 := iblk1 a1 V c 0 t
def wblkB (c : Dev nD) (t : Fin (cfg1 a1).N) : Vec F S1x2048x1408 .f32 := iblk1 a1 V c 1 t
abbrev rectB (t : Fin (cfg1 a1).N) : Rect S8x32x4096 := ((cfg1 a1).win 2).rect t
theorem xblkB_apply (c : Dev nD) (t : Fin (cfg1 a1).N) (r : Fin 32) (k : Fin 1408) :
    xblkB a1 V c t (ix3 (0 : Fin 1) r k) = V c main_arg2 (ix3 (grp1 a1 t) r k) := iblk1_0_apply a1 V c t r k
theorem wblkB_apply (c : Dev nD) (t : Fin (cfg1 a1).N) (n : Fin 2048) (k : Fin 1408) :
    wblkB a1 V c t (ix3 (0 : Fin 1) n k) = V c main_arg3 (ix3 (grp1 a1 t) (col1 a1 t n) k) := iblk1_1_apply a1 V c t n k
theorem out1_eq (c : Dev nD) (t : Fin (cfg1 a1).N) :
    out1 a1 V c t = k1_pay1 (word1 (grid1.coords t) (tbl1 a1)) (xblkB a1 V c t) (wblkB a1 V c t) := rfl

/-! ## The result array -/

/-- Region 1's result as one function of the argument arrays. -/
def GB (x2 : Vec Ideal S8x32x1408 .f32) (x3 : Vec Ideal S8x4096x1408 .f32) (x4 : Vec Ideal S8 .i32) : Vec Ideal S8x32x4096 .f32 :=
  fun i => Scalar.select (IntOp.cmpi .slt (BitVec.ofNat 32 (i 1).val) (x4 (ValueIdx.ix1 (i 0))))
    (∑ k : Fin 1408, x2 (ix3 (i 0) (i 1) k) * x3 (ix3 (i 0) (i 2) k)) (0 : EReal)

variable (m : (ℓ : Loc nD τ sig) → Buf (Elt Ideal) ℓ)

/-- Region 1 finds the arguments it stages as launched: region 0 wrote only its own result array. -/
theorem VB_arg2 (c : Dev nD) : VB m c main_arg2 = m ((c : Thread nD τ).loc main_arg2) :=
  ((congrFun (V1_eq m c) _).symm.trans (Gen.V1_of m (outs m) c main_arg2 (by decide))).trans rfl
theorem VB_arg3 (c : Dev nD) : VB m c main_arg3 = m ((c : Thread nD τ).loc main_arg3) :=
  ((congrFun (V1_eq m c) _).symm.trans (Gen.V1_of m (outs m) c main_arg3 (by decide))).trans rfl
theorem tblB_eq (c : Dev nD) : tbl1 (admB m) = m ((c : Thread nD τ).loc main_arg4) := by
  obtain rfl : c = 0 := Subsingleton.elim _ _
  rfl

/-- WHAT POINT `t` WRITES BACK is block `t` of the function. -/
theorem flushedB_eq (c : Dev nD) (t : Fin (cfg1 (admB m)).N) :
    (datB m c).flushed (2 : Fin 3) t = (((cfg1 (admB m)).win 2).blk t).view.read (Elt Ideal)
      (GB (m ((c : Thread nD τ).loc main_arg2)) (m ((c : Thread nD τ).loc main_arg3)) (m ((c : Thread nD τ).loc main_arg4))) := by
  show ((cfg1 (admB m)).win 2).cut (grid1.coords t) ((datB m c).after (2 : Fin 3) t) = _
  refine funext fun (j : S1x32x2048.Idx) => ?_
  obtain ⟨r, n, rfl⟩ : ∃ (r : Fin 32) (n : Fin 2048), j = ix3 (0 : Fin 1) r n :=
    ⟨j 1, j 2, (eq_ix3 j).trans (by congr 1; exact Fin.ext (Nat.lt_one_iff.mp (j 0).isLt))⟩
  show k1_pay1 (F := Ideal) (word1 (grid1.coords t) (tbl1 (admB m))) (xblkB (admB m) (VB m) c t) (wblkB (admB m) (VB m) c t) (ix3 (0 : Fin 1) r n)
    = GB _ _ _ ((((cfg1 (admB m)).win 2).blk t).view.emb (ix3 (0 : Fin 1) r n))
  refine (pay1_apply _ _ _ r n).trans (Eq.trans ?_ (congrArg (GB _ _ _) (emb1_2 (admB m) t r n).symm))
  rw [word1_eq, Cert.MaskedGemm.sum_select_mul, tblB_eq m c]
  unfold GB
  refine congrArg (fun s => Scalar.select _ s (0 : EReal)) (Finset.sum_congr rfl fun k _ => ?_)
  rw [xblkB_apply, wblkB_apply, VB_arg2, VB_arg3]

/-- An index of the array is in point `t`'s block iff each coordinate is in the block's range on its axis. -/
theorem mem_blkB (t : Fin (cfg1 a1).N) (i : S8x32x4096.Idx) :
    i ∈ (((cfg1 a1).win 2).blk t).view.set ↔ ∀ a : Fin 3, ((cfg1 a1).win 2).index t a * S1x32x2048.size a ≤ (i a).val
      ∧ (i a).val < ((cfg1 a1).win 2).index t a * S1x32x2048.size a + S1x32x2048.size a := by
  show i ∈ ((View.whole main_v1).slice (rectB a1 t)).set ↔ _
  rw [View.set_slice_whole]
  exact Rect.mem_set_unit

/-- The sixteen output blocks tile the array: (g, r, n) is in the block of point 2 g + n / 2048. -/
theorem coverB (i : S8x32x4096.Idx) : ∃ t : Fin (cfg1 a1).N, ((cfg1 a1).win 2).flush t = true ∧ i ∈ (((cfg1 a1).win 2).blk t).view.set := by
  have h0 : (i 0).val < 8 := (i 0).isLt
  have h1 : (i 1).val < 32 := (i 1).isLt
  have h2 : (i 2).val < 4096 := (i 2).isLt
  have hN := N1_eq a1
  refine ⟨⟨2 * (i 0).val + (i 2).val / 2048, by omega⟩, (idx1 a1 _).2.2.2.1, ?_⟩
  rw [mem_blkB]
  have e := (idx1 a1 ⟨2 * (i 0).val + (i 2).val / 2048, by omega⟩).2.2.1
  intro a
  match a with
  | ⟨0, _⟩ =>
    show ((cfg1 a1).win 2).index _ (0 : Fin 3) * 1 ≤ (i 0).val ∧ (i 0).val < ((cfg1 a1).win 2).index _ (0 : Fin 3) * 1 + 1
    rw [e]; simp only [Matrix.cons_val_zero]; omega
  | ⟨1, _⟩ =>
    show ((cfg1 a1).win 2).index _ (1 : Fin 3) * 32 ≤ (i 1).val ∧ (i 1).val < ((cfg1 a1).win 2).index _ (1 : Fin 3) * 32 + 32
    rw [e]; simp only [Matrix.cons_val_one, Matrix.cons_val_zero]; omega
  | ⟨2, _⟩ =>
    show ((cfg1 a1).win 2).index _ (2 : Fin 3) * 2048 ≤ (i 2).val ∧ (i 2).val < ((cfg1 a1).win 2).index _ (2 : Fin 3) * 2048 + 2048
    rw [e]; simp only [Matrix.cons_val_two, Matrix.cons_val_one, Matrix.cons_val_zero, Matrix.tail_cons, Matrix.head_cons]; omega

/-- THE ARRAY after the run. -/
theorem outB_eq (c : Dev nD) : outB m c
    = GB (m ((c : Thread nD τ).loc main_arg2)) (m ((c : Thread nD τ).loc main_arg3)) (m ((c : Thread nD τ).loc main_arg4)) :=
  (datB m c).arrAt_eq_of_cover (2 : Fin 3) _ (fun t _ => flushedB_eq m c t) (coverB (admB m))

end Cert.KernelIdeal.Hand

end
-- ==== Proof.IdealResult.lean ====
/-
  The result buffer of the idealized kernel: the host's concatenation, along the last axis, of what region 0 and
  region 1 leave in their result arrays — each the masked full contraction of its operands.
-/
import proofs.«402499_j13950053777726_3_alg».proof.Proof.IdealValueRun
import proofs.«402499_j13950053777726_3_alg».proof.Proof.IdealArray0
import proofs.«402499_j13950053777726_3_alg».proof.Proof.IdealArray1
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ)

/-- The concatenation both programs end with, as one function of its two operands. -/
def joined (a : Vec Ideal S8x32x2816 .f32) (b : Vec Ideal S8x32x4096 .f32) : Vec Ideal S8x32x6912 .f32 :=
  concatenate S8x32x6912 2 [⟨S8x32x2816, a⟩, ⟨S8x32x4096, b⟩] concatenates_S8x32x2816_S8x32x4096_S8x32x6912_d2

theorem V3_main_v2 (c : Dev nD) : Gen.V3 m (outs m) c main_v2 = joined (outA m c) (outB m c) := by
  show StableHlo.after hostOps2 (Gen.V2 m (outs m) c) (Proc.devRef .tc main_v2) = _
  after_results
  rw [show Gen.V2 m (outs m) c (Proc.devRef .tc main_v1) = outB m c from V2_main_v1 m c,
    show Gen.V2 m (outs m) c (Proc.devRef .tc main_v0) = outA m c from (Gen.V2_of m (outs m) c main_v0 (by decide)).trans (V1_main_v0 m c)]
  rfl

/-- The result buffer as a function of the argument arrays as launched. -/
theorem result_eq (c : Dev nD) : Gen.V3 m (outs m) c main_v2
    = joined (GA (ax0 m c) (ax1 m c) (ax4 m c))
        (GB (m ((c : Thread nD τ).loc main_arg2)) (m ((c : Thread nD τ).loc main_arg3)) (m ((c : Thread nD τ).loc main_arg4))) := by
  rw [V3_main_v2, outA_eq, outB_eq]

end Cert.KernelIdeal.Hand

end
-- ==== Proof.RefValue.lean ====
/-
  The reference's two masked contractions, read at an index, are the functions the kernel's result arrays were
  shown to hold: the mask of entry (g, r, ·) compares the row r with the group's count, the contraction sums
  x(g, r, k) · w(g, n, k) over k, and the fill is zero.
-/
import proofs.«402499_j13950053777726_3_alg».proof.Proof.Gen.ReferenceIdeal.Run
import proofs.«402499_j13950053777726_3_alg».proof.Proof.Gen.ReferenceIdeal.Read
import proofs.«402499_j13950053777726_3_alg».proof.Proof.IdealArray0
import proofs.«402499_j13950053777726_3_alg».proof.Proof.IdealArray1

set_option maxRecDepth 16384

noncomputable section

namespace Cert.ReferenceIdeal.RefValue

open Cert.ReferenceIdeal Cert.ReferenceIdeal.Read
open Idealize.ShloMosaic Idealize.ShloMosaic.TcCoe Idealize.SL.Sem
open Idealize.ShloMosaic.ValueIdx
open Cert.KernelIdeal.Hand (GA GB)

/-- The up/gate half of the reference's result is the function region 0's array holds. -/
theorem v9_eq (x0 : Vec Ideal S8x32x4096 .f32) (x1 : Vec Ideal S8x2816x4096 .f32) (x4 : Vec Ideal S8 .i32) :
    val_main_v9 (F := Ideal) x0 x1 x4 = GA x0 x1 x4 := by
  funext i
  rw [val_main_v9_apply, val_main_call0_v0_apply, val_main_v6_apply, val_main_v5_apply, val_main_v3_apply, val_main_v1_apply,
    val_main_v0_apply, val_main_v4_apply, val_main_v2_apply, val_main_v7_apply, val_main_call0_v1_apply, val_main_cst_apply]
  unfold GA
  have eg : idx_main_v2 (idx_main_v4 (idx_main_v6 (idx_main_call0_v0 i))) = ValueIdx.ix1 (i 0) := funext fun a => by
    match a with
    | ⟨0, _⟩ => rfl
  have el : ∀ k : Fin 4096, lidx_main_v7 i k = ix3 (i 0) (i 1) k := fun k => funext fun a => by
    match a with
    | ⟨0, _⟩ => rfl
    | ⟨1, _⟩ => rfl
    | ⟨2, _⟩ => rfl
  have er : ∀ k : Fin 4096, ridx_main_v7 i k = ix3 (i 0) (i 2) k := fun k => funext fun a => by
    match a with
    | ⟨0, _⟩ => rfl
    | ⟨1, _⟩ => rfl
    | ⟨2, _⟩ => rfl
  simp only [eg, el, er]
  show Scalar.select _ _ (Ideal.ofBits .f32 0x00000000#32) = _
  rw [Ideal.ofBits_zero_f32]
  rfl

/-- The down half of the reference's result is the function region 1's array holds. -/
theorem v10_eq (x2 : Vec Ideal S8x32x1408 .f32) (x3 : Vec Ideal S8x4096x1408 .f32) (x4 : Vec Ideal S8 .i32) :
    val_main_v10 (F := Ideal) x2 x3 x4 = GB x2 x3 x4 := by
  funext i
  rw [val_main_v10_apply, val_main_call1_v0_apply, val_main_v6_apply, val_main_v5_apply, val_main_v3_apply, val_main_v1_apply,
    val_main_v0_apply, val_main_v4_apply, val_main_v2_apply, val_main_v8_apply, val_main_call1_v1_apply, val_main_cst_0_apply]
  unfold GB
  have eg : idx_main_v2 (idx_main_v4 (idx_main_v6 (idx_main_call1_v0 i))) = ValueIdx.ix1 (i 0) := funext fun a => by
    match a with
    | ⟨0, _⟩ => rfl
  have el : ∀ k : Fin 1408, lidx_main_v8 i k = ix3 (i 0) (i 1) k := fun k => funext fun a => by
    match a with
    | ⟨0, _⟩ => rfl
    | ⟨1, _⟩ => rfl
    | ⟨2, _⟩ => rfl
  have er : ∀ k : Fin 1408, ridx_main_v8 i k = ix3 (i 0) (i 2) k := fun k => funext fun a => by
    match a with
    | ⟨0, _⟩ => rfl
    | ⟨1, _⟩ => rfl
    | ⟨2, _⟩ => rfl
  simp only [eg, el, er]
  show Scalar.select _ _ (Ideal.ofBits .f32 0x00000000#32) = _
  rw [Ideal.ofBits_zero_f32]
  rfl

end Cert.ReferenceIdeal.RefValue

end
-- ==== Proof.lean ====
/-
  A grouped masked GEMM pair (eight groups of thirty-two rows; an up/gate projection contracting 4096 into 2816
  columns and a down projection contracting 1408 into 4096), each row of a group counted valid while its index is below
  the group's entry of a row-count table, the two results joined along the last axis.

  The kernel runs two pipelined regions and a host concatenation. Its first region tiles the contraction of the up/gate
  projection into four K-tiles, zeroing the resident output block at the first tile and adding each tile's product of
  the row-masked x tile with the w tile; its second region tiles the down projection's columns in two halves. Both mask
  the ROWS OF x to zero before the contraction. The reference contracts first and masks the RESULT to zero.

  Over the extended reals the two agree entry by entry: a masked row contributes products 0 · w, which vanish whatever
  w is, so the masked sum is the masked contraction; the four tiles added onto zero in order are the full sum, addition
  being commutative and associative; the format changes are the identity. No finiteness of the inputs is used.

  The frames of both kernel programs come from one run of @main over the generated host side, each region's segment
  record built from its body's triple; the idealized kernel's value run reads the same launch also at the result buffer.
  The reference's frame and value are its generated run.
-/
import proofs.«402499_j13950053777726_3_alg».proof.Defs
import proofs.«402499_j13950053777726_3_alg».proof.Proof.Gen.Kernel
import proofs.«402499_j13950053777726_3_alg».proof.Proof.Gen.KernelIdeal
import proofs.«402499_j13950053777726_3_alg».proof.Proof.Gen.ReferenceIdeal
import proofs.«402499_j13950053777726_3_alg».proof.Proof.Gen.Pre_finite_inputs
import proofs.«402499_j13950053777726_3_alg».proof.Proof.BitsRun
import proofs.«402499_j13950053777726_3_alg».proof.Proof.IdealResult
import proofs.«402499_j13950053777726_3_alg».proof.Proof.RefValue
import Idealize.ShloMosaic.Adequacy
import Idealize.ShloMosaic.Init

noncomputable section

namespace Cert.Proof

open Idealize.ShloMosaic Idealize.SL.Sem

/-- The word-level kernel runs to the end, faults nowhere and leaves its arguments as launched. -/
theorem frame_k : Cert.frame_Kernel := fun m ρ _ => Cert.Kernel.Hand.frame m ρ
/-- So does the idealized kernel: the same text at the other instance. -/
theorem frame_ki : Cert.frame_KernelIdeal := fun m ρ _ => Cert.KernelIdeal.Hand.frame m ρ
/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealized kernel ends with its result buffer at the join of the two masked contractions of the arguments as
    launched, and so does the reference from arguments that agree. -/
theorem algebraic : Cert.algebraic_KernelIdeal_ReferenceIdeal := by
  intro m ρ m' ρ' _ hagree
  refine ⟨fun c => Cert.KernelIdeal.Hand.joined
      (Cert.KernelIdeal.Hand.GA (Cert.KernelIdeal.Hand.ax0 m c) (Cert.KernelIdeal.Hand.ax1 m c) (Cert.KernelIdeal.Hand.ax4 m c))
      (Cert.KernelIdeal.Hand.GB (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))), ?_, ?_⟩
  · exact (θ_run Cert.KernelIdeal.defs _ _).mono
      (fun r h c => ⟨(h c).1.trans (Cert.KernelIdeal.Hand.result_eq m c), (h c).2⟩) (Cert.KernelIdeal.Hand.run_value m ρ)
  · refine (θ_run Cert.ReferenceIdeal.defs _ _).mono (fun _ h c => ⟨(h c).1.trans ?_, (h c).2⟩)
      (Cert.ReferenceIdeal.Value.run (F := Ideal) m' ρ')
    rw [(hagree c).1, (hagree c).2.1, (hagree c).2.2.1, (hagree c).2.2.2.1, (hagree c).2.2.2.2]
    refine (Cert.ReferenceIdeal.Read.val_main_v11_eq _ _ _ _ _).trans ?_
    unfold Cert.ReferenceIdeal.Read.val_main_v11
    rw [Cert.ReferenceIdeal.RefValue.v9_eq, Cert.ReferenceIdeal.RefValue.v10_eq]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
